-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x387 : Shape := ⟨2, ![100000, 387]⟩
abbrev S2x600000 : Shape := ⟨2, ![2, 600000]⟩
abbrev S600000x7 : Shape := ⟨2, ![600000, 7]⟩
abbrev S7x387 : Shape := ⟨2, ![7, 387]⟩
abbrev S387 : Shape := ⟨1, ![387]⟩
abbrev S387x128 : Shape := ⟨2, ![387, 128]⟩
abbrev S128 : Shape := ⟨1, ![128]⟩
abbrev S128x128 : Shape := ⟨2, ![128, 128]⟩
abbrev S7x128 : Shape := ⟨2, ![7, 128]⟩
abbrev S263x128 : Shape := ⟨2, ![263, 128]⟩
abbrev S128x2 : Shape := ⟨2, ![128, 2]⟩
abbrev S2 : Shape := ⟨1, ![2]⟩
abbrev S_ : Shape := ⟨0, ![]⟩

class Facts : Prop where
  bcast_S_S100000x387 : S_.BroadcastsInDim S100000x387 (![] : Fin 0 → Fin S100000x387.rank)
  reducesTo_S100000x387_S_d0_1 : S100000x387.ReducesTo [0, 1] S_
  h_S_ : 0 < S_.numel
  bcast_S_S600000x7 : S_.BroadcastsInDim S600000x7 (![] : Fin 0 → Fin S600000x7.rank)
  reducesTo_S600000x7_S_d0_1 : S600000x7.ReducesTo [0, 1] S_
  bcast_S_S7x387 : S_.BroadcastsInDim S7x387 (![] : Fin 0 → Fin S7x387.rank)
  reducesTo_S7x387_S_d0_1 : S7x387.ReducesTo [0, 1] S_
  bcast_S_S387 : S_.BroadcastsInDim S387 (![] : Fin 0 → Fin S387.rank)
  reducesTo_S387_S_d0 : S387.ReducesTo [0] S_
  bcast_S_S387x128 : S_.BroadcastsInDim S387x128 (![] : Fin 0 → Fin S387x128.rank)
  reducesTo_S387x128_S_d0_1 : S387x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S7x128 : S_.BroadcastsInDim S7x128 (![] : Fin 0 → Fin S7x128.rank)
  reducesTo_S7x128_S_d0_1 : S7x128.ReducesTo [0, 1] S_
  bcast_S_S263x128 : S_.BroadcastsInDim S263x128 (![] : Fin 0 → Fin S263x128.rank)
  reducesTo_S263x128_S_d0_1 : S263x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_v83 : IVec S_ 1) (main_v84 : FVec F S2 .f32) (main_cst_32 : FVec F S_ .f32) : IVec S_ 1 :=
  let main_v85 : FVec F S2 .f32 := broadcastInDim S2 ![] bcast_S_S2 main_cst_32
  let main_v86 : IVec S2 1 := cmpf .olt main_v84 main_v85
  let main_c_33 : IVec S_ 1 := constantI S_ 1 1#1
  let main_v87 : IVec S_ 1 := (fun x v => Host.reduce IntOp.andi x v reducesTo_S2_S_d0 h_S_) main_v86 main_c_33
  let main_v88 : IVec S_ 1 := andi main_v83 main_v87
  main_v88

def fn_part4 {F : FTy → Type} [FloatOps F] (main_arg15 : FVec F S263x128 .f32) (main_arg16 : FVec F S128 .f32) (main_arg17 : FVec F S128x2 .f32) (main_arg18 : FVec F S2 .f32) (main_v63 : IVec S_ 1) (main_v67 : IVec S_ 1) : IVec S_ 1 :=
  let main_v68 : IVec S_ 1 := andi main_v63 main_v67
  let main_v69 : FVec F S263x128 .f32 := Host.absf main_arg15
  let main_cst_26 : FVec F S_ .f32 := constant S_ .f32 0x7F800000#32
  let main_v70 : FVec F S263x128 .f32 := broadcastInDim S263x128 ![] bcast_S_S263x128 main_cst_26
  let main_v71 : IVec S263x128 1 := cmpf .olt main_v69 main_v70
  let main_c_27 : IVec S_ 1 := constantI S_ 1 1#1
  let main_v72 : IVec S_ 1 := (fun x v => Host.reduce IntOp.andi x v reducesTo_S263x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x2 .f32 := Host.absf main_arg17
  let main_cst_30 : FVec F S_ .f32 := constant S_ .f32 0x7F800000#32
  let main_v80 : FVec F S128x2 .f32 := broadcastInDim S128x2 ![] bcast_S_S128x2 main_cst_30
  let main_v81 : IVec S128x2 1 := cmpf .olt main_v79 main_v80
  let main_c_31 : IVec S_ 1 := constantI S_ 1 1#1
  let main_v82 : IVec S_ 1 := (fun x v => Host.reduce IntOp.andi x v reducesTo_S128x2_S_d0_1 h_S_) main_v81 main_c_31
  let main_v83 : IVec S_ 1 := andi main_v78 main_v82
  let main_v84 : FVec F S2 .f32 := Host.absf main_arg18
  let main_cst_32 : FVec F S_ .f32 := constant S_ .f32 0x7F800000#32
  fn_part5 (F := F) main_v83 main_v84 main_cst_32

def fn_part3 {F : FTy → Type} [FloatOps F] (main_arg12 : FVec F S128 .f32) (main_arg13 : FVec F S128x128 .f32) (main_arg14 : FVec F S128 .f32) (main_arg15 : FVec F S263x128 .f32) (main_arg16 : FVec F S128 .f32) (main_arg17 : FVec F S128x2 .f32) (main_arg18 : FVec F S2 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_v63 main_v67

def fn_part2 {F : FTy → Type} [FloatOps F] (main_arg8 : FVec F S128 .f32) (main_arg9 : FVec F S7x128 .f32) (main_arg10 : FVec F S128 .f32) (main_arg11 : FVec F S128x128 .f32) (main_arg12 : FVec F S128 .f32) (main_arg13 : FVec F S128x128 .f32) (main_arg14 : FVec F S128 .f32) (main_arg15 : FVec F S263x128 .f32) (main_arg16 : FVec F S128 .f32) (main_arg17 : FVec F S128x2 .f32) (main_arg18 : FVec F S2 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S7x128 .f32 := Host.absf main_arg9
  let main_cst_14 : FVec F S_ .f32 := constant S_ .f32 0x7F800000#32
  let main_v40 : FVec F S7x128 .f32 := broadcastInDim S7x128 ![] bcast_S_S7x128 main_cst_14
  let main_v41 : IVec S7x128 1 := cmpf .olt main_v39 main_v40
  let main_c_15 : IVec S_ 1 := constantI S_ 1 1#1
  let main_v42 : IVec S_ 1 := (fun x v => Host.reduce IntOp.andi x v reducesTo_S7x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_arg17 main_arg18 main_v48 main_v49 main_v50

def fn_part1 {F : FTy → Type} [FloatOps F] (main_arg5 : FVec F S387x128 .f32) (main_arg6 : FVec F S128 .f32) (main_arg7 : FVec F S128x128 .f32) (main_arg8 : FVec F S128 .f32) (main_arg9 : FVec F S7x128 .f32) (main_arg10 : FVec F S128 .f32) (main_arg11 : FVec F S128x128 .f32) (main_arg12 : FVec F S128 .f32) (main_arg13 : FVec F S128x128 .f32) (main_arg14 : FVec F S128 .f32) (main_arg15 : FVec F S263x128 .f32) (main_arg16 : FVec F S128 .f32) (main_arg17 : FVec F S128x2 .f32) (main_arg18 : FVec F S2 .f32) (main_v13 : IVec S_ 1) (main_v16 : IVec S387 1) : IVec S_ 1 :=
  let main_c_5 : IVec S_ 1 := constantI S_ 1 1#1
  let main_v17 : IVec S_ 1 := (fun x v => Host.reduce IntOp.andi x v reducesTo_S387_S_d0 h_S_) main_v16 main_c_5
  let main_v18 : IVec S_ 1 := andi main_v13 main_v17
  let main_v19 : FVec F S387x128 .f32 := Host.absf main_arg5
  let main_cst_6 : FVec F S_ .f32 := constant S_ .f32 0x7F800000#32
  let main_v20 : FVec F S387x128 .f32 := broadcastInDim S387x128 ![] bcast_S_S387x128 main_cst_6
  let main_v21 : IVec S387x128 1 := cmpf .olt main_v19 main_v20
  let main_c_7 : IVec S_ 1 := constantI S_ 1 1#1
  let main_v22 : IVec S_ 1 := (fun x v => Host.reduce IntOp.andi x v reducesTo_S387x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S100000x387 .f32) (main_arg1 : IVec S2x600000 32) (main_arg2 : FVec F S600000x7 .f32) (main_arg3 : FVec F S7x387 .f32) (main_arg4 : FVec F S387 .f32) (main_arg5 : FVec F S387x128 .f32) (main_arg6 : FVec F S128 .f32) (main_arg7 : FVec F S128x128 .f32) (main_arg8 : FVec F S128 .f32) (main_arg9 : FVec F S7x128 .f32) (main_arg10 : FVec F S128 .f32) (main_arg11 : FVec F S128x128 .f32) (main_arg12 : FVec F S128 .f32) (main_arg13 : FVec F S128x128 .f32) (main_arg14 : FVec F S128 .f32) (main_arg15 : FVec F S263x128 .f32) (main_arg16 : FVec F S128 .f32) (main_arg17 : FVec F S128x2 .f32) (main_arg18 : FVec F S2 .f32) : IVec S_ 1 :=
  let main_v0 : FVec F S100000x387 .f32 := Host.absf main_arg0
  let main_cst : FVec F S_ .f32 := constant S_ .f32 0x7F800000#32
  let main_v1 : FVec F S100000x387 .f32 := broadcastInDim S100000x387 ![] bcast_S_S100000x387 main_cst
  let main_v2 : IVec S100000x387 1 := cmpf .olt main_v0 main_v1
  let main_c : IVec S_ 1 := constantI S_ 1 1#1
  let main_v3 : IVec S_ 1 := (fun x v => Host.reduce IntOp.andi x v reducesTo_S100000x387_S_d0_1 h_S_) main_v2 main_c
  let main_v4 : FVec F S600000x7 .f32 := Host.absf main_arg2
  let main_cst_0 : FVec F S_ .f32 := constant S_ .f32 0x7F800000#32
  let main_v5 : FVec F S600000x7 .f32 := broadcastInDim S600000x7 ![] bcast_S_S600000x7 main_cst_0
  let main_v6 : IVec S600000x7 1 := cmpf .olt main_v4 main_v5
  let main_c_1 : IVec S_ 1 := constantI S_ 1 1#1
  let main_v7 : IVec S_ 1 := (fun x v => Host.reduce IntOp.andi x v reducesTo_S600000x7_S_d0_1 h_S_) main_v6 main_c_1
  let main_v8 : IVec S_ 1 := andi main_v3 main_v7
  let main_v9 : FVec F S7x387 .f32 := Host.absf main_arg3
  let main_cst_2 : FVec F S_ .f32 := constant S_ .f32 0x7F800000#32
  let main_v10 : FVec F S7x387 .f32 := broadcastInDim S7x387 ![] bcast_S_S7x387 main_cst_2
  let main_v11 : IVec S7x387 1 := cmpf .olt main_v9 main_v10
  let main_c_3 : IVec S_ 1 := constantI S_ 1 1#1
  let main_v12 : IVec S_ 1 := (fun x v => Host.reduce IntOp.andi x v reducesTo_S7x387_S_d0_1 h_S_) main_v11 main_c_3
  let main_v13 : IVec S_ 1 := andi main_v8 main_v12
  let main_v14 : FVec F S387 .f32 := Host.absf main_arg4
  let main_cst_4 : FVec F S_ .f32 := constant S_ .f32 0x7F800000#32
  let main_v15 : FVec F S387 .f32 := broadcastInDim S387 ![] bcast_S_S387 main_cst_4
  let main_v16 : IVec S387 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S100000x387 : Shape := ⟨2, ![100000, 387]⟩
abbrev S2x600000 : Shape := ⟨2, ![2, 600000]⟩
abbrev S600000x7 : Shape := ⟨2, ![600000, 7]⟩
abbrev S7x387 : Shape := ⟨2, ![7, 387]⟩
abbrev S387 : Shape := ⟨1, ![387]⟩
abbrev S387x128 : Shape := ⟨2, ![387, 128]⟩
abbrev S128 : Shape := ⟨1, ![128]⟩
abbrev S128x128 : Shape := ⟨2, ![128, 128]⟩
abbrev S7x128 : Shape := ⟨2, ![7, 128]⟩
abbrev S263x128 : Shape := ⟨2, ![263, 128]⟩
abbrev S128x2 : Shape := ⟨2, ![128, 2]⟩
abbrev S2 : Shape := ⟨1, ![2]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x387 : Shape := ⟨2, ![600000, 387]⟩
abbrev S1x387 : Shape := ⟨2, ![1, 387]⟩
abbrev S2400x387 : Shape := ⟨2, ![2400, 387]⟩
abbrev S2400x7 : Shape := ⟨2, ![2400, 7]⟩
abbrev S1x128 : Shape := ⟨2, ![1, 128]⟩
abbrev S100000x128 : Shape := ⟨2, ![100000, 128]⟩
abbrev S2000x387 : Shape := ⟨2, ![2000, 387]⟩
abbrev S2000x128 : Shape := ⟨2, ![2000, 128]⟩
abbrev S600000x128 : Shape := ⟨2, ![600000, 128]⟩
abbrev S2400x128 : Shape := ⟨2, ![2400, 128]⟩
abbrev S1x2 : Shape := ⟨2, ![1, 2]⟩
abbrev S600000x2 : Shape := ⟨2, ![600000, 2]⟩
abbrev S2400x2 : Shape := ⟨2, ![2400, 2]⟩

abbrev nBuf : Space → Nat
  | .hbm => 83
  | .vmem => 50
  | .smem => 0
  | _ => 0

abbrev bufTy : (tb : Table) → Fin (tcTables nBuf tb) → BufTy
  | .hbm, ⟨0, _⟩ => ⟨S100000x387, .f32⟩
  | .hbm, ⟨1, _⟩ => ⟨S2x600000, .i32⟩
  | .hbm, ⟨2, _⟩ => ⟨S600000x7, .f32⟩
  | .hbm, ⟨3, _⟩ => ⟨S7x387, .f32⟩
  | .hbm, ⟨4, _⟩ => ⟨S387, .f32⟩
  | .hbm, ⟨5, _⟩ => ⟨S387x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S7x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S263x128, .f32⟩
  | .hbm, ⟨16, _⟩ => ⟨S128, .f32⟩
  | .hbm, ⟨17, _⟩ => ⟨S128x2, .f32⟩
  | .hbm, ⟨18, _⟩ => ⟨S2, .f32⟩
  | .hbm, ⟨19, _⟩ => ⟨S1x600000, .i32⟩
  | .hbm, ⟨20, _⟩ => ⟨S600000, .i32⟩
  | .hbm, ⟨21, _⟩ => ⟨S1x600000, .i32⟩
  | .hbm, ⟨22, _⟩ => ⟨S600000, .i32⟩
  | .hbm, ⟨23, _⟩ => ⟨S_, .i32⟩
  | .hbm, ⟨24, _⟩ => ⟨S600000, .i32⟩
  | .hbm, ⟨25, _⟩ => ⟨S600000, .i1⟩
  | .hbm, ⟨26, _⟩ => ⟨S_, .i32⟩
  | .hbm, ⟨27, _⟩ => ⟨S600000, .i32⟩
  | .hbm, ⟨28, _⟩ => ⟨S600000, .i32⟩
  | .hbm, ⟨29, _⟩ => ⟨S600000, .i32⟩
  | .hbm, ⟨30, _⟩ => ⟨S600000x1, .i32⟩
  | .hbm, ⟨31, _⟩ => ⟨S600000x387, .f32⟩
  | .hbm, ⟨32, _⟩ => ⟨S1x387, .f32⟩
  | .hbm, ⟨33, _⟩ => ⟨S600000x387, .f32⟩
  | .hbm, ⟨34, _⟩ => ⟨S_, .f32⟩
  | .hbm, ⟨35, _⟩ => ⟨S100000x387, .f32⟩
  | .hbm, ⟨36, _⟩ => ⟨S600000x1, .i32⟩
  | .hbm, ⟨37, _⟩ => ⟨S100000x387, .f32⟩
  | .hbm, ⟨38, _⟩ => ⟨S1x128, .f32⟩
  | .hbm, ⟨39, _⟩ => ⟨S1x128, .f32⟩
  | .hbm, ⟨40, _⟩ => ⟨S100000x128, .f32⟩
  | .hbm, ⟨41, _⟩ => ⟨S_, .i32⟩
  | .hbm, ⟨42, _⟩ => ⟨S600000, .i32⟩
  | .hbm, ⟨43, _⟩ => ⟨S600000, .i1⟩
  | .hbm, ⟨44, _⟩ => ⟨S_, .i32⟩
  | .hbm, ⟨45, _⟩ => ⟨S600000, .i32⟩
  | .hbm, ⟨46, _⟩ => ⟨S600000, .i32⟩
  | .hbm, ⟨47, _⟩ => ⟨S600000, .i32⟩
  | .hbm, ⟨48, _⟩ => ⟨S600000x1, .i32⟩
  | .hbm, ⟨49, _⟩ => ⟨S600000x128, .f32⟩
  | .hbm, ⟨50, _⟩ => ⟨S1x128, .f32⟩
  | .hbm, ⟨51, _⟩ => ⟨S600000x128, .f32⟩
  | .hbm, ⟨52, _⟩ => ⟨S_, .f32⟩
  | .hbm, ⟨53, _⟩ => ⟨S100000x128, .f32⟩
  | .hbm, ⟨54, _⟩ => ⟨S600000x1, .i32⟩
  | .hbm, ⟨55, _⟩ => ⟨S100000x128, .f32⟩
  | .hbm, ⟨56, _⟩ => ⟨S1x128, .f32⟩
  | .hbm, ⟨57, _⟩ => ⟨S1x128, .f32⟩
  | .hbm, ⟨58, _⟩ => ⟨S100000x128, .f32⟩
  | .hbm, ⟨59, _⟩ => ⟨S_, .i32⟩
  | .hbm, ⟨60, _⟩ => ⟨S600000, .i32⟩
  | .hbm, ⟨61, _⟩ => ⟨S600000, .i1⟩
  | .hbm, ⟨62, _⟩ => ⟨S_, .i32⟩
  | .hbm, ⟨63, _⟩ => ⟨S600000, .i32⟩
  | .hbm, ⟨64, _⟩ => ⟨S600000, .i32⟩
  | .hbm, ⟨65, _⟩ => ⟨S600000, .i32⟩
  | .hbm, ⟨66, _⟩ => ⟨S600000x1, .i32⟩
  | .hbm, ⟨67, _⟩ => ⟨S600000x128, .f32⟩
  | .hbm, ⟨68, _⟩ => ⟨S_, .i32⟩
  | .hbm, ⟨69, _⟩ => ⟨S600000, .i32⟩
  | .hbm, ⟨70, _⟩ => ⟨S600000, .i1⟩
  | .hbm, ⟨71, _⟩ => ⟨S_, .i32⟩
  | .hbm, ⟨72, _⟩ => ⟨S600000, .i32⟩
  | .hbm, ⟨73, _⟩ => ⟨S600000, .i32⟩
  | .hbm, ⟨74, _⟩ => ⟨S600000, .i32⟩
  | .hbm, ⟨75, _⟩ => ⟨S600000x1, .i32⟩
  | .hbm, ⟨76, _⟩ => ⟨S600000x128, .f32⟩
  | .hbm, ⟨77, _⟩ => ⟨S128x128, .f32⟩
  | .hbm, ⟨78, _⟩ => ⟨S128x128, .f32⟩
  | .hbm, ⟨79, _⟩ => ⟨S7x128, .f32⟩
  | .hbm, ⟨80, _⟩ => ⟨S1x128, .f32⟩
  | .hbm, ⟨81, _⟩ => ⟨S1x2, .f32⟩
  | .hbm, ⟨82, _⟩ => ⟨S600000x2, .f32⟩
  | .local _ .vmem, ⟨0, _⟩ => ⟨S2400x387, .f32⟩
  | .local _ .vmem, ⟨1, _⟩ => ⟨S2400x387, .f32⟩
  | .local _ .vmem, ⟨2, _⟩ => ⟨S2400x7, .f32⟩
  | .local _ .vmem, ⟨3, _⟩ => ⟨S2400x7, .f32⟩
  | .local _ .vmem, ⟨4, _⟩ => ⟨S7x387, .f32⟩
  | .local _ .vmem, ⟨5, _⟩ => ⟨S1x387, .f32⟩
  | .local _ .vmem, ⟨6, _⟩ => ⟨S2400x387, .f32⟩
  | .local _ .vmem, ⟨7, _⟩ => ⟨S2400x387, .f32⟩
  | .local _ .vmem, ⟨8, _⟩ => ⟨S2000x387, .f32⟩
  | .local _ .vmem, ⟨9, _⟩ => ⟨S2000x387, .f32⟩
  | .local _ .vmem, ⟨10, _⟩ => ⟨S2000x387, .f32⟩
  | .local _ .vmem, ⟨11, _⟩ => ⟨S2000x387, .f32⟩
  | .local _ .vmem, ⟨12, _⟩ => ⟨S387x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2400x128, .f32⟩
  | .local _ .vmem, ⟨19, _⟩ => ⟨S2400x128, .f32⟩
  | .local _ .vmem, ⟨20, _⟩ => ⟨S2400x7, .f32⟩
  | .local _ .vmem, ⟨21, _⟩ => ⟨S2400x7, .f32⟩
  | .local _ .vmem, ⟨22, _⟩ => ⟨S7x128, .f32⟩
  | .local _ .vmem, ⟨23, _⟩ => ⟨S1x128, .f32⟩
  | .local _ .vmem, ⟨24, _⟩ => ⟨S2400x128, .f32⟩
  | .local _ .vmem, ⟨25, _⟩ => ⟨S2400x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S2400x128, .f32⟩
  | .local _ .vmem, ⟨37, _⟩ => ⟨S2400x128, .f32⟩
  | .local _ .vmem, ⟨38, _⟩ => ⟨S2400x128, .f32⟩
  | .local _ .vmem, ⟨39, _⟩ => ⟨S2400x128, .f32⟩
  | .local _ .vmem, ⟨40, _⟩ => ⟨S2400x7, .f32⟩
  | .local _ .vmem, ⟨41, _⟩ => ⟨S2400x7, .f32⟩
  | .local _ .vmem, ⟨42, _⟩ => ⟨S128x128, .f32⟩
  | .local _ .vmem, ⟨43, _⟩ => ⟨S128x128, .f32⟩
  | .local _ .vmem, ⟨44, _⟩ => ⟨S7x128, .f32⟩
  | .local _ .vmem, ⟨45, _⟩ => ⟨S1x128, .f32⟩
  | .local _ .vmem, ⟨46, _⟩ => ⟨S128x2, .f32⟩
  | .local _ .vmem, ⟨47, _⟩ => ⟨S1x2, .f32⟩
  | .local _ .vmem, ⟨48, _⟩ => ⟨S2400x2, .f32⟩
  | .local _ .vmem, ⟨49, _⟩ => ⟨S2400x2, .f32⟩
  | _, _ => ⟨S100000x387, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_1 : Ref sig .tc := ⟨.hbm, 41, rfl⟩
abbrev main_v19 : Ref sig .tc := ⟨.hbm, 42, rfl⟩
abbrev main_v20 : Ref sig .tc := ⟨.hbm, 43, rfl⟩
abbrev main_c_2 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_3 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_4 : Ref sig .tc := ⟨.hbm, 59, rfl⟩
abbrev main_v34 : Ref sig .tc := ⟨.hbm, 60, rfl⟩
abbrev main_v35 : Ref sig .tc := ⟨.hbm, 61, rfl⟩
abbrev main_c_5 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c_6 : Ref sig .tc := ⟨.hbm, 68, rfl⟩
abbrev main_v41 : Ref sig .tc := ⟨.hbm, 69, rfl⟩
abbrev main_v42 : Ref sig .tc := ⟨.hbm, 70, rfl⟩
abbrev main_c_7 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg5_0 : Ref sig .tc := ⟨.vmem, 44, rfl⟩
abbrev cc4_stg6_0 : Ref sig .tc := ⟨.vmem, 45, rfl⟩
abbrev cc4_stg7_0 : Ref sig .tc := ⟨.vmem, 46, rfl⟩
abbrev cc4_stg8_0 : Ref sig .tc := ⟨.vmem, 47, rfl⟩
abbrev cc4_stg9_0 : Ref sig .tc := ⟨.vmem, 48, rfl⟩
abbrev cc4_stg9_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41
abbrev cc4_sem3_0 : DmaSem sig := 42
abbrev cc4_sem4_0 : DmaSem sig := 43
abbrev cc4_sem5_0 : DmaSem sig := 44
abbrev cc4_sem6_0 : DmaSem sig := 45
abbrev cc4_sem7_0 : DmaSem sig := 46
abbrev cc4_sem8_0 : DmaSem sig := 47
abbrev cc4_sem9_0 : DmaSem sig := 48
abbrev cc4_sem9_1 : DmaSem sig := 49

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2400x387 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2400x7 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S7x387 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x387 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2400x387 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x387 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x387 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S387x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2400x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2400x7 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S7x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2400x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![250], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2400x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2400x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2400x7 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S7x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128x2 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x2 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S2400x2 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  shapeCasts_S387_S1x387 : S387.ShapeCasts S1x387
  inb_S2400x7_S2400x7_0_0 : ∀ a, (![0, 0] : Fin 2 → Nat) a + S2400x7.size a ≤ S2400x7.size a
  h_S2400x7 : 0 < S2400x7.numel
  bitsLt_bf16_f32 : FTy.bits .bf16 < FTy.bits .f32
  inb_S7x387_S7x387_0_0 : ∀ a, (![0, 0] : Fin 2 → Nat) a + S7x387.size a ≤ S7x387.size a
  h_S7x387 : 0 < S7x387.numel
  inb_S2400x387_S2400x387_0_0 : ∀ a, (![0, 0] : Fin 2 → Nat) a + S2400x387.size a ≤ S2400x387.size a
  h_S2400x387 : 0 < S2400x387.numel
  shapeCasts_S2400x387_S2400x387 : S2400x387.ShapeCasts S2400x387
  inb_S1x387_S1x387_0_0 : ∀ a, (![0, 0] : Fin 2 → Nat) a + S1x387.size a ≤ S1x387.size a
  h_S1x387 : 0 < S1x387.numel
  shapeCasts_S1x387_S1x387 : S1x387.ShapeCasts S1x387
  broadcasts_S1x387_S2400x387 : S1x387.Broadcasts S2400x387
  bcast_S_S100000x387 : S_.BroadcastsInDim S100000x387 (![] : Fin 0 → Fin S100000x387.rank)
  shapeCasts_S128_S1x128 : S128.ShapeCasts S1x128
  inb_S2000x387_S2000x387_0_0 : ∀ a, (![0, 0] : Fin 2 → Nat) a + S2000x387.size a ≤ S2000x387.size a
  h_S2000x387 : 0 < S2000x387.numel
  shapeCasts_S2000x387_S2000x387 : S2000x387.ShapeCasts S2000x387
  inb_S387x128_S387x128_0_0 : ∀ a, (![0, 0] : Fin 2 → Nat) a + S387x128.size a ≤ S387x128.size a
  h_S387x128 : 0 < S387x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  inb_S2000x128_S2000x128_0_0 : ∀ a, (![0, 0] : Fin 2 → Nat) a + S2000x128.size a ≤ S2000x128.size a
  h_S2000x128 : 0 < S2000x128.numel
  inb_S7x128_S7x128_0_0 : ∀ a, (![0, 0] : Fin 2 → Nat) a + S7x128.size a ≤ S7x128.size a
  h_S7x128 : 0 < S7x128.numel
  inb_S2400x128_S2400x128_0_0 : ∀ a, (![0, 0] : Fin 2 → Nat) a + S2400x128.size a ≤ S2400x128.size a
  h_S2400x128 : 0 < S2400x128.numel
  shapeCasts_S2400x128_S2400x128 : S2400x128.ShapeCasts S2400x128
  broadcasts_S1x128_S2400x128 : S1x128.Broadcasts S2400x128
  bcast_S_S100000x128 : S_.BroadcastsInDim S100000x128 (![] : Fin 0 → Fin S100000x128.rank)
  shapeCasts_S2000x128_S2000x128 : S2000x128.ShapeCasts S2000x128
  slices_S263x128_S128x128_0_0 : S263x128.Slices ![0, 0] S128x128
  slices_S263x128_S128x128_128_0 : S263x128.Slices ![128, 0] S128x128
  slices_S263x128_S7x128_256_0 : S263x128.Slices ![256, 0] S7x128
  shapeCasts_S2_S1x2 : S2.ShapeCasts S1x2
  shapeCasts_S128x128_S128x128 : S128x128.ShapeCasts S128x128
  shapeCasts_S7x128_S7x128 : S7x128.ShapeCasts S7x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2400x2 : S1x2.Broadcasts S2400x2
  inb_S2400x2_S2400x2_0_0 : ∀ a, (![0, 0] : Fin 2 → Nat) a + S2400x2.size a ≤ S2400x2.size a
  h_S2400x2 : 0 < S2400x2.numel
  gather_S100000x387_S600000x1_S600000x387_1_0_n_n_0_1_1387_wf : GatherDims.WF S100000x387 S600000x1 S600000x387 [1] [0] [] [0] [] 1 ![1, 387]
  dot_S2400x7_S7x387_S2400x387_1_0_0_1_n_n_wf : DotDims.WF S2400x7 S7x387 S2400x387 [1] [0] [0] [1] [] []
  scatter_S100000x387_S600000x1_S600000x387_1_0_0_1_wf : ScatterDims.WF S100000x387 S600000x1 S600000x387 [1] [0] [0] 1
  dot_S2000x387_S387x128_S2000x128_1_0_0_1_n_n_wf : DotDims.WF S2000x387 S387x128 S2000x128 [1] [0] [0] [1] [] []
  dot_S2000x128_S128x128_S2000x128_1_0_0_1_n_n_wf : DotDims.WF S2000x128 S128x128 S2000x128 [1] [0] [0] [1] [] []
  gather_S100000x128_S600000x1_S600000x128_1_0_n_n_0_1_1128_wf : GatherDims.WF S100000x128 S600000x1 S600000x128 [1] [0] [] [0] [] 1 ![1, 128]
  dot_S2400x7_S7x128_S2400x128_1_0_0_1_n_n_wf : DotDims.WF S2400x7 S7x128 S2400x128 [1] [0] [0] [1] [] []
  scatter_S100000x128_S600000x1_S600000x128_1_0_0_1_wf : ScatterDims.WF S100000x128 S600000x1 S600000x128 [1] [0] [0] 1
  dot_S2400x128_S128x128_S2400x128_1_0_0_1_n_n_wf : DotDims.WF S2400x128 S128x128 S2400x128 [1] [0] [0] [1] [] []
  dot_S2400x128_S128x2_S2400x2_1_0_0_1_n_n_wf : DotDims.WF S2400x128 S128x2 S2400x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2400x387.size a ≤ S600000x387.size a
  hwx0_0 : ∀ i : grid0.Coords, EltTy.bits .f32 = 32 ∨ (Rect.block (s := S600000x387) S2400x387.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2400x7.size a ≤ S600000x7.size a
  hwx0_1 : ∀ i : grid0.Coords, EltTy.bits .f32 = 32 ∨ (Rect.block (s := S600000x7) S2400x7.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S7x387.size a ≤ S7x387.size a
  hwx0_2 : ∀ i : grid0.Coords, EltTy.bits .f32 = 32 ∨ (Rect.block (s := S7x387) S7x387.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x387.size a ≤ S1x387.size a
  hwx0_3 : ∀ i : grid0.Coords, EltTy.bits .f32 = 32 ∨ (Rect.block (s := S1x387) S1x387.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2400x387.size a ≤ S600000x387.size a
  hwx0_4 : ∀ i : grid0.Coords, EltTy.bits .f32 = 32 ∨ (Rect.block (s := S600000x387) S2400x387.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x387.size a ≤ S100000x387.size a
  hwx1_0 : ∀ i : grid1.Coords, EltTy.bits .f32 = 32 ∨ (Rect.block (s := S100000x387) S2000x387.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x387.size a ≤ S100000x387.size a
  hwx1_1 : ∀ i : grid1.Coords, EltTy.bits .f32 = 32 ∨ (Rect.block (s := S100000x387) S2000x387.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S387x128.size a ≤ S387x128.size a
  hwx1_2 : ∀ i : grid1.Coords, EltTy.bits .f32 = 32 ∨ (Rect.block (s := S387x128) S387x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2400x128.size a ≤ S600000x128.size a
  hwx2_0 : ∀ i : grid2.Coords, EltTy.bits .f32 = 32 ∨ (Rect.block (s := S600000x128) S2400x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2400x7.size a ≤ S600000x7.size a
  hwx2_1 : ∀ i : grid2.Coords, EltTy.bits .f32 = 32 ∨ (Rect.block (s := S600000x7) S2400x7.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S7x128.size a ≤ S7x128.size a
  hwx2_2 : ∀ i : grid2.Coords, EltTy.bits .f32 = 32 ∨ (Rect.block (s := S7x128) S7x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2400x128.size a ≤ S600000x128.size a
  hwx2_4 : ∀ i : grid2.Coords, EltTy.bits .f32 = 32 ∨ (Rect.block (s := S600000x128) S2400x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S100000x128.size a
  hwx3_6 : ∀ i : grid3.Coords, EltTy.bits .f32 = 32 ∨ (Rect.block (s := S100000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2400x128.size a ≤ S600000x128.size a
  hwx4_0 : ∀ i : grid4.Coords, EltTy.bits .f32 = 32 ∨ (Rect.block (s := S600000x128) S2400x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2400x128.size a ≤ S600000x128.size a
  hwx4_1 : ∀ i : grid4.Coords, EltTy.bits .f32 = 32 ∨ (Rect.block (s := S600000x128) S2400x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2400x7.size a ≤ S600000x7.size a
  hwx4_2 : ∀ i : grid4.Coords, EltTy.bits .f32 = 32 ∨ (Rect.block (s := S600000x7) S2400x7.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S7x128.size a ≤ S7x128.size a
  hwx4_5 : ∀ i : grid4.Coords, EltTy.bits .f32 = 32 ∨ (Rect.block (s := S7x128) S7x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128x2.size a ≤ S128x2.size a
  hwx4_7 : ∀ i : grid4.Coords, EltTy.bits .f32 = 32 ∨ (Rect.block (s := S128x2) S128x2.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x2.size a ≤ S1x2.size a
  hwx4_8 : ∀ i : grid4.Coords, EltTy.bits .f32 = 32 ∨ (Rect.block (s := S1x2) S1x2.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S2400x2.size a ≤ S600000x2.size a
  hwx4_9 : ∀ i : grid4.Coords, EltTy.bits .f32 = 32 ∨ (Rect.block (s := S600000x2) S2400x2.size (cc4_transform_9 i) (hinb4_9 i)).WholeWords (EltTy.packing .f32)

variable [Facts₀]

def gather_S100000x387_S600000x1_S600000x387_1_0_n_n_0_1_1387 : GatherDims S100000x387 S600000x1 S600000x387 where
  offsetDims := [1]
  collapsedSliceDims := [0]
  operandBatchingDims := []
  startIndicesBatchingDims := []
  startIndexMap := [0]
  indexVectorDim := 1
  sliceSizes := ![1, 387]
  wf := gather_S100000x387_S600000x1_S600000x387_1_0_n_n_0_1_1387_wf
def dot_S2400x7_S7x387_S2400x387_1_0_0_1_n_n : DotDims S2400x7 S7x387 S2400x387 where
  lhsContracting := [1]
  rhsContracting := [0]
  lhsNonContracting := [0]
  rhsNonContracting := [1]
  lhsBatch := []
  rhsBatch := []
  wf := dot_S2400x7_S7x387_S2400x387_1_0_0_1_n_n_wf
def scatter_S100000x387_S600000x1_S600000x387_1_0_0_1 : ScatterDims S100000x387 S600000x1 S600000x387 where
  updateWindowDims := [1]
  insertedWindowDims := [0]
  scatterDimsToOperandDims := [0]
  indexVectorDim := 1
  wf := scatter_S100000x387_S600000x1_S600000x387_1_0_0_1_wf
def dot_S2000x387_S387x128_S2000x128_1_0_0_1_n_n : DotDims S2000x387 S387x128 S2000x128 where
  lhsContracting := [1]
  rhsContracting := [0]
  lhsNonContracting := [0]
  rhsNonContracting := [1]
  lhsBatch := []
  rhsBatch := []
  wf := dot_S2000x387_S387x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S2400x7_S7x128_S2400x128_1_0_0_1_n_n : DotDims S2400x7 S7x128 S2400x128 where
  lhsContracting := [1]
  rhsContracting := [0]
  lhsNonContracting := [0]
  rhsNonContracting := [1]
  lhsBatch := []
  rhsBatch := []
  wf := dot_S2400x7_S7x128_S2400x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S2400x128_S128x128_S2400x128_1_0_0_1_n_n : DotDims S2400x128 S128x128 S2400x128 where
  lhsContracting := [1]
  rhsContracting := [0]
  lhsNonContracting := [0]
  rhsNonContracting := [1]
  lhsBatch := []
  rhsBatch := []
  wf := dot_S2400x128_S128x128_S2400x128_1_0_0_1_n_n_wf
def dot_S2400x128_S128x2_S2400x2_1_0_0_1_n_n : DotDims S2400x128 S128x2 S2400x2 where
  lhsContracting := [1]
  rhsContracting := [0]
  lhsNonContracting := [0]
  rhsNonContracting := [1]
  lhsBatch := []
  rhsBatch := []
  wf := dot_S2400x128_S128x2_S2400x2_1_0_0_1_n_n_wf

abbrev win0_0 : Pipeline.Window sig grid0 :=
  Pipeline.Window.ofSpec (Memref.whole main_v10) S2400x387.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2400x7.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S7x387.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x387.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S2400x387.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S2000x387.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x387.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S387x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v25) S2400x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S2400x7.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S7x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v27) S2400x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v18) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v31) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v32) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v33) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v40) S2400x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v47) S2400x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg2) S2400x7.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v48) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v49) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v50) S7x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v51) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg17) S128x2.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v52) S1x2.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v53) S2400x2.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

class Facts : Prop extends Facts₀ where

variable [Facts]
-- ==== ReferenceIdeal.lean ====
abbrev S100000x387 : Shape := ⟨2, ![100000, 387]⟩
abbrev S2x600000 : Shape := ⟨2, ![2, 600000]⟩
abbrev S600000x7 : Shape := ⟨2, ![600000, 7]⟩
abbrev S7x387 : Shape := ⟨2, ![7, 387]⟩
abbrev S387 : Shape := ⟨1, ![387]⟩
abbrev S387x128 : Shape := ⟨2, ![387, 128]⟩
abbrev S128 : Shape := ⟨1, ![128]⟩
abbrev S128x128 : Shape := ⟨2, ![128, 128]⟩
abbrev S7x128 : Shape := ⟨2, ![7, 128]⟩
abbrev S263x128 : Shape := ⟨2, ![263, 128]⟩
abbrev S128x2 : Shape := ⟨2, ![128, 2]⟩
abbrev S2 : Shape := ⟨1, ![2]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x387 : Shape := ⟨2, ![600000, 387]⟩
abbrev S1x387 : Shape := ⟨2, ![1, 387]⟩
abbrev S100000x128 : Shape := ⟨2, ![100000, 128]⟩
abbrev S1x128 : Shape := ⟨2, ![1, 128]⟩
abbrev S600000x128 : Shape := ⟨2, ![600000, 128]⟩
abbrev S600000x263 : Shape := ⟨2, ![600000, 263]⟩
abbrev S600000x2 : Shape := ⟨2, ![600000, 2]⟩
abbrev S1x2 : Shape := ⟨2, ![1, 2]⟩

abbrev nBuf : Space → Nat
  | .hbm => 131
  | .vmem => 0
  | .smem => 0
  | _ => 0

abbrev hbmTy0_0 (i : Nat) : BufTy := match i % 128 with
  | 0 => ⟨S100000x387, .f32⟩
  | 1 => ⟨S2x600000, .i32⟩
  | 2 => ⟨S600000x7, .f32⟩
  | 3 => ⟨S7x387, .f32⟩
  | 4 => ⟨S387, .f32⟩
  | 5 => ⟨S387x128, .f32⟩
  | 6 => ⟨S128, .f32⟩
  | 7 => ⟨S128x128, .f32⟩
  | 8 => ⟨S128, .f32⟩
  | 9 => ⟨S7x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S263x128, .f32⟩
  | 16 => ⟨S128, .f32⟩
  | 17 => ⟨S128x2, .f32⟩
  | 18 => ⟨S2, .f32⟩
  | 19 => ⟨S1x600000, .i32⟩
  | 20 => ⟨S600000, .i32⟩
  | 21 => ⟨S1x600000, .i32⟩
  | 22 => ⟨S600000, .i32⟩
  | 23 => ⟨S_, .i32⟩
  | 24 => ⟨S600000, .i32⟩
  | 25 => ⟨S600000, .i1⟩
  | 26 => ⟨S_, .i32⟩
  | 27 => ⟨S600000, .i32⟩
  | 28 => ⟨S600000, .i32⟩
  | 29 => ⟨S600000, .i32⟩
  | 30 => ⟨S600000x1, .i32⟩
  | 31 => ⟨S600000x387, .f32⟩
  | 32 => ⟨S600000x387, .f32⟩
  | 33 => ⟨S600000x387, .f32⟩
  | 34 => ⟨S1x387, .f32⟩
  | 35 => ⟨S600000x387, .f32⟩
  | 36 => ⟨S600000x387, .f32⟩
  | 37 => ⟨S_, .f32⟩
  | 38 => ⟨S600000x387, .f32⟩
  | 39 => ⟨S600000x387, .f32⟩
  | 40 => ⟨S_, .f32⟩
  | 41 => ⟨S100000x387, .f32⟩
  | 42 => ⟨S600000x1, .i32⟩
  | 43 => ⟨S100000x387, .f32⟩
  | 44 => ⟨S_, .f32⟩
  | 45 => ⟨S100000x387, .f32⟩
  | 46 => ⟨S100000x387, .f32⟩
  | 47 => ⟨S100000x387, .f32⟩
  | 48 => ⟨S100000x128, .f32⟩
  | 49 => ⟨S1x128, .f32⟩
  | 50 => ⟨S100000x128, .f32⟩
  | 51 => ⟨S100000x128, .f32⟩
  | 52 => ⟨S_, .f32⟩
  | 53 => ⟨S100000x128, .f32⟩
  | 54 => ⟨S100000x128, .f32⟩
  | 55 => ⟨S100000x128, .f32⟩
  | 56 => ⟨S1x128, .f32⟩
  | 57 => ⟨S100000x128, .f32⟩
  | 58 => ⟨S100000x128, .f32⟩
  | 59 => ⟨S_, .f32⟩
  | 60 => ⟨S100000x128, .f32⟩
  | 61 => ⟨S100000x128, .f32⟩
  | 62 => ⟨S_, .i32⟩
  | 63 => ⟨S600000, .i32⟩
  | 64 => ⟨S600000, .i1⟩
  | 65 => ⟨S_, .i32⟩
  | 66 => ⟨S600000, .i32⟩
  | 67 => ⟨S600000, .i32⟩
  | 68 => ⟨S600000, .i32⟩
  | 69 => ⟨S600000x1, .i32⟩
  | 70 => ⟨S600000x128, .f32⟩
  | 71 => ⟨S600000x128, .f32⟩
  | 72 => ⟨S600000x128, .f32⟩
  | 73 => ⟨S1x128, .f32⟩
  | 74 => ⟨S600000x128, .f32⟩
  | 75 => ⟨S600000x128, .f32⟩
  | 76 => ⟨S_, .f32⟩
  | 77 => ⟨S600000x128, .f32⟩
  | 78 => ⟨S600000x128, .f32⟩
  | 79 => ⟨S_, .f32⟩
  | 80 => ⟨S100000x128, .f32⟩
  | 81 => ⟨S600000x1, .i32⟩
  | 82 => ⟨S100000x128, .f32⟩
  | 83 => ⟨S_, .f32⟩
  | 84 => ⟨S100000x128, .f32⟩
  | 85 => ⟨S100000x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S_, .f32⟩
  | 92 => ⟨S100000x128, .f32⟩
  | 93 => ⟨S100000x128, .f32⟩
  | 94 => ⟨S100000x128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S_, .i32⟩
  | 102 => ⟨S600000, .i32⟩
  | 103 => ⟨S600000, .i1⟩
  | 104 => ⟨S_, .i32⟩
  | 105 => ⟨S600000, .i32⟩
  | 106 => ⟨S600000, .i32⟩
  | 107 => ⟨S600000, .i32⟩
  | 108 => ⟨S600000x1, .i32⟩
  | 109 => ⟨S600000x128, .f32⟩
  | 110 => ⟨S_, .i32⟩
  | 111 => ⟨S600000, .i32⟩
  | 112 => ⟨S600000, .i1⟩
  | 113 => ⟨S_, .i32⟩
  | 114 => ⟨S600000, .i32⟩
  | 115 => ⟨S600000, .i32⟩
  | 116 => ⟨S600000, .i32⟩
  | 117 => ⟨S600000x1, .i32⟩
  | 118 => ⟨S600000x128, .f32⟩
  | 119 => ⟨S600000x263, .f32⟩
  | 120 => ⟨S600000x128, .f32⟩
  | 121 => ⟨S1x128, .f32⟩
  | 122 => ⟨S600000x128, .f32⟩
  | 123 => ⟨S600000x128, .f32⟩
  | 124 => ⟨S_, .f32⟩
  | 125 => ⟨S600000x128, .f32⟩
  | 126 => ⟨S600000x128, .f32⟩
  | 127 => ⟨S600000x2, .f32⟩
  | _ => ⟨S100000x387, .f32⟩

abbrev hbmTy0_1 (i : Nat) : BufTy := match i % 128 with
  | 0 => ⟨S1x2, .f32⟩
  | 1 => ⟨S600000x2, .f32⟩
  | 2 => ⟨S600000x2, .f32⟩
  | _ => ⟨S100000x387, .f32⟩

abbrev hbmTy (i : Nat) : BufTy := match i / 128 with
  | 0 => hbmTy0_0 i
  | 1 => hbmTy0_1 i
  | _ => ⟨S100000x387, .f32⟩

abbrev bufTy : (tb : Table) → Fin (tcTables nBuf tb) → BufTy
  | .hbm, ⟨i, _⟩ => hbmTy i
  | _, _ => ⟨S100000x387, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_call0_cst : Ref sig .tc := ⟨.hbm, 37, rfl⟩
abbrev main_call0_v0 : Ref sig .tc := ⟨.hbm, 38, rfl⟩
abbrev main_v16 : Ref sig .tc := ⟨.hbm, 39, rfl⟩
abbrev main_cst : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_1 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_call1_cst : Ref sig .tc := ⟨.hbm, 52, rfl⟩
abbrev main_call1_v0 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_call2_cst : Ref sig .tc := ⟨.hbm, 59, rfl⟩
abbrev main_call2_v0 : Ref sig .tc := ⟨.hbm, 60, rfl⟩
abbrev main_v32 : Ref sig .tc := ⟨.hbm, 61, rfl⟩
abbrev main_c_2 : Ref sig .tc := ⟨.hbm, 62, rfl⟩
abbrev main_v33 : Ref sig .tc := ⟨.hbm, 63, rfl⟩
abbrev main_v34 : Ref sig .tc := ⟨.hbm, 64, rfl⟩
abbrev main_c_3 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_call3_cst : Ref sig .tc := ⟨.hbm, 76, rfl⟩
abbrev main_call3_v0 : Ref sig .tc := ⟨.hbm, 77, rfl⟩
abbrev main_v45 : Ref sig .tc := ⟨.hbm, 78, rfl⟩
abbrev main_cst_4 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_5 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_call4_cst : Ref sig .tc := ⟨.hbm, 91, rfl⟩
abbrev main_call4_v0 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_call5_cst : Ref sig .tc := ⟨.hbm, 98, rfl⟩
abbrev main_call5_v0 : Ref sig .tc := ⟨.hbm, 99, rfl⟩
abbrev main_v61 : Ref sig .tc := ⟨.hbm, 100, rfl⟩
abbrev main_c_6 : Ref sig .tc := ⟨.hbm, 101, rfl⟩
abbrev main_v62 : Ref sig .tc := ⟨.hbm, 102, rfl⟩
abbrev main_v63 : Ref sig .tc := ⟨.hbm, 103, rfl⟩
abbrev main_c_7 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_c_8 : Ref sig .tc := ⟨.hbm, 110, rfl⟩
abbrev main_v69 : Ref sig .tc := ⟨.hbm, 111, rfl⟩
abbrev main_v70 : Ref sig .tc := ⟨.hbm, 112, rfl⟩
abbrev main_c_9 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_call6_cst : Ref sig .tc := ⟨.hbm, 124, rfl⟩
abbrev main_call6_v0 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S387_S1x387_1 : S387.BroadcastsInDim S1x387 (![1] : Fin 1 → Fin S1x387.rank)
  bcast_S1x387_S600000x387_0_1 : S1x387.BroadcastsInDim S600000x387 (![0, 1] : Fin 2 → Fin S600000x387.rank)
  bcast_S_S600000x387 : S_.BroadcastsInDim S600000x387 (![] : Fin 0 → Fin S600000x387.rank)
  bcast_S_S100000x387 : S_.BroadcastsInDim S100000x387 (![] : Fin 0 → Fin S100000x387.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  concatenates_S600000x128_S600000x128_S600000x7_S600000x263_d1 : Shape.Concatenates [S600000x128, S600000x128, S600000x7] S600000x263 1
  bcast_S2_S1x2_1 : S2.BroadcastsInDim S1x2 (![1] : Fin 1 → Fin S1x2.rank)
  bcast_S1x2_S600000x2_0_1 : S1x2.BroadcastsInDim S600000x2 (![0, 1] : Fin 2 → Fin S600000x2.rank)
  gather_S100000x387_S600000x1_S600000x387_1_0_n_n_0_1_1387_wf : GatherDims.WF S100000x387 S600000x1 S600000x387 [1] [0] [] [0] [] 1 ![1, 387]
  dot_S600000x7_S7x387_S600000x387_1_0_0_1_n_n_wf : DotDims.WF S600000x7 S7x387 S600000x387 [1] [0] [0] [1] [] []
  scatter_S100000x387_S600000x1_S600000x387_1_0_0_1_wf : ScatterDims.WF S100000x387 S600000x1 S600000x387 [1] [0] [0] 1
  dot_S100000x387_S387x128_S100000x128_1_0_0_1_n_n_wf : DotDims.WF S100000x387 S387x128 S100000x128 [1] [0] [0] [1] [] []
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  dot_S600000x7_S7x128_S600000x128_1_0_0_1_n_n_wf : DotDims.WF S600000x7 S7x128 S600000x128 [1] [0] [0] [1] [] []
  scatter_S100000x128_S600000x1_S600000x128_1_0_0_1_wf : ScatterDims.WF S100000x128 S600000x1 S600000x128 [1] [0] [0] 1
  dot_S600000x263_S263x128_S600000x128_1_0_0_1_n_n_wf : DotDims.WF S600000x263 S263x128 S600000x128 [1] [0] [0] [1] [] []
  dot_S600000x128_S128x2_S600000x2_1_0_0_1_n_n_wf : DotDims.WF S600000x128 S128x2 S600000x2 [1] [0] [0] [1] [] []

variable [Facts₀]

def gather_S100000x387_S600000x1_S600000x387_1_0_n_n_0_1_1387 : GatherDims S100000x387 S600000x1 S600000x387 where
  offsetDims := [1]
  collapsedSliceDims := [0]
  operandBatchingDims := []
  startIndicesBatchingDims := []
  startIndexMap := [0]
  indexVectorDim := 1
  sliceSizes := ![1, 387]
  wf := gather_S100000x387_S600000x1_S600000x387_1_0_n_n_0_1_1387_wf
def dot_S600000x7_S7x387_S600000x387_1_0_0_1_n_n : DotDims S600000x7 S7x387 S600000x387 where
  lhsContracting := [1]
  rhsContracting := [0]
  lhsNonContracting := [0]
  rhsNonContracting := [1]
  lhsBatch := []
  rhsBatch := []
  wf := dot_S600000x7_S7x387_S600000x387_1_0_0_1_n_n_wf
def scatter_S100000x387_S600000x1_S600000x387_1_0_0_1 : ScatterDims S100000x387 S600000x1 S600000x387 where
  updateWindowDims := [1]
  insertedWindowDims := [0]
  scatterDimsToOperandDims := [0]
  indexVectorDim := 1
  wf := scatter_S100000x387_S600000x1_S600000x387_1_0_0_1_wf
def dot_S100000x387_S387x128_S100000x128_1_0_0_1_n_n : DotDims S100000x387 S387x128 S100000x128 where
  lhsContracting := [1]
  rhsContracting := [0]
  lhsNonContracting := [0]
  rhsNonContracting := [1]
  lhsBatch := []
  rhsBatch := []
  wf := dot_S100000x387_S387x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x7_S7x128_S600000x128_1_0_0_1_n_n : DotDims S600000x7 S7x128 S600000x128 where
  lhsContracting := [1]
  rhsContracting := [0]
  lhsNonContracting := [0]
  rhsNonContracting := [1]
  lhsBatch := []
  rhsBatch := []
  wf := dot_S600000x7_S7x128_S600000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S600000x263_S263x128_S600000x128_1_0_0_1_n_n : DotDims S600000x263 S263x128 S600000x128 where
  lhsContracting := [1]
  rhsContracting := [0]
  lhsNonContracting := [0]
  rhsNonContracting := [1]
  lhsBatch := []
  rhsBatch := []
  wf := dot_S600000x263_S263x128_S600000x128_1_0_0_1_n_n_wf
def dot_S600000x128_S128x2_S600000x2_1_0_0_1_n_n : DotDims S600000x128 S128x2 S600000x2 where
  lhsContracting := [1]
  rhsContracting := [0]
  lhsNonContracting := [0]
  rhsNonContracting := [1]
  lhsBatch := []
  rhsBatch := []
  wf := dot_S600000x128_S128x2_S600000x2_1_0_0_1_n_n_wf

class Facts : Prop extends Facts₀ where

variable [Facts]
-- ==== Proof.Spec.lean ====
/- The mathematics both programs compute, as functions of whole arrays over the extended reals: an edge
   message layer, a node update (a two-layer perceptron on the sum of a node's features and its aggregated
   messages), and the edge classifier on two gathered node rows and the edge's own features. Every product with
   a weight matrix is the exact sum over the contracted axis. -/
import Idealize.ShloMosaic.PureOps.Ideal
import Idealize.ShloMosaic.Lib.ValueIdx

noncomputable section

namespace Cert.Spec

open Idealize.ShloMosaic Idealize.ShloMosaic.ValueIdx

/-- A float matrix of `a` rows and `b` columns at the ideal instance. -/
abbrev Mat (a b : Nat) : Type := (⟨⟨2, ![a, b]⟩, .f32⟩ : BufTy).Contents (Elt Ideal)
/-- A float vector of length `n` at the ideal instance. -/
abbrev Vc (n : Nat) : Type := (⟨⟨1, ![n]⟩, .f32⟩ : BufTy).Contents (Elt Ideal)

/-- The entry of a matrix at row `p`, column `q`, as an extended real. -/
abbrev at2 {a b : Nat} (x : Mat a b) (p : Fin a) (q : Fin b) : EReal := x (ix2 p q)

/-- A vector laid out as a one-row matrix. -/
def row {n : Nat} (b : Vc n) : Mat 1 n := fun i => b (ix1 (i 1))

/-- `n` consecutive rows of a matrix, starting at row `off`. -/
def rowsFrom {r c : Nat} (off n : Nat) (h : off + n ≤ r) (w : Mat r c) : Mat n c :=
  fun i => w (ix2 ⟨off + (i 0).val, by have hi : (i 0).val < n := (i 0).isLt; show off + (i 0).val < r; omega⟩ (i 1))

/-- The edge message layer: entry `(e, d)` is `max ((xs[e,d] + Σₖ ea[e,k]·ew[k,d]) + eb[d]) 0`. -/
def edgeMsg {E K D : Nat} (xs : Mat E D) (ea : Mat E K) (ew : Mat K D) (eb : Mat 1 D) : Mat E D :=
  fun i => max ((at2 xs (i 0) (i 1) + ∑ k : Fin K, at2 ea (i 0) k * at2 ew k (i 1)) + at2 eb 0 (i 1)) 0

/-- The hidden layer of the node update at node `p`, unit `j`:
    `max (Σₖ (x[p,k] + aggr[p,k])·w1[k,j] + b1[j]) 0`. -/
def nodeHid {N Din H : Nat} (x aggr : Mat N Din) (w1 : Mat Din H) (b1 : Mat 1 H) (p : Fin N) (j : Fin H) : EReal :=
  max ((∑ k : Fin Din, (at2 x p k + at2 aggr p k) * at2 w1 k j) + at2 b1 0 j) 0

/-- The node update: entry `(p, q)` is `max (Σⱼ hid[p,j]·w2[j,q] + b2[q]) 0`. -/
def nodeUpd {N Din H : Nat} (x aggr : Mat N Din) (w1 : Mat Din H) (b1 : Mat 1 H) (w2 : Mat H H) (b2 : Mat 1 H) : Mat N H :=
  fun i => max ((∑ j : Fin H, nodeHid x aggr w1 b1 (i 0) j * at2 w2 j (i 1)) + at2 b2 0 (i 1)) 0

/-- The hidden layer of the edge classifier at edge `e`, unit `j`: the three partial products summed left to
    right, then the bias, then `max · 0`. -/
def mlpHid {E H K : Nat} (hs hd : Mat E H) (ea : Mat E K) (ws wd : Mat H H) (we : Mat K H) (b1 : Mat 1 H)
    (e : Fin E) (j : Fin H) : EReal :=
  max ((((∑ k : Fin H, at2 hs e k * at2 ws k j) + ∑ k : Fin H, at2 hd e k * at2 wd k j)
    + ∑ k : Fin K, at2 ea e k * at2 we k j) + at2 b1 0 j) 0

/-- The edge classifier: entry `(e, o)` is `Σⱼ hid[e,j]·w2[j,o] + b2[o]`. -/
def edgeMlp {E H K O : Nat} (hs hd : Mat E H) (ea : Mat E K) (ws wd : Mat H H) (we : Mat K H) (b1 : Mat 1 H)
    (w2 : Mat H O) (b2 : Mat 1 O) : Mat E O :=
  fun i => (∑ j : Fin H, mlpHid hs hd ea ws wd we b1 (i 0) j * at2 w2 j (i 1)) + at2 b2 0 (i 1)

end Cert.Spec

end
-- ==== Proof.Region0.lean ====
/- Region 0 (the first edge message layer, 250 row tiles of 2400 edges): the array its write-backs leave is the edge message layer of the arrays it finds. -/
import proofs.«132114_j23519240913054_1_alg».proof.Proof.FrameKernelIdeal
import proofs.«132114_j23519240913054_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region0

open Cert.KernelIdeal Cert.KernelIdeal.Gen Cert.KernelIdeal.GenP
open Idealize.ShloMosaic Idealize.ShloMosaic.TcCoe Idealize.SL.Sem
open Idealize.ShloMosaic.Pipeline (Dat)

open Idealize.ShloMosaic.ValueIdx

variable (V : (c : Dev nD) → (b : Ref sig .tc) → Buf (Elt Ideal) ((c : Thread nD τ).loc b))

/-! ## The product with the weight matrix, entry by entry -/

/-- The left operand's row is the output's row. -/
theorem lhs_row (i : S2400x387.Idx) (q : dot_S2400x7_S7x387_S2400x387_1_0_0_1_n_n.contr.Idx) :
    (dot_S2400x7_S7x387_S2400x387_1_0_0_1_n_n.lhsIdx i q 0).val = (i 0).val := by
  unfold DotDims.lhsIdx
  rw [dif_neg (show ¬(0 : Fin S2400x7.rank) ∈ dot_S2400x7_S7x387_S2400x387_1_0_0_1_n_n.lhsBatch by decide), dif_pos (show (0 : Fin S2400x7.rank) ∈ dot_S2400x7_S7x387_S2400x387_1_0_0_1_n_n.lhsNonContracting by decide)]
  rfl
/-- The left operand's column is the contracted coordinate. -/
theorem lhs_col (i : S2400x387.Idx) (q : dot_S2400x7_S7x387_S2400x387_1_0_0_1_n_n.contr.Idx) :
    (dot_S2400x7_S7x387_S2400x387_1_0_0_1_n_n.lhsIdx i q 1).val = (q ⟨0, by decide⟩).val :=
  dot_S2400x7_S7x387_S2400x387_1_0_0_1_n_n.lhsIdx_val_of_single rfl i q
/-- The right operand's row is the contracted coordinate. -/
theorem rhs_row (i : S2400x387.Idx) (q : dot_S2400x7_S7x387_S2400x387_1_0_0_1_n_n.contr.Idx) :
    (dot_S2400x7_S7x387_S2400x387_1_0_0_1_n_n.rhsIdx i q 0).val = (q ⟨0, by decide⟩).val :=
  dot_S2400x7_S7x387_S2400x387_1_0_0_1_n_n.rhsIdx_val_of_single rfl i q
/-- The right operand's column is the output's column. -/
theorem rhs_col (i : S2400x387.Idx) (q : dot_S2400x7_S7x387_S2400x387_1_0_0_1_n_n.contr.Idx) :
    (dot_S2400x7_S7x387_S2400x387_1_0_0_1_n_n.rhsIdx i q 1).val = (i 1).val := by
  unfold DotDims.rhsIdx
  rw [dif_neg (show ¬(1 : Fin S7x387.rank) ∈ dot_S2400x7_S7x387_S2400x387_1_0_0_1_n_n.rhsBatch by decide), dif_pos (show (1 : Fin S7x387.rank) ∈ dot_S2400x7_S7x387_S2400x387_1_0_0_1_n_n.rhsNonContracting by decide)]
  rfl

/-- A product of a 2400×7 block with the 7×387 weights, accumulated from zero, read at entry (p, q):
    the exact sum over the seven contracted coordinates. -/
theorem prod_apply (a : FVec Ideal S2400x7 .bf16) (b : FVec Ideal S7x387 .bf16) (p : Fin 2400) (q : Fin 387) :
    matmul dot_S2400x7_S7x387_S2400x387_1_0_0_1_n_n none a b (constant (F := Ideal) S2400x387 .f32 0x00000000#32) (ix2 p q)
      = ∑ k : Fin 7, a (ix2 p k) * b (ix2 k q) := by
  simp only [matmul]
  rw [Ideal.matmul_constant_zero_apply, ← Equiv.sum_comp (ValueIdx.contrEquiv1 dot_S2400x7_S7x387_S2400x387_1_0_0_1_n_n 7 rfl rfl).symm]
  refine Finset.sum_congr rfl fun k _ => ?_
  have hk := ValueIdx.contrEquiv1_symm_val dot_S2400x7_S7x387_S2400x387_1_0_0_1_n_n 7 rfl rfl k
  have el : dot_S2400x7_S7x387_S2400x387_1_0_0_1_n_n.lhsIdx (ix2 p q) ((ValueIdx.contrEquiv1 dot_S2400x7_S7x387_S2400x387_1_0_0_1_n_n 7 rfl rfl).symm k) = ix2 p k := funext fun a => Fin.ext (by
    match a with
    | ⟨0, _⟩ => exact lhs_row _ _
    | ⟨1, _⟩ => exact (lhs_col _ _).trans hk)
  have er : dot_S2400x7_S7x387_S2400x387_1_0_0_1_n_n.rhsIdx (ix2 p q) ((ValueIdx.contrEquiv1 dot_S2400x7_S7x387_S2400x387_1_0_0_1_n_n 7 rfl rfl).symm k) = ix2 k q := funext fun a => Fin.ext (by
    match a with
    | ⟨0, _⟩ => exact (rhs_row _ _).trans hk
    | ⟨1, _⟩ => exact rhs_col _ _)
  rw [el, er]

/-! ## The body's arithmetic at an entry -/

/-- What the body computes at entry (p, q) of its tile: the incoming tile's entry plus the product's entry, plus
    the bias row's entry, cut below at zero. Narrowing to the short format is the identity on exact values. -/
theorem pay_apply (v0 : Vec Ideal S2400x7 .f32) (v2 : Vec Ideal S7x387 .f32) (v5 : Vec Ideal S2400x387 .f32)
    (v8 : Vec Ideal S1x387 .f32) (p : Fin 2400) (q : Fin 387) :
    k0_pay1 (F := Ideal) v0 v2 v5 v8 (ix2 p q)
      = max ((v5 (ix2 p q) + ∑ k : Fin 7, v0 (ix2 p k) * v2 (ix2 k q)) + v8 (ix2 (0 : Fin 1) q)) 0 := by
  unfold k0_pay1
  show max ((shapeCast S2400x387 v5 shapeCasts_S2400x387_S2400x387 (ix2 p q)
      + matmul dot_S2400x7_S7x387_S2400x387_1_0_0_1_n_n none (truncf .bf16 v0 bitsLt_bf16_f32) (truncf .bf16 v2 bitsLt_bf16_f32) (constant (F := Ideal) S2400x387 .f32 0x00000000#32) (ix2 p q))
      + broadcastTo S2400x387 (shapeCast S1x387 v8 shapeCasts_S1x387_S1x387) broadcasts_S1x387_S2400x387 (ix2 p q))
      (Ideal.ofBits .f32 0x00000000#32) = _
  rw [prod_apply, shapeCast_self, shapeCast_self, broadcastTo_1b_ab_apply, Ideal.ofBits_zero_f32]
  rfl

/-! ## The tile a grid point writes back -/

theorem zero_off : (![0, 0] : Fin 2 → Nat) = fun _ => 0 := funext fun a => by fin_cases a <;> rfl

/-- The windows' block indices, decided over the 250 points: the incoming messages, the edge features and the
    output sit on row tile `t`; the weights and the bias row are their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The grid has 250 points. -/
theorem grid_size : cfg0.N = 250 := by decide

/-- One entry of a tile: if the four loaded blocks are row tile `r` of the incoming messages and of the edge
    features, the whole weight matrix and the whole bias row, the body's value at (p, q) is the edge message
    layer's entry at row `r·2400 + p`, column `q`. -/
theorem tile_entry (x0 : Vec Ideal S2400x387 .f32) (x1 : Vec Ideal S2400x7 .f32) (x2 : Vec Ideal S7x387 .f32)
    (x3 : Vec Ideal S1x387 .f32) (xs : Cert.Spec.Mat 600000 387) (ea : Cert.Spec.Mat 600000 7)
    (ew : Cert.Spec.Mat 7 387) (eb : Cert.Spec.Mat 1 387) (r : Nat) (hr : r < 250)
    (h0 : ∀ (p : Fin 2400) (q : Fin 387), x0 (ix2 p q) = xs (ix2 (⟨r * 2400 + p.val, by have := p.isLt; omega⟩ : Fin 600000) q))
    (h1 : ∀ (p : Fin 2400) (k : Fin 7), x1 (ix2 p k) = ea (ix2 (⟨r * 2400 + p.val, by have := p.isLt; omega⟩ : Fin 600000) k))
    (h2 : ∀ (k : Fin 7) (q : Fin 387), x2 (ix2 k q) = ew (ix2 k q))
    (h3 : ∀ q : Fin 387, x3 (ix2 (0 : Fin 1) q) = eb (ix2 (0 : Fin 1) q))
    (p : Fin 2400) (q : Fin 387) :
    k0_pay1 (F := Ideal) x1 x2 x0 x3 (ix2 p q)
      = Cert.Spec.edgeMsg xs ea ew eb (ix2 (⟨r * 2400 + p.val, by have := p.isLt; omega⟩ : Fin 600000) q) := by
  rw [pay_apply, h0, h3]
  simp only [h1, h2]
  rfl

/-- The same at an index of the tile and the index of the array it lands on, given by coordinates. -/
theorem tile_read (x0 : Vec Ideal S2400x387 .f32) (x1 : Vec Ideal S2400x7 .f32) (x2 : Vec Ideal S7x387 .f32)
    (x3 : Vec Ideal S1x387 .f32) (xs : Cert.Spec.Mat 600000 387) (ea : Cert.Spec.Mat 600000 7)
    (ew : Cert.Spec.Mat 7 387) (eb : Cert.Spec.Mat 1 387) (r : Nat) (hr : r < 250)
    (h0 : ∀ (p : Fin 2400) (q : Fin 387), x0 (ix2 p q) = xs (ix2 (⟨r * 2400 + p.val, by have := p.isLt; omega⟩ : Fin 600000) q))
    (h1 : ∀ (p : Fin 2400) (k : Fin 7), x1 (ix2 p k) = ea (ix2 (⟨r * 2400 + p.val, by have := p.isLt; omega⟩ : Fin 600000) k))
    (h2 : ∀ (k : Fin 7) (q : Fin 387), x2 (ix2 k q) = ew (ix2 k q))
    (h3 : ∀ q : Fin 387, x3 (ix2 (0 : Fin 1) q) = eb (ix2 (0 : Fin 1) q))
    (j : S2400x387.Idx) (i : S600000x387.Idx)
    (hi0 : (i 0).val = r * 2400 + (j 0).val) (hi1 : (i 1).val = (j 1).val) :
    k0_pay1 (F := Ideal) x1 x2 x0 x3 j = Cert.Spec.edgeMsg xs ea ew eb i := by
  obtain ⟨p, q, rfl⟩ : ∃ (p : Fin 2400) (q : Fin 387), j = ix2 p q := ⟨j 0, j 1, eq_ix2 j⟩
  have hi : i = ix2 (⟨r * 2400 + p.val, by have := p.isLt; omega⟩ : Fin 600000) q := funext fun a => Fin.ext (by
    match a with
    | ⟨0, _⟩ => exact hi0
    | ⟨1, _⟩ => exact hi1)
  rw [hi]
  exact tile_entry x0 x1 x2 x3 xs ea ew eb r hr h0 h1 h2 h3 p q

/-- WHAT POINT `t` WRITES BACK is row tile `t` of the edge message layer of the arrays the region finds. -/
theorem flushed_eq (c : Dev nD) (t : Fin cfg0.N) :
    (dat0 (F := Ideal) V c).flushed 4 t = ((cfg0.win 4).blk t).view.read (Elt Ideal)
      (Cert.Spec.edgeMsg (V c main_v10) (V c main_arg2) (V c main_arg3) (V c main_v11)) := by
  show (cfg0.win 4).cut (grid0.coords t) ((dat0 V c).after 4 t) = _
  rw [after0_4]
  unfold out0_4
  rw [View.canon_unit_zero zero_off]
  simp only [View.ld_unit_zero (S := S2400x387) zero_off, View.ld_unit_zero (S := S2400x7) zero_off,
    View.ld_unit_zero (S := S7x387) zero_off, View.ld_unit_zero (S := S1x387) zero_off]
  obtain ⟨e00, e01, e10, e11, e20, e21, e30, e31, e40, e41⟩ := idx_facts t
  have ht : t.val < 250 := lt_of_lt_of_eq t.isLt grid_size
  funext j
  refine tile_read (iblk0 V c 0 t) (iblk0 V c 1 t) (iblk0 V c 2 t) (iblk0 V c 3 t)
    (V c main_v10) (V c main_arg2) (V c main_arg3) (V c main_v11) t.val ht ?_ ?_ ?_ ?_ j
    (((cfg0.win 4).blk t).view.emb j) ?_ ?_
  · intro p q
    show V c main_v10 (((cfg0.win 0).blk t).view.emb (ix2 p q)) = _
    refine congrArg (V c main_v10) (funext fun a => Fin.ext ?_)
    match a with
    | ⟨0, _⟩ => show win0_0.index t (0 : Fin 2) * 2400 + 1 * p.val = t.val * 2400 + p.val; omega
    | ⟨1, _⟩ => show win0_0.index t (1 : Fin 2) * 387 + 1 * q.val = q.val; omega
  · intro p k
    show V c main_arg2 (((cfg0.win 1).blk t).view.emb (ix2 p k)) = _
    refine congrArg (V c main_arg2) (funext fun a => Fin.ext ?_)
    match a with
    | ⟨0, _⟩ => show win0_1.index t (0 : Fin 2) * 2400 + 1 * p.val = t.val * 2400 + p.val; omega
    | ⟨1, _⟩ => show win0_1.index t (1 : Fin 2) * 7 + 1 * k.val = k.val; omega
  · intro k q
    show V c main_arg3 (((cfg0.win 2).blk t).view.emb (ix2 k q)) = _
    refine congrArg (V c main_arg3) (funext fun a => Fin.ext ?_)
    match a with
    | ⟨0, _⟩ => show win0_2.index t (0 : Fin 2) * 7 + 1 * k.val = k.val; omega
    | ⟨1, _⟩ => show win0_2.index t (1 : Fin 2) * 387 + 1 * q.val = q.val; omega
  · intro q
    show V c main_v11 (((cfg0.win 3).blk t).view.emb (ix2 (0 : Fin 1) q)) = _
    refine congrArg (V c main_v11) (funext fun a => Fin.ext ?_)
    match a with
    | ⟨0, _⟩ => show win0_3.index t (0 : Fin 2) * 1 + 1 * 0 = 0; omega
    | ⟨1, _⟩ => show win0_3.index t (1 : Fin 2) * 387 + 1 * q.val = q.val; omega
  · show win0_4.index t (0 : Fin 2) * 2400 + 1 * (j 0).val = t.val * 2400 + (j 0).val; omega
  · show win0_4.index t (1 : Fin 2) * 387 + 1 * (j 1).val = (j 1).val; omega

/-! ## The tiles cover the array -/

/-- An index of the array is in point `t`'s tile iff each coordinate is in the tile's range on its axis. -/
theorem mem_blk (t : Fin cfg0.N) (i : S600000x387.Idx) :
    i ∈ ((cfg0.win 4).blk t).view.set ↔ ∀ a : Fin 2, win0_4.index t a * S2400x387.size a ≤ (i a).val
      ∧ (i a).val < win0_4.index t a * S2400x387.size a + S2400x387.size a := by
  show i ∈ ((View.whole main_v12).slice (win0_4.rect t)).set ↔ _
  rw [View.set_slice_whole, Rect.mem_set_unit]
  exact Iff.rfl

/-- Row `e` lies in the tile of point `e / 2400`: every index of the array is written back by some point. -/
theorem cover (i : S600000x387.Idx) :
    ∃ t : Fin cfg0.N, (cfg0.win 4).flush t = true ∧ i ∈ ((cfg0.win 4).blk t).view.set := by
  have hi0 : (i 0).val < 600000 := (i 0).isLt
  have hi1 : (i 1).val < 387 := (i 1).isLt
  have hq : (i 0).val / 2400 < cfg0.N := by rw [grid_size]; omega
  obtain ⟨e00, e01, e10, e11, e20, e21, e30, e31, e40, e41⟩ := idx_facts ⟨(i 0).val / 2400, hq⟩
  have e40' : win0_4.index ⟨(i 0).val / 2400, hq⟩ (0 : Fin 2) = (i 0).val / 2400 := e40
  refine ⟨⟨(i 0).val / 2400, hq⟩, flush0_4 _, ?_⟩
  rw [mem_blk]
  intro a
  match a with
  | ⟨0, _⟩ =>
    show win0_4.index ⟨(i 0).val / 2400, hq⟩ (0 : Fin 2) * 2400 ≤ (i 0).val
      ∧ (i 0).val < win0_4.index ⟨(i 0).val / 2400, hq⟩ (0 : Fin 2) * 2400 + 2400
    omega
  | ⟨1, _⟩ =>
    show win0_4.index ⟨(i 0).val / 2400, hq⟩ (1 : Fin 2) * 387 ≤ (i 1).val
      ∧ (i 1).val < win0_4.index ⟨(i 0).val / 2400, hq⟩ (1 : Fin 2) * 387 + 387
    omega

/-- Region 0 (the first edge message layer, 250 row tiles of 2400 edges): the array its write-backs leave is the edge message layer of the arrays it finds. -/
theorem final (c : Dev nD) :
    (dat0 (F := Ideal) V c).arrAt 4 cfg0.N
      = Cert.Spec.edgeMsg (V c main_v10) (V c main_arg2) (V c main_arg3) (V c main_v11) :=
  (dat0 (F := Ideal) V c).arrAt_eq_of_cover 4 _ (fun t _ => flushed_eq V c t) cover

end Cert.KernelIdeal.Region0

end
-- ==== Proof.Region1.lean ====
/- Region 1 (the first node update, 50 row tiles of 2000 nodes): the array its write-backs leave is the node update of the arrays it finds. -/
import proofs.«132114_j23519240913054_1_alg».proof.Proof.FrameKernelIdeal
import proofs.«132114_j23519240913054_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Cert.KernelIdeal Cert.KernelIdeal.Gen Cert.KernelIdeal.GenP
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The first product: rows of 387 features against the 387 × 128 weights -/

theorem lhsA_0 (i : S2000x128.Idx) (q : dot_S2000x387_S387x128_S2000x128_1_0_0_1_n_n.contr.Idx) :
    (dot_S2000x387_S387x128_S2000x128_1_0_0_1_n_n.lhsIdx i q 0).val = (i 0).val := by
  unfold DotDims.lhsIdx
  rw [dif_neg (show ¬(0 : Fin S2000x387.rank) ∈ dot_S2000x387_S387x128_S2000x128_1_0_0_1_n_n.lhsBatch by decide), dif_pos (show (0 : Fin S2000x387.rank) ∈ dot_S2000x387_S387x128_S2000x128_1_0_0_1_n_n.lhsNonContracting by decide)]
  rfl
theorem lhsA_1 (i : S2000x128.Idx) (q : dot_S2000x387_S387x128_S2000x128_1_0_0_1_n_n.contr.Idx) :
    (dot_S2000x387_S387x128_S2000x128_1_0_0_1_n_n.lhsIdx i q 1).val = (q ⟨0, by decide⟩).val :=
  dot_S2000x387_S387x128_S2000x128_1_0_0_1_n_n.lhsIdx_val_of_single rfl i q
theorem rhsA_0 (i : S2000x128.Idx) (q : dot_S2000x387_S387x128_S2000x128_1_0_0_1_n_n.contr.Idx) :
    (dot_S2000x387_S387x128_S2000x128_1_0_0_1_n_n.rhsIdx i q 0).val = (q ⟨0, by decide⟩).val :=
  dot_S2000x387_S387x128_S2000x128_1_0_0_1_n_n.rhsIdx_val_of_single rfl i q
theorem rhsA_1 (i : S2000x128.Idx) (q : dot_S2000x387_S387x128_S2000x128_1_0_0_1_n_n.contr.Idx) :
    (dot_S2000x387_S387x128_S2000x128_1_0_0_1_n_n.rhsIdx i q 1).val = (i 1).val := by
  unfold DotDims.rhsIdx
  rw [dif_neg (show ¬(1 : Fin S387x128.rank) ∈ dot_S2000x387_S387x128_S2000x128_1_0_0_1_n_n.rhsBatch by decide), dif_pos (show (1 : Fin S387x128.rank) ∈ dot_S2000x387_S387x128_S2000x128_1_0_0_1_n_n.rhsNonContracting by decide)]
  rfl

/-- The first product at row `p`, column `q`: the sum over the 387 contracted features. -/
theorem mmA_apply (l : FVec Ideal S2000x387 .bf16) (r : FVec Ideal S387x128 .bf16) (p : Fin 2000) (q : Fin 128) :
    matmul dot_S2000x387_S387x128_S2000x128_1_0_0_1_n_n none l r (constant (F := Ideal) S2000x128 .f32 0x00000000#32) (ix2 p q)
      = ∑ k : Fin 387, l (ix2 p k) * r (ix2 k q) := by
  refine (Ideal.matmul_constant_zero_apply dot_S2000x387_S387x128_S2000x128_1_0_0_1_n_n none l r (ix2 p q)).trans ?_
  rw [← Equiv.sum_comp (ValueIdx.contrEquiv1 dot_S2000x387_S387x128_S2000x128_1_0_0_1_n_n 387 rfl rfl).symm]
  refine Finset.sum_congr rfl fun k _ => ?_
  have hk := ValueIdx.contrEquiv1_symm_val dot_S2000x387_S387x128_S2000x128_1_0_0_1_n_n 387 rfl rfl k
  have el : dot_S2000x387_S387x128_S2000x128_1_0_0_1_n_n.lhsIdx (ix2 p q) ((ValueIdx.contrEquiv1 dot_S2000x387_S387x128_S2000x128_1_0_0_1_n_n 387 rfl rfl).symm k) = ix2 p k := funext fun a => Fin.ext (by
    match a with
    | ⟨0, _⟩ => exact lhsA_0 _ _
    | ⟨1, _⟩ => exact (lhsA_1 _ _).trans hk)
  have er : dot_S2000x387_S387x128_S2000x128_1_0_0_1_n_n.rhsIdx (ix2 p q) ((ValueIdx.contrEquiv1 dot_S2000x387_S387x128_S2000x128_1_0_0_1_n_n 387 rfl rfl).symm k) = ix2 k q := funext fun a => Fin.ext (by
    match a with
    | ⟨0, _⟩ => exact (rhsA_0 _ _).trans hk
    | ⟨1, _⟩ => exact rhsA_1 _ _)
  rw [el, er]

/-! ## The second product: rows of 128 hidden units against the 128 × 128 weights -/

theorem lhsB_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhsB_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhsB_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhsB_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The second product at row `p`, column `q`: the sum over the 128 contracted hidden units. -/
theorem mmB_apply (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  refine (Ideal.matmul_constant_zero_apply dot_S2000x128_S128x128_S2000x128_1_0_0_1_n_n none l r (ix2 p q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhsB_0 _ _
    | ⟨1, _⟩ => exact (lhsB_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhsB_0 _ _).trans hk
    | ⟨1, _⟩ => exact rhsB_1 _ _)
  rw [el, er]

/-! ## The body's arithmetic at an index -/

/-- A one-row matrix broadcast down the 2000 rows reads its row's entry in the same column. -/
theorem bias_apply (b : FVec Ideal S1x128 .f32) (p : Fin 2000) (q : Fin 128) :
    broadcastTo S2000x128 b broadcasts_S1x128_S2000x128 (ix2 p q) = b (ix2 0 q) :=
  broadcastTo_apply b broadcasts_S1x128_S2000x128 (ix2 p q) (ix2 0 q) (fun a => by
    match a with
    | ⟨0, _⟩ => rfl
    | ⟨1, _⟩ => rfl)

/-- The hidden layer the body forms from its first four loads: the sum of the two feature blocks times the first
    weights, plus the first bias row, clamped below at zero. -/
def hidden (v0 v1 : Vec Ideal S2000x387 .f32) (v5 : Vec Ideal S387x128 .f32) (v8 : Vec Ideal S1x128 .f32) :
    FVec Ideal S2000x128 .f32 :=
  maximumf
    (addf
      (matmul dot_S2000x387_S387x128_S2000x128_1_0_0_1_n_n none
        (truncf .bf16 (addf v0 (shapeCast S2000x387 v1 shapeCasts_S2000x387_S2000x387)) bitsLt_bf16_f32)
        (truncf .bf16 v5 bitsLt_bf16_f32) (constant (F := Ideal) S2000x128 .f32 0x00000000#32))
      (broadcastTo S2000x128 (shapeCast S1x128 v8 shapeCasts_S1x128_S1x128) broadcasts_S1x128_S2000x128))
    (broadcast S2000x128 (Scalar.ofBits (F := Ideal) .f32 0x00000000#32))

/-- The hidden layer at row `p`, unit `j`. -/
theorem hidden_apply (v0 v1 : Vec Ideal S2000x387 .f32) (v5 : Vec Ideal S387x128 .f32) (v8 : Vec Ideal S1x128 .f32)
    (p : Fin 2000) (j : Fin 128) :
    hidden v0 v1 v5 v8 (ix2 p j)
      = max ((∑ k : Fin 387, (v0 (ix2 p k) + v1 (ix2 p k)) * v5 (ix2 k j)) + v8 (ix2 0 j)) 0 := by
  unfold hidden
  rw [shapeCast_self, shapeCast_self]
  show max (matmul dot_S2000x387_S387x128_S2000x128_1_0_0_1_n_n none (truncf .bf16 (addf v0 v1) bitsLt_bf16_f32) (truncf .bf16 v5 bitsLt_bf16_f32)
      (constant (F := Ideal) S2000x128 .f32 0x00000000#32) (ix2 p j)
      + broadcastTo S2000x128 v8 broadcasts_S1x128_S2000x128 (ix2 p j)) (Ideal.ofBits .f32 0x00000000#32) = _
  rw [mmA_apply, bias_apply, Ideal.ofBits_zero_f32]
  rfl

/-- The body's payload is the second layer over the hidden layer. -/
theorem pay_eq (v0 v1 : Vec Ideal S2000x387 .f32) (v5 : Vec Ideal S387x128 .f32) (v8 : Vec Ideal S1x128 .f32)
    (v15 : Vec Ideal S128x128 .f32) (v18 : Vec Ideal S1x128 .f32) :
    k1_pay1 (F := Ideal) v0 v1 v5 v8 v15 v18
      = maximumf
          (addf
            (matmul dot_S2000x128_S128x128_S2000x128_1_0_0_1_n_n none (truncf .bf16 (hidden v0 v1 v5 v8) bitsLt_bf16_f32)
              (truncf .bf16 v15 bitsLt_bf16_f32) (constant (F := Ideal) S2000x128 .f32 0x00000000#32))
            (broadcastTo S2000x128 (shapeCast S1x128 v18 shapeCasts_S1x128_S1x128) broadcasts_S1x128_S2000x128))
          (broadcast S2000x128 (Scalar.ofBits (F := Ideal) .f32 0x00000000#32)) := rfl

/-- The payload at row `p`, column `q`: the node update's two layers on the loaded blocks. -/
theorem pay_apply (v0 v1 : Vec Ideal S2000x387 .f32) (v5 : Vec Ideal S387x128 .f32) (v8 : Vec Ideal S1x128 .f32)
    (v15 : Vec Ideal S128x128 .f32) (v18 : Vec Ideal S1x128 .f32) (p : Fin 2000) (q : Fin 128) :
    k1_pay1 (F := Ideal) v0 v1 v5 v8 v15 v18 (ix2 p q)
      = max ((∑ j : Fin 128,
              max ((∑ k : Fin 387, (v0 (ix2 p k) + v1 (ix2 p k)) * v5 (ix2 k j)) + v8 (ix2 0 j)) 0 * v15 (ix2 j q))
            + v18 (ix2 0 q)) 0 := by
  rw [pay_eq, shapeCast_self]
  show max (matmul dot_S2000x128_S128x128_S2000x128_1_0_0_1_n_n none (truncf .bf16 (hidden v0 v1 v5 v8) bitsLt_bf16_f32) (truncf .bf16 v15 bitsLt_bf16_f32)
      (constant (F := Ideal) S2000x128 .f32 0x00000000#32) (ix2 p q)
      + broadcastTo S2000x128 v18 broadcasts_S1x128_S2000x128 (ix2 p q)) (Ideal.ofBits .f32 0x00000000#32) = _
  rw [mmB_apply, bias_apply, Ideal.ofBits_zero_f32]
  refine congrArg (fun s => max (s + v18 (ix2 0 q)) 0) (Finset.sum_congr rfl fun j _ => ?_)
  show hidden v0 v1 v5 v8 (ix2 p j) * v15 (ix2 j q) = _
  rw [hidden_apply]

/-! ## From blocks to the array -/

theorem zero_off : (![0, 0] : Fin 2 → Nat) = fun _ => 0 := funext fun a => by fin_cases a <;> rfl

/-- The index maps over the 50 grid points: the two feature windows and the output window sit at row block `t`,
    column block 0; the weight and bias windows are whole. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The payload on blocks that read the arrays `X A W1 B1 W2 B2` — the feature blocks at array row `P` for block
    row `p`, the weights and biases entry for entry — is the node update of those arrays at `(P, q)`. -/
theorem upd_of_blocks (X A : Cert.Spec.Mat 100000 387) (W1 : Cert.Spec.Mat 387 128) (B1 : Cert.Spec.Mat 1 128)
    (W2 : Cert.Spec.Mat 128 128) (B2 : Cert.Spec.Mat 1 128)
    (x0 x1 : Vec Ideal S2000x387 .f32) (x2 : Vec Ideal S387x128 .f32) (x3 : Vec Ideal S1x128 .f32)
    (x4 : Vec Ideal S128x128 .f32) (x5 : Vec Ideal S1x128 .f32) (p : Fin 2000) (q : Fin 128) (P : Fin 100000)
    (h0 : ∀ k : Fin 387, x0 (ix2 p k) = X (ix2 P k)) (h1 : ∀ k : Fin 387, x1 (ix2 p k) = A (ix2 P k))
    (h2 : ∀ (k : Fin 387) (j : Fin 128), x2 (ix2 k j) = W1 (ix2 k j)) (h3 : ∀ j : Fin 128, x3 (ix2 0 j) = B1 (ix2 0 j))
    (h4 : ∀ (j : Fin 128) (q : Fin 128), x4 (ix2 j q) = W2 (ix2 j q)) (h5 : ∀ q : Fin 128, x5 (ix2 0 q) = B2 (ix2 0 q)) :
    k1_pay1 (F := Ideal) x0 x1 x2 x3 x4 x5 (ix2 p q) = Cert.Spec.nodeUpd X A W1 B1 W2 B2 (ix2 P q) := by
  rw [pay_apply]
  show _ = max ((∑ j : Fin 128,
      max ((∑ k : Fin 387, (X (ix2 P k) + A (ix2 P k)) * W1 (ix2 k j)) + B1 (ix2 0 j)) 0 * W2 (ix2 j q))
    + B2 (ix2 0 q)) 0
  simp only [h0, h1, h2, h3, h4, h5]

/-- What point `t` writes back is block `t` of the node update of the arrays the region finds. -/
theorem flushed_eq (c : Dev nD) (t : Fin cfg1.N) :
    (dat1 (F := Ideal) V c).flushed 6 t = ((cfg1.win 6).blk t).view.read (Elt Ideal)
      (Cert.Spec.nodeUpd (V c main_arg0) (V c main_v15) (V c main_arg5) (V c main_v16) (V c main_arg7) (V c main_v17)) := by
  show (cfg1.win 6).cut (grid1.coords t) ((dat1 V c).after 6 t) = _
  rw [after1_6]
  unfold out1_6
  rw [View.canon_unit_zero zero_off]
  simp only [View.ld_unit_zero (S := S2000x387) zero_off, View.ld_unit_zero (S := S387x128) zero_off,
    View.ld_unit_zero (S := S1x128) zero_off, View.ld_unit_zero (S := S128x128) zero_off]
  obtain ⟨e00, e01, e10, e11, e20, e21, e30, e31, e40, e41, e50, e51, e60, e61⟩ := idx_facts t
  have ht : t.val < 50 := t.isLt
  funext j
  obtain ⟨p, q, rfl⟩ : ∃ (p : Fin 2000) (q : Fin 128), j = ix2 p q := ⟨j 0, j 1, eq_ix2 j⟩
  have hp : p.val < 2000 := p.isLt
  refine (upd_of_blocks (V c main_arg0) (V c main_v15) (V c main_arg5) (V c main_v16) (V c main_arg7) (V c main_v17)
    (iblk1 V c 0 t) (iblk1 V c 1 t) (iblk1 V c 2 t) (iblk1 V c 3 t) (iblk1 V c 4 t) (iblk1 V c 5 t)
    p q ⟨t.val * 2000 + p.val, by omega⟩ ?_ ?_ ?_ ?_ ?_ ?_).trans ?_
  · intro k
    show V c main_arg0 (((cfg1.win 0).blk t).view.emb (ix2 p k)) = V c main_arg0 _
    refine congrArg _ (funext fun a => Fin.ext ?_)
    match a with
    | ⟨0, _⟩ => show win1_0.index t (0 : Fin 2) * 2000 + 1 * p.val = t.val * 2000 + p.val; omega
    | ⟨1, _⟩ => show win1_0.index t (1 : Fin 2) * 387 + 1 * k.val = k.val; omega
  · intro k
    show V c main_v15 (((cfg1.win 1).blk t).view.emb (ix2 p k)) = V c main_v15 _
    refine congrArg _ (funext fun a => Fin.ext ?_)
    match a with
    | ⟨0, _⟩ => show win1_1.index t (0 : Fin 2) * 2000 + 1 * p.val = t.val * 2000 + p.val; omega
    | ⟨1, _⟩ => show win1_1.index t (1 : Fin 2) * 387 + 1 * k.val = k.val; omega
  · intro k j
    show V c main_arg5 (((cfg1.win 2).blk t).view.emb (ix2 k j)) = V c main_arg5 _
    refine congrArg _ (funext fun a => Fin.ext ?_)
    match a with
    | ⟨0, _⟩ => show win1_2.index t (0 : Fin 2) * 387 + 1 * k.val = k.val; omega
    | ⟨1, _⟩ => show win1_2.index t (1 : Fin 2) * 128 + 1 * j.val = j.val; omega
  · intro j
    show V c main_v16 (((cfg1.win 3).blk t).view.emb (ix2 0 j)) = V c main_v16 _
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * j.val = j.val; omega
  · intro j q'
    show V c main_arg7 (((cfg1.win 4).blk t).view.emb (ix2 j q')) = V c main_arg7 _
    refine congrArg _ (funext fun a => Fin.ext ?_)
    match a with
    | ⟨0, _⟩ => show win1_4.index t (0 : Fin 2) * 128 + 1 * j.val = j.val; omega
    | ⟨1, _⟩ => show win1_4.index t (1 : Fin 2) * 128 + 1 * q'.val = q'.val; omega
  · intro q'
    show V c main_v17 (((cfg1.win 5).blk t).view.emb (ix2 0 q')) = V c main_v17 _
    refine congrArg _ (funext fun a => Fin.ext ?_)
    match a with
    | ⟨0, _⟩ => show win1_5.index t (0 : Fin 2) * 1 + 1 * 0 = 0; omega
    | ⟨1, _⟩ => show win1_5.index t (1 : Fin 2) * 128 + 1 * q'.val = q'.val; omega
  · show Cert.Spec.nodeUpd (V c main_arg0) (V c main_v15) (V c main_arg5) (V c main_v16) (V c main_arg7) (V c main_v17) _
      = Cert.Spec.nodeUpd (V c main_arg0) (V c main_v15) (V c main_arg5) (V c main_v16) (V c main_arg7) (V c main_v17)
          (((cfg1.win 6).blk t).view.emb (ix2 p q))
    refine congrArg _ (funext fun a => Fin.ext ?_)
    match a with
    | ⟨0, _⟩ => show t.val * 2000 + p.val = win1_6.index t (0 : Fin 2) * 2000 + 1 * p.val; omega
    | ⟨1, _⟩ => show q.val = win1_6.index t (1 : Fin 2) * 128 + 1 * q.val; omega

/-- An index of the output array is in point `t`'s block iff each coordinate is in the block's range on its axis. -/
theorem mem_blk (t : Fin cfg1.N) (i : S100000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v18).slice (win1_6.rect t)).set ↔ _
  rw [View.set_slice_whole, Rect.mem_set_unit]
  exact Iff.rfl

/-- Every entry of the output array is written back by some point: row `r` by point `r / 2000`. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  refine ⟨⟨(i 0).val / 2000, by show (i 0).val / 2000 < 50; omega⟩, flush1_6 _, ?_⟩
  rw [mem_blk]
  obtain ⟨-, -, -, -, -, -, -, -, -, -, -, -, e60, e61⟩ := idx_facts ⟨(i 0).val / 2000, by show (i 0).val / 2000 < 50; omega⟩
  intro a
  match a with
  | ⟨0, _⟩ =>
    show win1_6.index _ (0 : Fin 2) * 2000 ≤ (i 0).val ∧ (i 0).val < win1_6.index _ (0 : Fin 2) * 2000 + 2000
    rw [e60]; show (i 0).val / 2000 * 2000 ≤ (i 0).val ∧ (i 0).val < (i 0).val / 2000 * 2000 + 2000; omega
  | ⟨1, _⟩ =>
    show win1_6.index _ (1 : Fin 2) * 128 ≤ (i 1).val ∧ (i 1).val < win1_6.index _ (1 : Fin 2) * 128 + 128
    rw [e61]; omega

/-- Region 1 (the first node update, 50 row tiles of 2000 nodes): the array its write-backs leave is the node update of the arrays it finds. -/
theorem final (c : Dev nD) :
    (dat1 (F := Ideal) V c).arrAt 6 cfg1.N
      = Cert.Spec.nodeUpd (V c main_arg0) (V c main_v15) (V c main_arg5) (V c main_v16) (V c main_arg7) (V c main_v17) :=
  (dat1 (F := Ideal) V c).arrAt_eq_of_cover 6 _ (fun t _ => flushed_eq V c t) cover

end Cert.KernelIdeal.Region1

end
-- ==== Proof.Region2.lean ====
/- Region 2 (the second edge message layer): the array its write-backs leave is the edge message layer of the arrays it finds. -/
import proofs.«132114_j23519240913054_1_alg».proof.Proof.FrameKernelIdeal
import proofs.«132114_j23519240913054_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region2

open Cert.KernelIdeal Cert.KernelIdeal.Gen Cert.KernelIdeal.GenP
open Idealize.ShloMosaic Idealize.ShloMosaic.TcCoe Idealize.SL.Sem
open Idealize.ShloMosaic.Pipeline (Dat)

open Idealize.ShloMosaic.ValueIdx

variable (V : (c : Dev nD) → (b : Ref sig .tc) → Buf (Elt Ideal) ((c : Thread nD τ).loc b))

/-! ## The product with the weight matrix, entry by entry -/

/-- The left operand's row is the output's row. -/
theorem lhs_row (i : S2400x128.Idx) (q : dot_S2400x7_S7x128_S2400x128_1_0_0_1_n_n.contr.Idx) :
    (dot_S2400x7_S7x128_S2400x128_1_0_0_1_n_n.lhsIdx i q 0).val = (i 0).val := by
  unfold DotDims.lhsIdx
  rw [dif_neg (show ¬(0 : Fin S2400x7.rank) ∈ dot_S2400x7_S7x128_S2400x128_1_0_0_1_n_n.lhsBatch by decide), dif_pos (show (0 : Fin S2400x7.rank) ∈ dot_S2400x7_S7x128_S2400x128_1_0_0_1_n_n.lhsNonContracting by decide)]
  rfl
/-- The left operand's column is the contracted coordinate. -/
theorem lhs_col (i : S2400x128.Idx) (q : dot_S2400x7_S7x128_S2400x128_1_0_0_1_n_n.contr.Idx) :
    (dot_S2400x7_S7x128_S2400x128_1_0_0_1_n_n.lhsIdx i q 1).val = (q ⟨0, by decide⟩).val :=
  dot_S2400x7_S7x128_S2400x128_1_0_0_1_n_n.lhsIdx_val_of_single rfl i q
/-- The right operand's row is the contracted coordinate. -/
theorem rhs_row (i : S2400x128.Idx) (q : dot_S2400x7_S7x128_S2400x128_1_0_0_1_n_n.contr.Idx) :
    (dot_S2400x7_S7x128_S2400x128_1_0_0_1_n_n.rhsIdx i q 0).val = (q ⟨0, by decide⟩).val :=
  dot_S2400x7_S7x128_S2400x128_1_0_0_1_n_n.rhsIdx_val_of_single rfl i q
/-- The right operand's column is the output's column. -/
theorem rhs_col (i : S2400x128.Idx) (q : dot_S2400x7_S7x128_S2400x128_1_0_0_1_n_n.contr.Idx) :
    (dot_S2400x7_S7x128_S2400x128_1_0_0_1_n_n.rhsIdx i q 1).val = (i 1).val := by
  unfold DotDims.rhsIdx
  rw [dif_neg (show ¬(1 : Fin S7x128.rank) ∈ dot_S2400x7_S7x128_S2400x128_1_0_0_1_n_n.rhsBatch by decide), dif_pos (show (1 : Fin S7x128.rank) ∈ dot_S2400x7_S7x128_S2400x128_1_0_0_1_n_n.rhsNonContracting by decide)]
  rfl

/-- A product of a 2400×7 block with the 7×128 weights, accumulated from zero, read at entry (p, q):
    the exact sum over the seven contracted coordinates. -/
theorem prod_apply (a : FVec Ideal S2400x7 .bf16) (b : FVec Ideal S7x128 .bf16) (p : Fin 2400) (q : Fin 128) :
    matmul dot_S2400x7_S7x128_S2400x128_1_0_0_1_n_n none a b (constant (F := Ideal) S2400x128 .f32 0x00000000#32) (ix2 p q)
      = ∑ k : Fin 7, a (ix2 p k) * b (ix2 k q) := by
  simp only [matmul]
  rw [Ideal.matmul_constant_zero_apply, ← Equiv.sum_comp (ValueIdx.contrEquiv1 dot_S2400x7_S7x128_S2400x128_1_0_0_1_n_n 7 rfl rfl).symm]
  refine Finset.sum_congr rfl fun k _ => ?_
  have hk := ValueIdx.contrEquiv1_symm_val dot_S2400x7_S7x128_S2400x128_1_0_0_1_n_n 7 rfl rfl k
  have el : dot_S2400x7_S7x128_S2400x128_1_0_0_1_n_n.lhsIdx (ix2 p q) ((ValueIdx.contrEquiv1 dot_S2400x7_S7x128_S2400x128_1_0_0_1_n_n 7 rfl rfl).symm k) = ix2 p k := funext fun a => Fin.ext (by
    match a with
    | ⟨0, _⟩ => exact lhs_row _ _
    | ⟨1, _⟩ => exact (lhs_col _ _).trans hk)
  have er : dot_S2400x7_S7x128_S2400x128_1_0_0_1_n_n.rhsIdx (ix2 p q) ((ValueIdx.contrEquiv1 dot_S2400x7_S7x128_S2400x128_1_0_0_1_n_n 7 rfl rfl).symm k) = ix2 k q := funext fun a => Fin.ext (by
    match a with
    | ⟨0, _⟩ => exact (rhs_row _ _).trans hk
    | ⟨1, _⟩ => exact rhs_col _ _)
  rw [el, er]

/-! ## The body's arithmetic at an entry -/

/-- What the body computes at entry (p, q) of its tile: the incoming tile's entry plus the product's entry, plus
    the bias row's entry, cut below at zero. Narrowing to the short format is the identity on exact values. -/
theorem pay_apply (v0 : Vec Ideal S2400x7 .f32) (v2 : Vec Ideal S7x128 .f32) (v5 : Vec Ideal S2400x128 .f32)
    (v8 : Vec Ideal S1x128 .f32) (p : Fin 2400) (q : Fin 128) :
    k2_pay1 (F := Ideal) v0 v2 v5 v8 (ix2 p q)
      = max ((v5 (ix2 p q) + ∑ k : Fin 7, v0 (ix2 p k) * v2 (ix2 k q)) + v8 (ix2 (0 : Fin 1) q)) 0 := by
  unfold k2_pay1
  show max ((shapeCast S2400x128 v5 shapeCasts_S2400x128_S2400x128 (ix2 p q)
      + matmul dot_S2400x7_S7x128_S2400x128_1_0_0_1_n_n none (truncf .bf16 v0 bitsLt_bf16_f32) (truncf .bf16 v2 bitsLt_bf16_f32) (constant (F := Ideal) S2400x128 .f32 0x00000000#32) (ix2 p q))
      + broadcastTo S2400x128 (shapeCast S1x128 v8 shapeCasts_S1x128_S1x128) broadcasts_S1x128_S2400x128 (ix2 p q))
      (Ideal.ofBits .f32 0x00000000#32) = _
  rw [prod_apply, shapeCast_self, shapeCast_self, broadcastTo_1b_ab_apply, Ideal.ofBits_zero_f32]
  rfl

/-! ## The tile a grid point writes back -/

theorem zero_off : (![0, 0] : Fin 2 → Nat) = fun _ => 0 := funext fun a => by fin_cases a <;> rfl

/-- The windows' block indices, decided over the 250 points: the incoming messages, the edge features and the
    output sit on row tile `t`; the weights and the bias row are their one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The grid has 250 points. -/
theorem grid_size : cfg2.N = 250 := by decide

/-- One entry of a tile: if the four loaded blocks are row tile `r` of the incoming messages and of the edge
    features, the whole weight matrix and the whole bias row, the body's value at (p, q) is the edge message
    layer's entry at row `r·2400 + p`, column `q`. -/
theorem tile_entry (x0 : Vec Ideal S2400x128 .f32) (x1 : Vec Ideal S2400x7 .f32) (x2 : Vec Ideal S7x128 .f32)
    (x3 : Vec Ideal S1x128 .f32) (xs : Cert.Spec.Mat 600000 128) (ea : Cert.Spec.Mat 600000 7)
    (ew : Cert.Spec.Mat 7 128) (eb : Cert.Spec.Mat 1 128) (r : Nat) (hr : r < 250)
    (h0 : ∀ (p : Fin 2400) (q : Fin 128), x0 (ix2 p q) = xs (ix2 (⟨r * 2400 + p.val, by have := p.isLt; omega⟩ : Fin 600000) q))
    (h1 : ∀ (p : Fin 2400) (k : Fin 7), x1 (ix2 p k) = ea (ix2 (⟨r * 2400 + p.val, by have := p.isLt; omega⟩ : Fin 600000) k))
    (h2 : ∀ (k : Fin 7) (q : Fin 128), x2 (ix2 k q) = ew (ix2 k q))
    (h3 : ∀ q : Fin 128, x3 (ix2 (0 : Fin 1) q) = eb (ix2 (0 : Fin 1) q))
    (p : Fin 2400) (q : Fin 128) :
    k2_pay1 (F := Ideal) x1 x2 x0 x3 (ix2 p q)
      = Cert.Spec.edgeMsg xs ea ew eb (ix2 (⟨r * 2400 + p.val, by have := p.isLt; omega⟩ : Fin 600000) q) := by
  rw [pay_apply, h0, h3]
  simp only [h1, h2]
  rfl

/-- The same at an index of the tile and the index of the array it lands on, given by coordinates. -/
theorem tile_read (x0 : Vec Ideal S2400x128 .f32) (x1 : Vec Ideal S2400x7 .f32) (x2 : Vec Ideal S7x128 .f32)
    (x3 : Vec Ideal S1x128 .f32) (xs : Cert.Spec.Mat 600000 128) (ea : Cert.Spec.Mat 600000 7)
    (ew : Cert.Spec.Mat 7 128) (eb : Cert.Spec.Mat 1 128) (r : Nat) (hr : r < 250)
    (h0 : ∀ (p : Fin 2400) (q : Fin 128), x0 (ix2 p q) = xs (ix2 (⟨r * 2400 + p.val, by have := p.isLt; omega⟩ : Fin 600000) q))
    (h1 : ∀ (p : Fin 2400) (k : Fin 7), x1 (ix2 p k) = ea (ix2 (⟨r * 2400 + p.val, by have := p.isLt; omega⟩ : Fin 600000) k))
    (h2 : ∀ (k : Fin 7) (q : Fin 128), x2 (ix2 k q) = ew (ix2 k q))
    (h3 : ∀ q : Fin 128, x3 (ix2 (0 : Fin 1) q) = eb (ix2 (0 : Fin 1) q))
    (j : S2400x128.Idx) (i : S600000x128.Idx)
    (hi0 : (i 0).val = r * 2400 + (j 0).val) (hi1 : (i 1).val = (j 1).val) :
    k2_pay1 (F := Ideal) x1 x2 x0 x3 j = Cert.Spec.edgeMsg xs ea ew eb i := by
  obtain ⟨p, q, rfl⟩ : ∃ (p : Fin 2400) (q : Fin 128), j = ix2 p q := ⟨j 0, j 1, eq_ix2 j⟩
  have hi : i = ix2 (⟨r * 2400 + p.val, by have := p.isLt; omega⟩ : Fin 600000) q := funext fun a => Fin.ext (by
    match a with
    | ⟨0, _⟩ => exact hi0
    | ⟨1, _⟩ => exact hi1)
  rw [hi]
  exact tile_entry x0 x1 x2 x3 xs ea ew eb r hr h0 h1 h2 h3 p q

/-- WHAT POINT `t` WRITES BACK is row tile `t` of the edge message layer of the arrays the region finds. -/
theorem flushed_eq (c : Dev nD) (t : Fin cfg2.N) :
    (dat2 (F := Ideal) V c).flushed 4 t = ((cfg2.win 4).blk t).view.read (Elt Ideal)
      (Cert.Spec.edgeMsg (V c main_v25) (V c main_arg2) (V c main_arg9) (V c main_v26)) := by
  show (cfg2.win 4).cut (grid2.coords t) ((dat2 V c).after 4 t) = _
  rw [after2_4]
  unfold out2_4
  rw [View.canon_unit_zero zero_off]
  simp only [View.ld_unit_zero (S := S2400x128) zero_off, View.ld_unit_zero (S := S2400x7) zero_off,
    View.ld_unit_zero (S := S7x128) zero_off, View.ld_unit_zero (S := S1x128) zero_off]
  obtain ⟨e00, e01, e10, e11, e20, e21, e30, e31, e40, e41⟩ := idx_facts t
  have ht : t.val < 250 := lt_of_lt_of_eq t.isLt grid_size
  funext j
  refine tile_read (iblk2 V c 0 t) (iblk2 V c 1 t) (iblk2 V c 2 t) (iblk2 V c 3 t)
    (V c main_v25) (V c main_arg2) (V c main_arg9) (V c main_v26) t.val ht ?_ ?_ ?_ ?_ j
    (((cfg2.win 4).blk t).view.emb j) ?_ ?_
  · intro p q
    show V c main_v25 (((cfg2.win 0).blk t).view.emb (ix2 p q)) = _
    refine congrArg (V c main_v25) (funext fun a => Fin.ext ?_)
    match a with
    | ⟨0, _⟩ => show win2_0.index t (0 : Fin 2) * 2400 + 1 * p.val = t.val * 2400 + p.val; omega
    | ⟨1, _⟩ => show win2_0.index t (1 : Fin 2) * 128 + 1 * q.val = q.val; omega
  · intro p k
    show V c main_arg2 (((cfg2.win 1).blk t).view.emb (ix2 p k)) = _
    refine congrArg (V c main_arg2) (funext fun a => Fin.ext ?_)
    match a with
    | ⟨0, _⟩ => show win2_1.index t (0 : Fin 2) * 2400 + 1 * p.val = t.val * 2400 + p.val; omega
    | ⟨1, _⟩ => show win2_1.index t (1 : Fin 2) * 7 + 1 * k.val = k.val; omega
  · intro k q
    show V c main_arg9 (((cfg2.win 2).blk t).view.emb (ix2 k q)) = _
    refine congrArg (V c main_arg9) (funext fun a => Fin.ext ?_)
    match a with
    | ⟨0, _⟩ => show win2_2.index t (0 : Fin 2) * 7 + 1 * k.val = k.val; omega
    | ⟨1, _⟩ => show win2_2.index t (1 : Fin 2) * 128 + 1 * q.val = q.val; omega
  · intro q
    show V c main_v26 (((cfg2.win 3).blk t).view.emb (ix2 (0 : Fin 1) q)) = _
    refine congrArg (V c main_v26) (funext fun a => Fin.ext ?_)
    match a with
    | ⟨0, _⟩ => show win2_3.index t (0 : Fin 2) * 1 + 1 * 0 = 0; omega
    | ⟨1, _⟩ => show win2_3.index t (1 : Fin 2) * 128 + 1 * q.val = q.val; omega
  · show win2_4.index t (0 : Fin 2) * 2400 + 1 * (j 0).val = t.val * 2400 + (j 0).val; omega
  · show win2_4.index t (1 : Fin 2) * 128 + 1 * (j 1).val = (j 1).val; omega

/-! ## The tiles cover the array -/

/-- An index of the array is in point `t`'s tile iff each coordinate is in the tile's range on its axis. -/
theorem mem_blk (t : Fin cfg2.N) (i : S600000x128.Idx) :
    i ∈ ((cfg2.win 4).blk t).view.set ↔ ∀ a : Fin 2, win2_4.index t a * S2400x128.size a ≤ (i a).val
      ∧ (i a).val < win2_4.index t a * S2400x128.size a + S2400x128.size a := by
  show i ∈ ((View.whole main_v27).slice (win2_4.rect t)).set ↔ _
  rw [View.set_slice_whole, Rect.mem_set_unit]
  exact Iff.rfl

/-- Row `e` lies in the tile of point `e / 2400`: every index of the array is written back by some point. -/
theorem cover (i : S600000x128.Idx) :
    ∃ t : Fin cfg2.N, (cfg2.win 4).flush t = true ∧ i ∈ ((cfg2.win 4).blk t).view.set := by
  have hi0 : (i 0).val < 600000 := (i 0).isLt
  have hi1 : (i 1).val < 128 := (i 1).isLt
  have hq : (i 0).val / 2400 < cfg2.N := by rw [grid_size]; omega
  obtain ⟨e00, e01, e10, e11, e20, e21, e30, e31, e40, e41⟩ := idx_facts ⟨(i 0).val / 2400, hq⟩
  have e40' : win2_4.index ⟨(i 0).val / 2400, hq⟩ (0 : Fin 2) = (i 0).val / 2400 := e40
  refine ⟨⟨(i 0).val / 2400, hq⟩, flush2_4 _, ?_⟩
  rw [mem_blk]
  intro a
  match a with
  | ⟨0, _⟩ =>
    show win2_4.index ⟨(i 0).val / 2400, hq⟩ (0 : Fin 2) * 2400 ≤ (i 0).val
      ∧ (i 0).val < win2_4.index ⟨(i 0).val / 2400, hq⟩ (0 : Fin 2) * 2400 + 2400
    omega
  | ⟨1, _⟩ =>
    show win2_4.index ⟨(i 0).val / 2400, hq⟩ (1 : Fin 2) * 128 ≤ (i 1).val
      ∧ (i 1).val < win2_4.index ⟨(i 0).val / 2400, hq⟩ (1 : Fin 2) * 128 + 128
    omega

/-- Region 2 (the second edge message layer): the array its write-backs leave is the edge message layer of the arrays it finds. -/
theorem final (c : Dev nD) :
    (dat2 (F := Ideal) V c).arrAt 4 cfg2.N
      = Cert.Spec.edgeMsg (V c main_v25) (V c main_arg2) (V c main_arg9) (V c main_v26) :=
  (dat2 (F := Ideal) V c).arrAt_eq_of_cover 4 _ (fun t _ => flushed_eq V c t) cover

end Cert.KernelIdeal.Region2

end
-- ==== Proof.Region3.lean ====
/- Region 3 (the second node update): the array its write-backs leave is the node update of the arrays it finds. -/
import proofs.«132114_j23519240913054_1_alg».proof.Proof.FrameKernelIdeal
import proofs.«132114_j23519240913054_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region3

open Cert.KernelIdeal Cert.KernelIdeal.Gen Cert.KernelIdeal.GenP
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The product both layers use: rows of 128 entries against 128 × 128 weights -/

theorem lhsW_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhsW_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhsW_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhsW_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product at row `p`, column `q`: the sum over the 128 contracted entries. -/
theorem mm_apply (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  refine (Ideal.matmul_constant_zero_apply dot_S2000x128_S128x128_S2000x128_1_0_0_1_n_n none l r (ix2 p q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhsW_0 _ _
    | ⟨1, _⟩ => exact (lhsW_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhsW_0 _ _).trans hk
    | ⟨1, _⟩ => exact rhsW_1 _ _)
  rw [el, er]

/-! ## The body's arithmetic at an index -/

/-- A one-row matrix broadcast down the 2000 rows reads its row's entry in the same column. -/
theorem bias_apply (b : FVec Ideal S1x128 .f32) (p : Fin 2000) (q : Fin 128) :
    broadcastTo S2000x128 b broadcasts_S1x128_S2000x128 (ix2 p q) = b (ix2 0 q) :=
  broadcastTo_apply b broadcasts_S1x128_S2000x128 (ix2 p q) (ix2 0 q) (fun a => by
    match a with
    | ⟨0, _⟩ => rfl
    | ⟨1, _⟩ => rfl)

/-- The hidden layer the body forms from its first four loads: the sum of the two feature blocks times the first
    weights, plus the first bias row, clamped below at zero. -/
def hidden (v0 v2 : Vec Ideal S2000x128 .f32) (v6 : Vec Ideal S128x128 .f32) (v9 : Vec Ideal S1x128 .f32) :
    FVec Ideal S2000x128 .f32 :=
  maximumf
    (addf
      (matmul dot_S2000x128_S128x128_S2000x128_1_0_0_1_n_n none
        (truncf .bf16 (addf (shapeCast S2000x128 v0 shapeCasts_S2000x128_S2000x128)
          (shapeCast S2000x128 v2 shapeCasts_S2000x128_S2000x128)) bitsLt_bf16_f32)
        (truncf .bf16 v6 bitsLt_bf16_f32) (constant (F := Ideal) S2000x128 .f32 0x00000000#32))
      (broadcastTo S2000x128 (shapeCast S1x128 v9 shapeCasts_S1x128_S1x128) broadcasts_S1x128_S2000x128))
    (broadcast S2000x128 (Scalar.ofBits (F := Ideal) .f32 0x00000000#32))

/-- The hidden layer at row `p`, unit `j`. -/
theorem hidden_apply (v0 v2 : Vec Ideal S2000x128 .f32) (v6 : Vec Ideal S128x128 .f32) (v9 : Vec Ideal S1x128 .f32)
    (p : Fin 2000) (j : Fin 128) :
    hidden v0 v2 v6 v9 (ix2 p j)
      = max ((∑ k : Fin 128, (v0 (ix2 p k) + v2 (ix2 p k)) * v6 (ix2 k j)) + v9 (ix2 0 j)) 0 := by
  unfold hidden
  rw [shapeCast_self, shapeCast_self, shapeCast_self]
  show max (matmul dot_S2000x128_S128x128_S2000x128_1_0_0_1_n_n none (truncf .bf16 (addf v0 v2) bitsLt_bf16_f32)
      (truncf .bf16 v6 bitsLt_bf16_f32) (constant (F := Ideal) S2000x128 .f32 0x00000000#32) (ix2 p j)
      + broadcastTo S2000x128 v9 broadcasts_S1x128_S2000x128 (ix2 p j)) (Ideal.ofBits .f32 0x00000000#32) = _
  rw [mm_apply, bias_apply, Ideal.ofBits_zero_f32]
  rfl

/-- The body's payload is the second layer over the hidden layer. -/
theorem pay_eq (v0 v2 : Vec Ideal S2000x128 .f32) (v6 : Vec Ideal S128x128 .f32) (v9 : Vec Ideal S1x128 .f32)
    (v16 : Vec Ideal S128x128 .f32) (v19 : Vec Ideal S1x128 .f32) :
    k3_pay1 (F := Ideal) v0 v2 v6 v9 v16 v19
      = maximumf
          (addf
            (matmul dot_S2000x128_S128x128_S2000x128_1_0_0_1_n_n none (truncf .bf16 (hidden v0 v2 v6 v9) bitsLt_bf16_f32)
              (truncf .bf16 v16 bitsLt_bf16_f32) (constant (F := Ideal) S2000x128 .f32 0x00000000#32))
            (broadcastTo S2000x128 (shapeCast S1x128 v19 shapeCasts_S1x128_S1x128) broadcasts_S1x128_S2000x128))
          (broadcast S2000x128 (Scalar.ofBits (F := Ideal) .f32 0x00000000#32)) := rfl

/-- The payload at row `p`, column `q`: the node update's two layers on the loaded blocks. -/
theorem pay_apply (v0 v2 : Vec Ideal S2000x128 .f32) (v6 : Vec Ideal S128x128 .f32) (v9 : Vec Ideal S1x128 .f32)
    (v16 : Vec Ideal S128x128 .f32) (v19 : Vec Ideal S1x128 .f32) (p : Fin 2000) (q : Fin 128) :
    k3_pay1 (F := Ideal) v0 v2 v6 v9 v16 v19 (ix2 p q)
      = max ((∑ j : Fin 128,
              max ((∑ k : Fin 128, (v0 (ix2 p k) + v2 (ix2 p k)) * v6 (ix2 k j)) + v9 (ix2 0 j)) 0 * v16 (ix2 j q))
            + v19 (ix2 0 q)) 0 := by
  rw [pay_eq, shapeCast_self]
  show max (matmul dot_S2000x128_S128x128_S2000x128_1_0_0_1_n_n none (truncf .bf16 (hidden v0 v2 v6 v9) bitsLt_bf16_f32)
      (truncf .bf16 v16 bitsLt_bf16_f32) (constant (F := Ideal) S2000x128 .f32 0x00000000#32) (ix2 p q)
      + broadcastTo S2000x128 v19 broadcasts_S1x128_S2000x128 (ix2 p q)) (Ideal.ofBits .f32 0x00000000#32) = _
  rw [mm_apply, bias_apply, Ideal.ofBits_zero_f32]
  refine congrArg (fun s => max (s + v19 (ix2 0 q)) 0) (Finset.sum_congr rfl fun j _ => ?_)
  show hidden v0 v2 v6 v9 (ix2 p j) * v16 (ix2 j q) = _
  rw [hidden_apply]

/-! ## From blocks to the array -/

theorem zero_off : (![0, 0] : Fin 2 → Nat) = fun _ => 0 := funext fun a => by fin_cases a <;> rfl

/-- The index maps over the 50 grid points: the two feature windows and the output window sit at row block `t`,
    column block 0; the weight and bias windows are whole. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- The payload on blocks that read the arrays `X A W1 B1 W2 B2` — the feature blocks at array row `P` for block
    row `p`, the weights and biases entry for entry — is the node update of those arrays at `(P, q)`. -/
theorem upd_of_blocks (X A : Cert.Spec.Mat 100000 128) (W1 : Cert.Spec.Mat 128 128) (B1 : Cert.Spec.Mat 1 128)
    (W2 : Cert.Spec.Mat 128 128) (B2 : Cert.Spec.Mat 1 128)
    (x0 x1 : Vec Ideal S2000x128 .f32) (x2 : Vec Ideal S128x128 .f32) (x3 : Vec Ideal S1x128 .f32)
    (x4 : Vec Ideal S128x128 .f32) (x5 : Vec Ideal S1x128 .f32) (p : Fin 2000) (q : Fin 128) (P : Fin 100000)
    (h0 : ∀ k : Fin 128, x0 (ix2 p k) = X (ix2 P k)) (h1 : ∀ k : Fin 128, x1 (ix2 p k) = A (ix2 P k))
    (h2 : ∀ (k : Fin 128) (j : Fin 128), x2 (ix2 k j) = W1 (ix2 k j)) (h3 : ∀ j : Fin 128, x3 (ix2 0 j) = B1 (ix2 0 j))
    (h4 : ∀ (j : Fin 128) (q : Fin 128), x4 (ix2 j q) = W2 (ix2 j q)) (h5 : ∀ q : Fin 128, x5 (ix2 0 q) = B2 (ix2 0 q)) :
    k3_pay1 (F := Ideal) x0 x1 x2 x3 x4 x5 (ix2 p q) = Cert.Spec.nodeUpd X A W1 B1 W2 B2 (ix2 P q) := by
  rw [pay_apply]
  show _ = max ((∑ j : Fin 128,
      max ((∑ k : Fin 128, (X (ix2 P k) + A (ix2 P k)) * W1 (ix2 k j)) + B1 (ix2 0 j)) 0 * W2 (ix2 j q))
    + B2 (ix2 0 q)) 0
  simp only [h0, h1, h2, h3, h4, h5]

/-- What point `t` writes back is block `t` of the node update of the arrays the region finds. -/
theorem flushed_eq (c : Dev nD) (t : Fin cfg3.N) :
    (dat3 (F := Ideal) V c).flushed 6 t = ((cfg3.win 6).blk t).view.read (Elt Ideal)
      (Cert.Spec.nodeUpd (V c main_v18) (V c main_v30) (V c main_arg11) (V c main_v31) (V c main_arg13) (V c main_v32)) := by
  show (cfg3.win 6).cut (grid3.coords t) ((dat3 V c).after 6 t) = _
  rw [after3_6]
  unfold out3_6
  rw [View.canon_unit_zero zero_off]
  simp only [View.ld_unit_zero (S := S2000x128) zero_off, View.ld_unit_zero (S := S128x128) zero_off,
    View.ld_unit_zero (S := S1x128) zero_off]
  obtain ⟨e00, e01, e10, e11, e20, e21, e30, e31, e40, e41, e50, e51, e60, e61⟩ := idx_facts t
  have ht : t.val < 50 := t.isLt
  funext j
  obtain ⟨p, q, rfl⟩ : ∃ (p : Fin 2000) (q : Fin 128), j = ix2 p q := ⟨j 0, j 1, eq_ix2 j⟩
  have hp : p.val < 2000 := p.isLt
  refine (upd_of_blocks (V c main_v18) (V c main_v30) (V c main_arg11) (V c main_v31) (V c main_arg13) (V c main_v32)
    (iblk3 V c 0 t) (iblk3 V c 1 t) (iblk3 V c 2 t) (iblk3 V c 3 t) (iblk3 V c 4 t) (iblk3 V c 5 t)
    p q ⟨t.val * 2000 + p.val, by omega⟩ ?_ ?_ ?_ ?_ ?_ ?_).trans ?_
  · intro k
    show V c main_v18 (((cfg3.win 0).blk t).view.emb (ix2 p k)) = V c main_v18 _
    refine congrArg _ (funext fun a => Fin.ext ?_)
    match a with
    | ⟨0, _⟩ => show win3_0.index t (0 : Fin 2) * 2000 + 1 * p.val = t.val * 2000 + p.val; omega
    | ⟨1, _⟩ => show win3_0.index t (1 : Fin 2) * 128 + 1 * k.val = k.val; omega
  · intro k
    show V c main_v30 (((cfg3.win 1).blk t).view.emb (ix2 p k)) = V c main_v30 _
    refine congrArg _ (funext fun a => Fin.ext ?_)
    match a with
    | ⟨0, _⟩ => show win3_1.index t (0 : Fin 2) * 2000 + 1 * p.val = t.val * 2000 + p.val; omega
    | ⟨1, _⟩ => show win3_1.index t (1 : Fin 2) * 128 + 1 * k.val = k.val; omega
  · intro k j
    show V c main_arg11 (((cfg3.win 2).blk t).view.emb (ix2 k j)) = V c main_arg11 _
    refine congrArg _ (funext fun a => Fin.ext ?_)
    match a with
    | ⟨0, _⟩ => show win3_2.index t (0 : Fin 2) * 128 + 1 * k.val = k.val; omega
    | ⟨1, _⟩ => show win3_2.index t (1 : Fin 2) * 128 + 1 * j.val = j.val; omega
  · intro j
    show V c main_v31 (((cfg3.win 3).blk t).view.emb (ix2 0 j)) = V c main_v31 _
    refine congrArg _ (funext fun a => Fin.ext ?_)
    match a with
    | ⟨0, _⟩ => show win3_3.index t (0 : Fin 2) * 1 + 1 * 0 = 0; omega
    | ⟨1, _⟩ => show win3_3.index t (1 : Fin 2) * 128 + 1 * j.val = j.val; omega
  · intro j q'
    show V c main_arg13 (((cfg3.win 4).blk t).view.emb (ix2 j q')) = V c main_arg13 _
    refine congrArg _ (funext fun a => Fin.ext ?_)
    match a with
    | ⟨0, _⟩ => show win3_4.index t (0 : Fin 2) * 128 + 1 * j.val = j.val; omega
    | ⟨1, _⟩ => show win3_4.index t (1 : Fin 2) * 128 + 1 * q'.val = q'.val; omega
  · intro q'
    show V c main_v32 (((cfg3.win 5).blk t).view.emb (ix2 0 q')) = V c main_v32 _
    refine congrArg _ (funext fun a => Fin.ext ?_)
    match a with
    | ⟨0, _⟩ => show win3_5.index t (0 : Fin 2) * 1 + 1 * 0 = 0; omega
    | ⟨1, _⟩ => show win3_5.index t (1 : Fin 2) * 128 + 1 * q'.val = q'.val; omega
  · show Cert.Spec.nodeUpd (V c main_v18) (V c main_v30) (V c main_arg11) (V c main_v31) (V c main_arg13) (V c main_v32) _
      = Cert.Spec.nodeUpd (V c main_v18) (V c main_v30) (V c main_arg11) (V c main_v31) (V c main_arg13) (V c main_v32)
          (((cfg3.win 6).blk t).view.emb (ix2 p q))
    refine congrArg _ (funext fun a => Fin.ext ?_)
    match a with
    | ⟨0, _⟩ => show t.val * 2000 + p.val = win3_6.index t (0 : Fin 2) * 2000 + 1 * p.val; omega
    | ⟨1, _⟩ => show q.val = win3_6.index t (1 : Fin 2) * 128 + 1 * q.val; omega

/-- An index of the output array is in point `t`'s block iff each coordinate is in the block's range on its axis. -/
theorem mem_blk (t : Fin cfg3.N) (i : S100000x128.Idx) :
    i ∈ ((cfg3.win 6).blk t).view.set ↔ ∀ a : Fin 2, win3_6.index t a * S2000x128.size a ≤ (i a).val
      ∧ (i a).val < win3_6.index t a * S2000x128.size a + S2000x128.size a := by
  show i ∈ ((View.whole main_v33).slice (win3_6.rect t)).set ↔ _
  rw [View.set_slice_whole, Rect.mem_set_unit]
  exact Iff.rfl

/-- Every entry of the output array is written back by some point: row `r` by point `r / 2000`. -/
theorem cover (i : S100000x128.Idx) :
    ∃ t : Fin cfg3.N, (cfg3.win 6).flush t = true ∧ i ∈ ((cfg3.win 6).blk t).view.set := by
  have hi0 : (i 0).val < 100000 := (i 0).isLt
  have hi1 : (i 1).val < 128 := (i 1).isLt
  refine ⟨⟨(i 0).val / 2000, by show (i 0).val / 2000 < 50; omega⟩, flush3_6 _, ?_⟩
  rw [mem_blk]
  obtain ⟨-, -, -, -, -, -, -, -, -, -, -, -, e60, e61⟩ := idx_facts ⟨(i 0).val / 2000, by show (i 0).val / 2000 < 50; omega⟩
  intro a
  match a with
  | ⟨0, _⟩ =>
    show win3_6.index _ (0 : Fin 2) * 2000 ≤ (i 0).val ∧ (i 0).val < win3_6.index _ (0 : Fin 2) * 2000 + 2000
    rw [e60]; show (i 0).val / 2000 * 2000 ≤ (i 0).val ∧ (i 0).val < (i 0).val / 2000 * 2000 + 2000; omega
  | ⟨1, _⟩ =>
    show win3_6.index _ (1 : Fin 2) * 128 ≤ (i 1).val ∧ (i 1).val < win3_6.index _ (1 : Fin 2) * 128 + 128
    rw [e61]; omega

/-- Region 3 (the second node update): the array its write-backs leave is the node update of the arrays it finds. -/
theorem final (c : Dev nD) :
    (dat3 (F := Ideal) V c).arrAt 6 cfg3.N
      = Cert.Spec.nodeUpd (V c main_v18) (V c main_v30) (V c main_arg11) (V c main_v31) (V c main_arg13) (V c main_v32) :=
  (dat3 (F := Ideal) V c).arrAt_eq_of_cover 6 _ (fun t _ => flushed_eq V c t) cover

end Cert.KernelIdeal.Region3

end
-- ==== Proof.Region4.lean ====
/- Region 4 (the edge classifier, 250 row tiles of 2400 edges): the array its write-backs leave is the classifier of the arrays it finds. -/
import proofs.«132114_j23519240913054_1_alg».proof.Proof.FrameKernelIdeal
import proofs.«132114_j23519240913054_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region4

open Cert.KernelIdeal Cert.KernelIdeal.Gen Cert.KernelIdeal.GenP
open Idealize.ShloMosaic Idealize.ShloMosaic.TcCoe Idealize.SL.Sem
open Idealize.ShloMosaic.Pipeline (Dat)

open Idealize.ShloMosaic.ValueIdx

variable (V : (c : Dev nD) → (b : Ref sig .tc) → Buf (Elt Ideal) ((c : Thread nD τ).loc b))

/-! The two hidden products (source and destination rows): rows of a [2400, 128] block against a [128, 128] matrix. The operand indices at output (p, q) and
    contraction coordinate k are (p, k) and (k, q). -/
theorem lhs_hidden_0 (i : S2400x128.Idx) (q : dot_S2400x128_S128x128_S2400x128_1_0_0_1_n_n.contr.Idx) :
    (dot_S2400x128_S128x128_S2400x128_1_0_0_1_n_n.lhsIdx i q 0).val = (i 0).val := by
  unfold DotDims.lhsIdx
  rw [dif_neg (show ¬(0 : Fin S2400x128.rank) ∈ dot_S2400x128_S128x128_S2400x128_1_0_0_1_n_n.lhsBatch by decide), dif_pos (show (0 : Fin S2400x128.rank) ∈ dot_S2400x128_S128x128_S2400x128_1_0_0_1_n_n.lhsNonContracting by decide)]
  rfl
theorem lhs_hidden_1 (i : S2400x128.Idx) (q : dot_S2400x128_S128x128_S2400x128_1_0_0_1_n_n.contr.Idx) :
    (dot_S2400x128_S128x128_S2400x128_1_0_0_1_n_n.lhsIdx i q 1).val = (q ⟨0, by decide⟩).val :=
  dot_S2400x128_S128x128_S2400x128_1_0_0_1_n_n.lhsIdx_val_of_single rfl i q
theorem rhs_hidden_0 (i : S2400x128.Idx) (q : dot_S2400x128_S128x128_S2400x128_1_0_0_1_n_n.contr.Idx) :
    (dot_S2400x128_S128x128_S2400x128_1_0_0_1_n_n.rhsIdx i q 0).val = (q ⟨0, by decide⟩).val :=
  dot_S2400x128_S128x128_S2400x128_1_0_0_1_n_n.rhsIdx_val_of_single rfl i q
theorem rhs_hidden_1 (i : S2400x128.Idx) (q : dot_S2400x128_S128x128_S2400x128_1_0_0_1_n_n.contr.Idx) :
    (dot_S2400x128_S128x128_S2400x128_1_0_0_1_n_n.rhsIdx i q 1).val = (i 1).val := by
  unfold DotDims.rhsIdx
  rw [dif_neg (show ¬(1 : Fin S128x128.rank) ∈ dot_S2400x128_S128x128_S2400x128_1_0_0_1_n_n.rhsBatch by decide), dif_pos (show (1 : Fin S128x128.rank) ∈ dot_S2400x128_S128x128_S2400x128_1_0_0_1_n_n.rhsNonContracting by decide)]
  rfl
/-- The product into a zero accumulator, read at (p, q), is the exact sum over the contracted axis. -/
theorem prod_hidden {φ₁ φ₂ : FTy} (l : FVec Ideal S2400x128 φ₁) (r : FVec Ideal S128x128 φ₂) (p : Fin 2400) (q : Fin 128) :
    matmul dot_S2400x128_S128x128_S2400x128_1_0_0_1_n_n none l r (constant (F := Ideal) S2400x128 .f32 0x00000000#32) (ix2 p q)
      = ∑ k : Fin 128, l (ix2 p k) * r (ix2 k q) := by
  show FloatOps.matmul dot_S2400x128_S128x128_S2400x128_1_0_0_1_n_n none l r (constant (F := Ideal) S2400x128 .f32 0x00000000#32) (ix2 p q) = _
  rw [Ideal.matmul_constant_zero_apply, ← Equiv.sum_comp (ValueIdx.contrEquiv1 dot_S2400x128_S128x128_S2400x128_1_0_0_1_n_n 128 rfl rfl).symm]
  refine Finset.sum_congr rfl fun k _ => ?_
  have hk := ValueIdx.contrEquiv1_symm_val dot_S2400x128_S128x128_S2400x128_1_0_0_1_n_n 128 rfl rfl k
  have el : dot_S2400x128_S128x128_S2400x128_1_0_0_1_n_n.lhsIdx (ix2 p q) ((ValueIdx.contrEquiv1 dot_S2400x128_S128x128_S2400x128_1_0_0_1_n_n 128 rfl rfl).symm k) = ix2 p k := funext fun a => Fin.ext (by
    match a with
    | ⟨0, _⟩ => exact lhs_hidden_0 _ _
    | ⟨1, _⟩ => exact (lhs_hidden_1 _ _).trans hk)
  have er : dot_S2400x128_S128x128_S2400x128_1_0_0_1_n_n.rhsIdx (ix2 p q) ((ValueIdx.contrEquiv1 dot_S2400x128_S128x128_S2400x128_1_0_0_1_n_n 128 rfl rfl).symm k) = ix2 k q := funext fun a => Fin.ext (by
    match a with
    | ⟨0, _⟩ => exact (rhs_hidden_0 _ _).trans hk
    | ⟨1, _⟩ => exact rhs_hidden_1 _ _)
  rw [el, er]

/-! The edge-feature product: rows of a [2400, 7] block against a [7, 128] matrix. The operand indices at output (p, q) and
    contraction coordinate k are (p, k) and (k, q). -/
theorem lhs_feat_0 (i : S2400x128.Idx) (q : dot_S2400x7_S7x128_S2400x128_1_0_0_1_n_n.contr.Idx) :
    (dot_S2400x7_S7x128_S2400x128_1_0_0_1_n_n.lhsIdx i q 0).val = (i 0).val := by
  unfold DotDims.lhsIdx
  rw [dif_neg (show ¬(0 : Fin S2400x7.rank) ∈ dot_S2400x7_S7x128_S2400x128_1_0_0_1_n_n.lhsBatch by decide), dif_pos (show (0 : Fin S2400x7.rank) ∈ dot_S2400x7_S7x128_S2400x128_1_0_0_1_n_n.lhsNonContracting by decide)]
  rfl
theorem lhs_feat_1 (i : S2400x128.Idx) (q : dot_S2400x7_S7x128_S2400x128_1_0_0_1_n_n.contr.Idx) :
    (dot_S2400x7_S7x128_S2400x128_1_0_0_1_n_n.lhsIdx i q 1).val = (q ⟨0, by decide⟩).val :=
  dot_S2400x7_S7x128_S2400x128_1_0_0_1_n_n.lhsIdx_val_of_single rfl i q
theorem rhs_feat_0 (i : S2400x128.Idx) (q : dot_S2400x7_S7x128_S2400x128_1_0_0_1_n_n.contr.Idx) :
    (dot_S2400x7_S7x128_S2400x128_1_0_0_1_n_n.rhsIdx i q 0).val = (q ⟨0, by decide⟩).val :=
  dot_S2400x7_S7x128_S2400x128_1_0_0_1_n_n.rhsIdx_val_of_single rfl i q
theorem rhs_feat_1 (i : S2400x128.Idx) (q : dot_S2400x7_S7x128_S2400x128_1_0_0_1_n_n.contr.Idx) :
    (dot_S2400x7_S7x128_S2400x128_1_0_0_1_n_n.rhsIdx i q 1).val = (i 1).val := by
  unfold DotDims.rhsIdx
  rw [dif_neg (show ¬(1 : Fin S7x128.rank) ∈ dot_S2400x7_S7x128_S2400x128_1_0_0_1_n_n.rhsBatch by decide), dif_pos (show (1 : Fin S7x128.rank) ∈ dot_S2400x7_S7x128_S2400x128_1_0_0_1_n_n.rhsNonContracting by decide)]
  rfl
/-- The product into a zero accumulator, read at (p, q), is the exact sum over the contracted axis. -/
theorem prod_feat {φ₁ φ₂ : FTy} (l : FVec Ideal S2400x7 φ₁) (r : FVec Ideal S7x128 φ₂) (p : Fin 2400) (q : Fin 128) :
    matmul dot_S2400x7_S7x128_S2400x128_1_0_0_1_n_n none l r (constant (F := Ideal) S2400x128 .f32 0x00000000#32) (ix2 p q)
      = ∑ k : Fin 7, l (ix2 p k) * r (ix2 k q) := by
  show FloatOps.matmul dot_S2400x7_S7x128_S2400x128_1_0_0_1_n_n none l r (constant (F := Ideal) S2400x128 .f32 0x00000000#32) (ix2 p q) = _
  rw [Ideal.matmul_constant_zero_apply, ← Equiv.sum_comp (ValueIdx.contrEquiv1 dot_S2400x7_S7x128_S2400x128_1_0_0_1_n_n 7 rfl rfl).symm]
  refine Finset.sum_congr rfl fun k _ => ?_
  have hk := ValueIdx.contrEquiv1_symm_val dot_S2400x7_S7x128_S2400x128_1_0_0_1_n_n 7 rfl rfl k
  have el : dot_S2400x7_S7x128_S2400x128_1_0_0_1_n_n.lhsIdx (ix2 p q) ((ValueIdx.contrEquiv1 dot_S2400x7_S7x128_S2400x128_1_0_0_1_n_n 7 rfl rfl).symm k) = ix2 p k := funext fun a => Fin.ext (by
    match a with
    | ⟨0, _⟩ => exact lhs_feat_0 _ _
    | ⟨1, _⟩ => exact (lhs_feat_1 _ _).trans hk)
  have er : dot_S2400x7_S7x128_S2400x128_1_0_0_1_n_n.rhsIdx (ix2 p q) ((ValueIdx.contrEquiv1 dot_S2400x7_S7x128_S2400x128_1_0_0_1_n_n 7 rfl rfl).symm k) = ix2 k q := funext fun a => Fin.ext (by
    match a with
    | ⟨0, _⟩ => exact (rhs_feat_0 _ _).trans hk
    | ⟨1, _⟩ => exact rhs_feat_1 _ _)
  rw [el, er]

/-! The output product: rows of a [2400, 128] block against a [128, 2] matrix. The operand indices at output (p, q) and
    contraction coordinate k are (p, k) and (k, q). -/
theorem lhs_out_0 (i : S2400x2.Idx) (q : dot_S2400x128_S128x2_S2400x2_1_0_0_1_n_n.contr.Idx) :
    (dot_S2400x128_S128x2_S2400x2_1_0_0_1_n_n.lhsIdx i q 0).val = (i 0).val := by
  unfold DotDims.lhsIdx
  rw [dif_neg (show ¬(0 : Fin S2400x128.rank) ∈ dot_S2400x128_S128x2_S2400x2_1_0_0_1_n_n.lhsBatch by decide), dif_pos (show (0 : Fin S2400x128.rank) ∈ dot_S2400x128_S128x2_S2400x2_1_0_0_1_n_n.lhsNonContracting by decide)]
  rfl
theorem lhs_out_1 (i : S2400x2.Idx) (q : dot_S2400x128_S128x2_S2400x2_1_0_0_1_n_n.contr.Idx) :
    (dot_S2400x128_S128x2_S2400x2_1_0_0_1_n_n.lhsIdx i q 1).val = (q ⟨0, by decide⟩).val :=
  dot_S2400x128_S128x2_S2400x2_1_0_0_1_n_n.lhsIdx_val_of_single rfl i q
theorem rhs_out_0 (i : S2400x2.Idx) (q : dot_S2400x128_S128x2_S2400x2_1_0_0_1_n_n.contr.Idx) :
    (dot_S2400x128_S128x2_S2400x2_1_0_0_1_n_n.rhsIdx i q 0).val = (q ⟨0, by decide⟩).val :=
  dot_S2400x128_S128x2_S2400x2_1_0_0_1_n_n.rhsIdx_val_of_single rfl i q
theorem rhs_out_1 (i : S2400x2.Idx) (q : dot_S2400x128_S128x2_S2400x2_1_0_0_1_n_n.contr.Idx) :
    (dot_S2400x128_S128x2_S2400x2_1_0_0_1_n_n.rhsIdx i q 1).val = (i 1).val := by
  unfold DotDims.rhsIdx
  rw [dif_neg (show ¬(1 : Fin S128x2.rank) ∈ dot_S2400x128_S128x2_S2400x2_1_0_0_1_n_n.rhsBatch by decide), dif_pos (show (1 : Fin S128x2.rank) ∈ dot_S2400x128_S128x2_S2400x2_1_0_0_1_n_n.rhsNonContracting by decide)]
  rfl
/-- The product into a zero accumulator, read at (p, q), is the exact sum over the contracted axis. -/
theorem prod_out {φ₁ φ₂ : FTy} (l : FVec Ideal S2400x128 φ₁) (r : FVec Ideal S128x2 φ₂) (p : Fin 2400) (q : Fin 2) :
    matmul dot_S2400x128_S128x2_S2400x2_1_0_0_1_n_n none l r (constant (F := Ideal) S2400x2 .f32 0x00000000#32) (ix2 p q)
      = ∑ k : Fin 128, l (ix2 p k) * r (ix2 k q) := by
  show FloatOps.matmul dot_S2400x128_S128x2_S2400x2_1_0_0_1_n_n none l r (constant (F := Ideal) S2400x2 .f32 0x00000000#32) (ix2 p q) = _
  rw [Ideal.matmul_constant_zero_apply, ← Equiv.sum_comp (ValueIdx.contrEquiv1 dot_S2400x128_S128x2_S2400x2_1_0_0_1_n_n 128 rfl rfl).symm]
  refine Finset.sum_congr rfl fun k _ => ?_
  have hk := ValueIdx.contrEquiv1_symm_val dot_S2400x128_S128x2_S2400x2_1_0_0_1_n_n 128 rfl rfl k
  have el : dot_S2400x128_S128x2_S2400x2_1_0_0_1_n_n.lhsIdx (ix2 p q) ((ValueIdx.contrEquiv1 dot_S2400x128_S128x2_S2400x2_1_0_0_1_n_n 128 rfl rfl).symm k) = ix2 p k := funext fun a => Fin.ext (by
    match a with
    | ⟨0, _⟩ => exact lhs_out_0 _ _
    | ⟨1, _⟩ => exact (lhs_out_1 _ _).trans hk)
  have er : dot_S2400x128_S128x2_S2400x2_1_0_0_1_n_n.rhsIdx (ix2 p q) ((ValueIdx.contrEquiv1 dot_S2400x128_S128x2_S2400x2_1_0_0_1_n_n 128 rfl rfl).symm k) = ix2 k q := funext fun a => Fin.ext (by
    match a with
    | ⟨0, _⟩ => exact (rhs_out_0 _ _).trans hk
    | ⟨1, _⟩ => exact rhs_out_1 _ _)
  rw [el, er]

/-! The body's arithmetic at one entry: the three partial products summed left to right, the bias row, the
    maximum with zero, then the second product and its bias row. A change of float format is the identity on
    extended reals, and a cast to the same shape moves nothing. -/

/-- The hidden unit (p, j) of the block: what the second product contracts. -/
def hidBlk (v0 v3 : FVec Ideal S2400x128 .f32) (v6 : FVec Ideal S2400x7 .f32) (v8 v11 : FVec Ideal S128x128 .f32)
    (v14 : FVec Ideal S7x128 .f32) (v22 : FVec Ideal S1x128 .f32) (p : Fin 2400) (j : Fin 128) : EReal :=
  max ((((∑ k : Fin 128, v0 (ix2 p k) * v8 (ix2 k j)) + ∑ k : Fin 128, v3 (ix2 p k) * v11 (ix2 k j))
    + ∑ k : Fin 7, v6 (ix2 p k) * v14 (ix2 k j)) + v22 (ix2 (0 : Fin 1) j)) 0

/-- The payload at entry (p, o). -/
theorem body_entry (v0 v3 : FVec Ideal S2400x128 .f32) (v6 : FVec Ideal S2400x7 .f32) (v8 v11 : FVec Ideal S128x128 .f32)
    (v14 : FVec Ideal S7x128 .f32) (v22 : FVec Ideal S1x128 .f32) (v29 : FVec Ideal S128x2 .f32) (v32 : FVec Ideal S1x2 .f32)
    (p : Fin 2400) (o : Fin 2) :
    k4_pay1 (F := Ideal) v0 v3 v6 v8 v11 v14 v22 v29 v32 (ix2 p o)
      = (∑ j : Fin 128, hidBlk v0 v3 v6 v8 v11 v14 v22 p j * v29 (ix2 j o)) + v32 (ix2 (0 : Fin 1) o) := by
  unfold k4_pay1
  simp only [shapeCast_self]
  refine (addf_apply _ _ _).trans ?_
  rw [prod_out, broadcastTo_1b_ab_apply]
  refine congrArg (· + v32 (ix2 (0 : Fin 1) o)) (Finset.sum_congr rfl fun j _ => ?_)
  refine congrArg (· * v29 (ix2 j o)) ?_
  unfold hidBlk
  simp only [truncf_apply, maximumf_apply, addf_apply, broadcast_apply, prod_hidden, prod_feat, broadcastTo_1b_ab_apply,
    Ideal.ofBits_def, Ideal.ofBits_zero_f32]

/-! From blocks to the array. Point t of the grid reads rows t·2400 … t·2400 + 2399 of the three edge arrays and
    the six weight arrays whole, and writes the same rows of the output. -/

theorem origin_zero : (![0, 0] : Fin 2 → Nat) = fun _ => 0 := funext fun a => by fin_cases a <;> rfl

/-- The index maps over the grid: the row-tiled windows sit at block row t, column block 0; the weight windows at
    block (0, 0). -/
theorem tile_index : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0
    ∧ win4_9.index t (0 : Fin 2) = t.val ∧ win4_9.index t (1 : Fin 2) = 0 :=
  (by decide +kernel : ∀ t : Fin grid4.N, _)

/-- The source rows' block, read at (p, k), is its array at row t·2400 + p. -/
theorem read_src (c : Dev nD) (t : Fin cfg4.N) (p : Fin 2400) (k : Fin 128) (e : Fin 600000) (he : e.val = t.val * 2400 + p.val) :
    (iblk4 (F := Ideal) V c 0 t : FVec Ideal S2400x128 .f32) (ix2 p k) = (V c main_v40 : Cert.Spec.Mat 600000 128) (ix2 e k) := by
  obtain ⟨h00, h01, h10, h11, h20, h21, -⟩ := tile_index t
  show V c main_v40 (((cfg4.win 0).blk t).view.emb (ix2 p k)) = V c main_v40 (ix2 e k)
  refine congrArg _ (funext fun a => Fin.ext ?_)
  match a with
  | ⟨0, _⟩ => show win4_0.index t (0 : Fin 2) * 2400 + 1 * p.val = e.val; omega
  | ⟨1, _⟩ => show win4_0.index t (1 : Fin 2) * 128 + 1 * k.val = k.val; omega

/-- The destination rows' block likewise. -/
theorem read_dst (c : Dev nD) (t : Fin cfg4.N) (p : Fin 2400) (k : Fin 128) (e : Fin 600000) (he : e.val = t.val * 2400 + p.val) :
    (iblk4 (F := Ideal) V c 1 t : FVec Ideal S2400x128 .f32) (ix2 p k) = (V c main_v47 : Cert.Spec.Mat 600000 128) (ix2 e k) := by
  obtain ⟨h00, h01, h10, h11, h20, h21, -⟩ := tile_index t
  show V c main_v47 (((cfg4.win 1).blk t).view.emb (ix2 p k)) = V c main_v47 (ix2 e k)
  refine congrArg _ (funext fun a => Fin.ext ?_)
  match a with
  | ⟨0, _⟩ => show win4_1.index t (0 : Fin 2) * 2400 + 1 * p.val = e.val; omega
  | ⟨1, _⟩ => show win4_1.index t (1 : Fin 2) * 128 + 1 * k.val = k.val; omega

/-- The edge features' block likewise. -/
theorem read_feat (c : Dev nD) (t : Fin cfg4.N) (p : Fin 2400) (k : Fin 7) (e : Fin 600000) (he : e.val = t.val * 2400 + p.val) :
    (iblk4 (F := Ideal) V c 2 t : FVec Ideal S2400x7 .f32) (ix2 p k) = (V c main_arg2 : Cert.Spec.Mat 600000 7) (ix2 e k) := by
  obtain ⟨h00, h01, h10, h11, h20, h21, -⟩ := tile_index t
  show V c main_arg2 (((cfg4.win 2).blk t).view.emb (ix2 p k)) = V c main_arg2 (ix2 e k)
  refine congrArg _ (funext fun a => Fin.ext ?_)
  match a with
  | ⟨0, _⟩ => show win4_2.index t (0 : Fin 2) * 2400 + 1 * p.val = e.val; omega
  | ⟨1, _⟩ => show win4_2.index t (1 : Fin 2) * 7 + 1 * k.val = k.val; omega

/-- A weight window's one block is its whole array: the source weights. -/
theorem read_ws (c : Dev nD) (t : Fin cfg4.N) (k : Fin 128) (j : Fin 128) :
    (iblk4 (F := Ideal) V c 3 t : FVec Ideal S128x128 .f32) (ix2 k j) = (V c main_v48 : Cert.Spec.Mat 128 128) (ix2 k j) := by
  obtain ⟨-, -, -, -, -, -, h30, h31, h40, h41, h50, h51, h60, h61, h70, h71, h80, h81, -⟩ := tile_index t
  show V c main_v48 (((cfg4.win 3).blk t).view.emb (ix2 k j)) = V c main_v48 (ix2 k j)
  refine congrArg _ (funext fun a => Fin.ext ?_)
  match a with
  | ⟨0, _⟩ => show win4_3.index t (0 : Fin 2) * 128 + 1 * k.val = k.val; omega
  | ⟨1, _⟩ => show win4_3.index t (1 : Fin 2) * 128 + 1 * j.val = j.val; omega

/-- The destination weights, whole. -/
theorem read_wd (c : Dev nD) (t : Fin cfg4.N) (k : Fin 128) (j : Fin 128) :
    (iblk4 (F := Ideal) V c 4 t : FVec Ideal S128x128 .f32) (ix2 k j) = (V c main_v49 : Cert.Spec.Mat 128 128) (ix2 k j) := by
  obtain ⟨-, -, -, -, -, -, h30, h31, h40, h41, h50, h51, h60, h61, h70, h71, h80, h81, -⟩ := tile_index t
  show V c main_v49 (((cfg4.win 4).blk t).view.emb (ix2 k j)) = V c main_v49 (ix2 k j)
  refine congrArg _ (funext fun a => Fin.ext ?_)
  match a with
  | ⟨0, _⟩ => show win4_4.index t (0 : Fin 2) * 128 + 1 * k.val = k.val; omega
  | ⟨1, _⟩ => show win4_4.index t (1 : Fin 2) * 128 + 1 * j.val = j.val; omega

/-- The edge-feature weights, whole. -/
theorem read_we (c : Dev nD) (t : Fin cfg4.N) (k : Fin 7) (j : Fin 128) :
    (iblk4 (F := Ideal) V c 5 t : FVec Ideal S7x128 .f32) (ix2 k j) = (V c main_v50 : Cert.Spec.Mat 7 128) (ix2 k j) := by
  obtain ⟨-, -, -, -, -, -, h30, h31, h40, h41, h50, h51, h60, h61, h70, h71, h80, h81, -⟩ := tile_index t
  show V c main_v50 (((cfg4.win 5).blk t).view.emb (ix2 k j)) = V c main_v50 (ix2 k j)
  refine congrArg _ (funext fun a => Fin.ext ?_)
  match a with
  | ⟨0, _⟩ => show win4_5.index t (0 : Fin 2) * 7 + 1 * k.val = k.val; omega
  | ⟨1, _⟩ => show win4_5.index t (1 : Fin 2) * 128 + 1 * j.val = j.val; omega

/-- The hidden bias row, whole. -/
theorem read_b1 (c : Dev nD) (t : Fin cfg4.N) (k : Fin 1) (j : Fin 128) :
    (iblk4 (F := Ideal) V c 6 t : FVec Ideal S1x128 .f32) (ix2 k j) = (V c main_v51 : Cert.Spec.Mat 1 128) (ix2 k j) := by
  obtain ⟨-, -, -, -, -, -, h30, h31, h40, h41, h50, h51, h60, h61, h70, h71, h80, h81, -⟩ := tile_index t
  show V c main_v51 (((cfg4.win 6).blk t).view.emb (ix2 k j)) = V c main_v51 (ix2 k j)
  refine congrArg _ (funext fun a => Fin.ext ?_)
  match a with
  | ⟨0, _⟩ => show win4_6.index t (0 : Fin 2) * 1 + 1 * k.val = k.val; omega
  | ⟨1, _⟩ => show win4_6.index t (1 : Fin 2) * 128 + 1 * j.val = j.val; omega

/-- The output weights, whole. -/
theorem read_w2 (c : Dev nD) (t : Fin cfg4.N) (k : Fin 128) (j : Fin 2) :
    (iblk4 (F := Ideal) V c 7 t : FVec Ideal S128x2 .f32) (ix2 k j) = (V c main_arg17 : Cert.Spec.Mat 128 2) (ix2 k j) := by
  obtain ⟨-, -, -, -, -, -, h30, h31, h40, h41, h50, h51, h60, h61, h70, h71, h80, h81, -⟩ := tile_index t
  show V c main_arg17 (((cfg4.win 7).blk t).view.emb (ix2 k j)) = V c main_arg17 (ix2 k j)
  refine congrArg _ (funext fun a => Fin.ext ?_)
  match a with
  | ⟨0, _⟩ => show win4_7.index t (0 : Fin 2) * 128 + 1 * k.val = k.val; omega
  | ⟨1, _⟩ => show win4_7.index t (1 : Fin 2) * 2 + 1 * j.val = j.val; omega

/-- The output bias row, whole. -/
theorem read_b2 (c : Dev nD) (t : Fin cfg4.N) (k : Fin 1) (j : Fin 2) :
    (iblk4 (F := Ideal) V c 8 t : FVec Ideal S1x2 .f32) (ix2 k j) = (V c main_v52 : Cert.Spec.Mat 1 2) (ix2 k j) := by
  obtain ⟨-, -, -, -, -, -, h30, h31, h40, h41, h50, h51, h60, h61, h70, h71, h80, h81, -⟩ := tile_index t
  show V c main_v52 (((cfg4.win 8).blk t).view.emb (ix2 k j)) = V c main_v52 (ix2 k j)
  refine congrArg _ (funext fun a => Fin.ext ?_)
  match a with
  | ⟨0, _⟩ => show win4_8.index t (0 : Fin 2) * 1 + 1 * k.val = k.val; omega
  | ⟨1, _⟩ => show win4_8.index t (1 : Fin 2) * 2 + 1 * j.val = j.val; omega

/-- The hidden unit of the block at (p, j) is the classifier's hidden unit at row t·2400 + p. -/
theorem hidBlk_eq (c : Dev nD) (t : Fin cfg4.N) (p : Fin 2400) (j : Fin 128) (e : Fin 600000) (he : e.val = t.val * 2400 + p.val) :
    hidBlk (iblk4 (F := Ideal) V c 0 t) (iblk4 (F := Ideal) V c 1 t) (iblk4 (F := Ideal) V c 2 t) (iblk4 (F := Ideal) V c 3 t)
      (iblk4 (F := Ideal) V c 4 t) (iblk4 (F := Ideal) V c 5 t) (iblk4 (F := Ideal) V c 6 t) p j
      = Cert.Spec.mlpHid (V c main_v40) (V c main_v47) (V c main_arg2) (V c main_v48) (V c main_v49) (V c main_v50) (V c main_v51) e j := by
  unfold hidBlk Cert.Spec.mlpHid
  simp only [read_src V c t p _ e he, read_dst V c t p _ e he, read_feat V c t p _ e he, read_ws V c t, read_wd V c t, read_we V c t, read_b1 V c t]

/-- What point t writes back is block t of the classifier of the arrays the region finds. -/
theorem tile_writes_classifier (c : Dev nD) (t : Fin cfg4.N) :
    (dat4 (F := Ideal) V c).flushed 9 t = ((cfg4.win 9).blk t).view.read (Elt Ideal)
      (Cert.Spec.edgeMlp (V c main_v40) (V c main_v47) (V c main_arg2) (V c main_v48) (V c main_v49) (V c main_v50) (V c main_v51) (V c main_arg17) (V c main_v52)) := by
  show (cfg4.win 9).cut (grid4.coords t) ((dat4 (F := Ideal) V c).after 9 t) = _
  rw [after4_9]
  unfold out4_9
  rw [View.canon_unit_zero origin_zero]
  simp only [View.ld_unit_zero (S := S2400x128) origin_zero, View.ld_unit_zero (S := S2400x7) origin_zero, View.ld_unit_zero (S := S128x128) origin_zero,
    View.ld_unit_zero (S := S7x128) origin_zero, View.ld_unit_zero (S := S1x128) origin_zero, View.ld_unit_zero (S := S128x2) origin_zero, View.ld_unit_zero (S := S1x2) origin_zero]
  funext j
  obtain ⟨p, o, rfl⟩ : ∃ (p : Fin 2400) (o : Fin 2), j = ix2 p o := ⟨j 0, j 1, eq_ix2 j⟩
  refine (body_entry (iblk4 (F := Ideal) V c 0 t) (iblk4 (F := Ideal) V c 1 t) (iblk4 (F := Ideal) V c 2 t) (iblk4 (F := Ideal) V c 3 t)
    (iblk4 (F := Ideal) V c 4 t) (iblk4 (F := Ideal) V c 5 t) (iblk4 (F := Ideal) V c 6 t) (iblk4 (F := Ideal) V c 7 t) (iblk4 (F := Ideal) V c 8 t) p o).trans ?_
  have ht : t.val < 250 := t.isLt
  obtain ⟨e, he⟩ : ∃ e : Fin 600000, e.val = t.val * 2400 + p.val := ⟨⟨t.val * 2400 + p.val, by have := p.isLt; omega⟩, rfl⟩
  obtain ⟨-, -, -, -, -, -, -, -, -, -, -, -, -, -, -, -, -, -, h90, h91⟩ := tile_index t
  have hemb : ((cfg4.win 9).blk t).view.emb (ix2 p o) = (ix2 e o : S600000x2.Idx) := funext fun a => Fin.ext (by
    match a with
    | ⟨0, _⟩ => show win4_9.index t (0 : Fin 2) * 2400 + 1 * p.val = e.val; omega
    | ⟨1, _⟩ => show win4_9.index t (1 : Fin 2) * 2 + 1 * o.val = o.val; omega)
  show _ = Cert.Spec.edgeMlp (V c main_v40) (V c main_v47) (V c main_arg2) (V c main_v48) (V c main_v49) (V c main_v50) (V c main_v51) (V c main_arg17) (V c main_v52) (((cfg4.win 9).blk t).view.emb (ix2 p o))
  rw [hemb]
  unfold Cert.Spec.edgeMlp
  simp only [hidBlk_eq V c t p _ e he, read_w2 V c t, read_b2 V c t]

/-- An index of the output array is in point t's block iff each coordinate is in the block's range on its axis. -/
theorem mem_tile (t : Fin cfg4.N) (i : S600000x2.Idx) :
    i ∈ ((cfg4.win 9).blk t).view.set ↔ ∀ a : Fin 2, win4_9.index t a * S2400x2.size a ≤ (i a).val ∧ (i a).val < win4_9.index t a * S2400x2.size a + S2400x2.size a := by
  show i ∈ ((View.whole main_v53).slice (win4_9.rect t)).set ↔ _
  rw [View.set_slice_whole, Rect.mem_set_unit]
  exact Iff.rfl

/-- Row r of the output lies in the block of point r / 2400: the 250 blocks tile the 600000 rows. -/
theorem tiles_cover (i : S600000x2.Idx) :
    ∃ t : Fin cfg4.N, (cfg4.win 9).flush t = true ∧ i ∈ ((cfg4.win 9).blk t).view.set := by
  have hi0 : (i 0).val < 600000 := (i 0).isLt
  have hi1 : (i 1).val < 2 := (i 1).isLt
  let t : Fin cfg4.N := ⟨(i 0).val / 2400, by show (i 0).val / 2400 < 250; omega⟩
  have htv : t.val = (i 0).val / 2400 := rfl
  obtain ⟨-, -, -, -, -, -, -, -, -, -, -, -, -, -, -, -, -, -, h90, h91⟩ := tile_index t
  refine ⟨t, flush4_9 t, ?_⟩
  rw [mem_tile]
  intro a
  match a with
  | ⟨0, _⟩ => show win4_9.index t (0 : Fin 2) * 2400 ≤ (i 0).val ∧ (i 0).val < win4_9.index t (0 : Fin 2) * 2400 + 2400; omega
  | ⟨1, _⟩ => show win4_9.index t (1 : Fin 2) * 2 ≤ (i 1).val ∧ (i 1).val < win4_9.index t (1 : Fin 2) * 2 + 2; omega

/-- Region 4 (the edge classifier, 250 row tiles of 2400 edges): the array its write-backs leave is the classifier of the arrays it finds. -/
theorem final (c : Dev nD) :
    (dat4 (F := Ideal) V c).arrAt 9 cfg4.N
      = Cert.Spec.edgeMlp (V c main_v40) (V c main_v47) (V c main_arg2) (V c main_v48) (V c main_v49) (V c main_v50) (V c main_v51) (V c main_arg17) (V c main_v52) :=
  (dat4 (F := Ideal) V c).arrAt_eq_of_cover 9 _ (fun t _ => tile_writes_classifier V c t) tiles_cover

end Cert.KernelIdeal.Region4

end
-- ==== Proof.RefStages.lean ====
/- The reference program's stages read as the layers of the specification: each dense stretch of the reference
   (a product with a weight matrix as the sum over the contracted axis, the bias, the rectifier) is one layer
   function of the stage before it; the gathers and scatter-adds between them stay as they are printed. -/
import proofs.«132114_j23519240913054_1_alg».proof.Proof.Gen.ReferenceIdeal.Read
import proofs.«132114_j23519240913054_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Stages

open Cert.ReferenceIdeal Cert.ReferenceIdeal.Gen Cert.ReferenceIdeal.Read
open Idealize.ShloMosaic Idealize.ShloMosaic.TcCoe Idealize.SL.Sem Idealize.ShloMosaic.StableHlo

variable (x0 : (⟨S100000x387, .f32⟩ : BufTy).Contents (Elt Ideal))
  (x1 : (⟨S2x600000, .i32⟩ : BufTy).Contents (Elt Ideal))
  (x2 : (⟨S600000x7, .f32⟩ : BufTy).Contents (Elt Ideal))
  (x3 : (⟨S7x387, .f32⟩ : BufTy).Contents (Elt Ideal))
  (x4 : (⟨S387, .f32⟩ : BufTy).Contents (Elt Ideal))
  (x5 : (⟨S387x128, .f32⟩ : BufTy).Contents (Elt Ideal))
  (x6 : (⟨S128, .f32⟩ : BufTy).Contents (Elt Ideal))
  (x7 : (⟨S128x128, .f32⟩ : BufTy).Contents (Elt Ideal))
  (x8 : (⟨S128, .f32⟩ : BufTy).Contents (Elt Ideal))
  (x9 : (⟨S7x128, .f32⟩ : BufTy).Contents (Elt Ideal))
  (x10 : (⟨S128, .f32⟩ : BufTy).Contents (Elt Ideal))
  (x11 : (⟨S128x128, .f32⟩ : BufTy).Contents (Elt Ideal))
  (x12 : (⟨S128, .f32⟩ : BufTy).Contents (Elt Ideal))
  (x13 : (⟨S128x128, .f32⟩ : BufTy).Contents (Elt Ideal))
  (x14 : (⟨S128, .f32⟩ : BufTy).Contents (Elt Ideal))
  (x15 : (⟨S263x128, .f32⟩ : BufTy).Contents (Elt Ideal))
  (x16 : (⟨S128, .f32⟩ : BufTy).Contents (Elt Ideal))
  (x17 : (⟨S128x2, .f32⟩ : BufTy).Contents (Elt Ideal))
  (x18 : (⟨S2, .f32⟩ : BufTy).Contents (Elt Ideal))

/-- The single-precision word `0x3F800000` is the real number one. -/
private theorem ofBits_one_f32 : Ideal.ofBits .f32 0x3F800000#32 = 1 := by
  -- sign 0, exponent 127, fraction 0: the value is 2 ^ 23 · 2 ^ (-23)
  simp [Ideal.ofBits, Ideal.ieee]
  rw [← EReal.coe_mul]
  norm_num

/-- The reference's one-row layout of a bias vector (a broadcast along a new leading axis) is the specification's row. -/
theorem row_v13 : val_main_v13 (F := Ideal) x4 = Cert.Spec.row x4 := by
  funext i
  rw [val_main_v13_apply]
  show x4 _ = x4 (ValueIdx.ix1 (i 1))
  exact congrArg x4 (funext fun a => Fin.ext (by match a with | ⟨0, _⟩ => rfl))
theorem row_v24 : val_main_v24 (F := Ideal) x6 = Cert.Spec.row x6 := by
  funext i
  rw [val_main_v24_apply]
  show x6 _ = x6 (ValueIdx.ix1 (i 1))
  exact congrArg x6 (funext fun a => Fin.ext (by match a with | ⟨0, _⟩ => rfl))
theorem row_v29 : val_main_v29 (F := Ideal) x8 = Cert.Spec.row x8 := by
  funext i
  rw [val_main_v29_apply]
  show x8 _ = x8 (ValueIdx.ix1 (i 1))
  exact congrArg x8 (funext fun a => Fin.ext (by match a with | ⟨0, _⟩ => rfl))
theorem row_v42 : val_main_v42 (F := Ideal) x10 = Cert.Spec.row x10 := by
  funext i
  rw [val_main_v42_apply]
  show x10 _ = x10 (ValueIdx.ix1 (i 1))
  exact congrArg x10 (funext fun a => Fin.ext (by match a with | ⟨0, _⟩ => rfl))
theorem row_v53 : val_main_v53 (F := Ideal) x12 = Cert.Spec.row x12 := by
  funext i
  rw [val_main_v53_apply]
  show x12 _ = x12 (ValueIdx.ix1 (i 1))
  exact congrArg x12 (funext fun a => Fin.ext (by match a with | ⟨0, _⟩ => rfl))
theorem row_v58 : val_main_v58 (F := Ideal) x14 = Cert.Spec.row x14 := by
  funext i
  rw [val_main_v58_apply]
  show x14 _ = x14 (ValueIdx.ix1 (i 1))
  exact congrArg x14 (funext fun a => Fin.ext (by match a with | ⟨0, _⟩ => rfl))
theorem row_v78 : val_main_v78 (F := Ideal) x16 = Cert.Spec.row x16 := by
  funext i
  rw [val_main_v78_apply]
  show x16 _ = x16 (ValueIdx.ix1 (i 1))
  exact congrArg x16 (funext fun a => Fin.ext (by match a with | ⟨0, _⟩ => rfl))
theorem row_v83 : val_main_v83 (F := Ideal) x18 = Cert.Spec.row x18 := by
  funext i
  rw [val_main_v83_apply]
  show x18 _ = x18 (ValueIdx.ix1 (i 1))
  exact congrArg x18 (funext fun a => Fin.ext (by match a with | ⟨0, _⟩ => rfl))

/-- The first layer's messages: the rectified sum of the gathered node rows, the edge features times the edge weight, and the bias. -/
theorem msg1 : val_main_v16 (F := Ideal) x0 x1 x2 x3 x4
    = Cert.Spec.edgeMsg (val_main_v10 (F := Ideal) x0 x1) x2 x3 (Cert.Spec.row x4) := by
  funext i
  obtain ⟨p, q, rfl⟩ : ∃ (p : Fin 600000) (q : Fin 387), i = ValueIdx.ix2 p q := ⟨i 0, i 1, ValueIdx.eq_ix2 i⟩
  -- entry (p, q): the rectifier over the two sums, the product as the sum over the seven edge features
  rw [val_main_v16_apply, val_main_v15_apply, val_main_v12_apply, val_main_v11_apply, val_main_v14_apply,
    val_main_v13_apply, val_main_call0_v0_apply, val_main_call0_cst_apply]
  -- the product reads row p of the edge features and column q of the weight; the bias is read at q
  have el : ∀ k : Fin 7, lidx_main_v11 (ValueIdx.ix2 p q) k = ValueIdx.ix2 p k := fun k =>
    funext fun a => Fin.ext (by match a with | ⟨0, _⟩ => rfl | ⟨1, _⟩ => rfl)
  have er : ∀ k : Fin 7, ridx_main_v11 (ValueIdx.ix2 p q) k = ValueIdx.ix2 k q := fun k =>
    funext fun a => Fin.ext (by match a with | ⟨0, _⟩ => rfl | ⟨1, _⟩ => rfl)
  have eb : idx_main_v13 (idx_main_v14 (ValueIdx.ix2 p q)) = ValueIdx.ix1 q :=
    funext fun a => Fin.ext (by match a with | ⟨0, _⟩ => rfl)
  simp only [el, er, eb, Ideal.maximumf_def, Ideal.addf_def, Ideal.ofBits_def, Ideal.ofBits_zero_f32]
  rfl

/-- The hidden layer of the first node update at node `p`, unit `j`: `1 · x` is `x`, the product with the first
    weight is the sum over the 387 input features, then the bias and the rectifier. -/
private theorem hid1 (p : Fin 100000) (j : Fin 128) :
    val_main_v27 (F := Ideal) x0 x1 x2 x3 x4 x5 x6 (ValueIdx.ix2 p j)
      = Cert.Spec.nodeHid x0 (val_main_v19 (F := Ideal) x0 x1 x2 x3 x4) x5 (Cert.Spec.row x6) p j := by
  rw [val_main_v27_apply, val_main_v26_apply, val_main_v23_apply, val_main_v25_apply, val_main_v24_apply,
    val_main_call1_v0_apply, val_main_call1_cst_apply]
  have el : ∀ k : Fin 387, lidx_main_v23 (ValueIdx.ix2 p j) k = ValueIdx.ix2 p k := fun k =>
    funext fun a => Fin.ext (by match a with | ⟨0, _⟩ => rfl | ⟨1, _⟩ => rfl)
  have er : ∀ k : Fin 387, ridx_main_v23 (ValueIdx.ix2 p j) k = ValueIdx.ix2 k j := fun k =>
    funext fun a => Fin.ext (by match a with | ⟨0, _⟩ => rfl | ⟨1, _⟩ => rfl)
  have eb : idx_main_v24 (idx_main_v25 (ValueIdx.ix2 p j)) = ValueIdx.ix1 j :=
    funext fun a => Fin.ext (by match a with | ⟨0, _⟩ => rfl)
  simp only [el, er, eb, val_main_v22_apply, val_main_v21_apply, val_main_v20_apply, val_main_cst_1_apply,
    Ideal.maximumf_def, Ideal.addf_def, Ideal.mulf_def, Ideal.ofBits_def, Ideal.ofBits_zero_f32, ofBits_one_f32, one_mul]
  rfl

/-- The first node update: `1 · x` is `x` on the extended reals, so the stage is the specification's node update of the
    node features and the aggregated messages. -/
theorem upd1 : val_main_v32 (F := Ideal) x0 x1 x2 x3 x4 x5 x6 x7 x8
    = Cert.Spec.nodeUpd x0 (val_main_v19 (F := Ideal) x0 x1 x2 x3 x4) x5 (Cert.Spec.row x6) x7 (Cert.Spec.row x8) := by
  funext i
  obtain ⟨p, q, rfl⟩ : ∃ (p : Fin 100000) (q : Fin 128), i = ValueIdx.ix2 p q := ⟨i 0, i 1, ValueIdx.eq_ix2 i⟩
  rw [val_main_v32_apply, val_main_v31_apply, val_main_v28_apply, val_main_v30_apply, val_main_v29_apply,
    val_main_call2_v0_apply, val_main_call2_cst_apply]
  -- the outer product reads row p of the hidden layer and column q of the second weight
  have el : ∀ k : Fin 128, lidx_main_v28 (ValueIdx.ix2 p q) k = ValueIdx.ix2 p k := fun k =>
    funext fun a => Fin.ext (by match a with | ⟨0, _⟩ => rfl | ⟨1, _⟩ => rfl)
  have er : ∀ k : Fin 128, ridx_main_v28 (ValueIdx.ix2 p q) k = ValueIdx.ix2 k q := fun k =>
    funext fun a => Fin.ext (by match a with | ⟨0, _⟩ => rfl | ⟨1, _⟩ => rfl)
  have eb : idx_main_v29 (idx_main_v30 (ValueIdx.ix2 p q)) = ValueIdx.ix1 q :=
    funext fun a => Fin.ext (by match a with | ⟨0, _⟩ => rfl)
  simp only [el, er, eb, hid1 x0 x1 x2 x3 x4 x5 x6, Ideal.maximumf_def, Ideal.addf_def, Ideal.ofBits_def,
    Ideal.ofBits_zero_f32]
  rfl

/-- The second layer's messages. -/
theorem msg2 : val_main_v45 (F := Ideal) x0 x1 x2 x3 x4 x5 x6 x7 x8 x9 x10
    = Cert.Spec.edgeMsg (val_main_v39 (F := Ideal) x0 x1 x2 x3 x4 x5 x6 x7 x8) x2 x9 (Cert.Spec.row x10) := by
  funext i
  obtain ⟨p, q, rfl⟩ : ∃ (p : Fin 600000) (q : Fin 128), i = ValueIdx.ix2 p q := ⟨i 0, i 1, ValueIdx.eq_ix2 i⟩
  rw [val_main_v45_apply, val_main_v44_apply, val_main_v41_apply, val_main_v40_apply, val_main_v43_apply,
    val_main_v42_apply, val_main_call3_v0_apply, val_main_call3_cst_apply]
  have el : ∀ k : Fin 7, lidx_main_v40 (ValueIdx.ix2 p q) k = ValueIdx.ix2 p k := fun k =>
    funext fun a => Fin.ext (by match a with | ⟨0, _⟩ => rfl | ⟨1, _⟩ => rfl)
  have er : ∀ k : Fin 7, ridx_main_v40 (ValueIdx.ix2 p q) k = ValueIdx.ix2 k q := fun k =>
    funext fun a => Fin.ext (by match a with | ⟨0, _⟩ => rfl | ⟨1, _⟩ => rfl)
  have eb : idx_main_v42 (idx_main_v43 (ValueIdx.ix2 p q)) = ValueIdx.ix1 q :=
    funext fun a => Fin.ext (by match a with | ⟨0, _⟩ => rfl)
  simp only [el, er, eb, Ideal.maximumf_def, Ideal.addf_def, Ideal.ofBits_def, Ideal.ofBits_zero_f32]
  rfl

/-- The hidden layer of the second node update at node `p`, unit `j`, over the first update's output. -/
private theorem hid2 (p : Fin 100000) (j : Fin 128) :
    val_main_v56 (F := Ideal) x0 x1 x2 x3 x4 x5 x6 x7 x8 x9 x10 x11 x12 (ValueIdx.ix2 p j)
      = Cert.Spec.nodeHid (val_main_v32 (F := Ideal) x0 x1 x2 x3 x4 x5 x6 x7 x8) (val_main_v48 (F := Ideal) x0 x1 x2 x3 x4 x5 x6 x7 x8 x9 x10) x11
          (Cert.Spec.row x12) p j := by
  rw [val_main_v56_apply, val_main_v55_apply, val_main_v52_apply, val_main_v54_apply, val_main_v53_apply,
    val_main_call4_v0_apply, val_main_call4_cst_apply]
  have el : ∀ k : Fin 128, lidx_main_v52 (ValueIdx.ix2 p j) k = ValueIdx.ix2 p k := fun k =>
    funext fun a => Fin.ext (by match a with | ⟨0, _⟩ => rfl | ⟨1, _⟩ => rfl)
  have er : ∀ k : Fin 128, ridx_main_v52 (ValueIdx.ix2 p j) k = ValueIdx.ix2 k j := fun k =>
    funext fun a => Fin.ext (by match a with | ⟨0, _⟩ => rfl | ⟨1, _⟩ => rfl)
  have eb : idx_main_v53 (idx_main_v54 (ValueIdx.ix2 p j)) = ValueIdx.ix1 j :=
    funext fun a => Fin.ext (by match a with | ⟨0, _⟩ => rfl)
  simp only [el, er, eb, val_main_v51_apply, val_main_v50_apply, val_main_v49_apply, val_main_cst_5_apply,
    Ideal.maximumf_def, Ideal.addf_def, Ideal.mulf_def, Ideal.ofBits_def, Ideal.ofBits_zero_f32, ofBits_one_f32, one_mul]
  rfl

/-- The second node update. -/
theorem upd2 : val_main_v61 (F := Ideal) x0 x1 x2 x3 x4 x5 x6 x7 x8 x9 x10 x11 x12 x13 x14
    = Cert.Spec.nodeUpd (val_main_v32 (F := Ideal) x0 x1 x2 x3 x4 x5 x6 x7 x8) (val_main_v48 (F := Ideal) x0 x1 x2 x3 x4 x5 x6 x7 x8 x9 x10) x11 (Cert.Spec.row x12) x13 (Cert.Spec.row x14) := by
  funext i
  obtain ⟨p, q, rfl⟩ : ∃ (p : Fin 100000) (q : Fin 128), i = ValueIdx.ix2 p q := ⟨i 0, i 1, ValueIdx.eq_ix2 i⟩
  rw [val_main_v61_apply, val_main_v60_apply, val_main_v57_apply, val_main_v59_apply, val_main_v58_apply,
    val_main_call5_v0_apply, val_main_call5_cst_apply]
  have el : ∀ k : Fin 128, lidx_main_v57 (ValueIdx.ix2 p q) k = ValueIdx.ix2 p k := fun k =>
    funext fun a => Fin.ext (by match a with | ⟨0, _⟩ => rfl | ⟨1, _⟩ => rfl)
  have er : ∀ k : Fin 128, ridx_main_v57 (ValueIdx.ix2 p q) k = ValueIdx.ix2 k q := fun k =>
    funext fun a => Fin.ext (by match a with | ⟨0, _⟩ => rfl | ⟨1, _⟩ => rfl)
  have eb : idx_main_v58 (idx_main_v59 (ValueIdx.ix2 p q)) = ValueIdx.ix1 q :=
    funext fun a => Fin.ext (by match a with | ⟨0, _⟩ => rfl)
  simp only [el, er, eb, hid2 x0 x1 x2 x3 x4 x5 x6 x7 x8 x9 x10 x11 x12, Ideal.maximumf_def, Ideal.addf_def, Ideal.ofBits_def,
    Ideal.ofBits_zero_f32]
  rfl

end Cert.ReferenceIdeal.Stages

end
-- ==== Proof.RefMlp.lean ====
/- The reference's edge classifier read as the specification's: the joined row of two gathered node rows and the edge's
   features, multiplied with the 263-row weight matrix, is the sum of the three products with the matrix's row blocks. -/
import proofs.«132114_j23519240913054_1_alg».proof.Proof.Gen.ReferenceIdeal.Read
import proofs.«132114_j23519240913054_1_alg».proof.Proof.Spec
import proofs.«132114_j23519240913054_1_alg».proof.Proof.RefStages
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Stages

open Cert.ReferenceIdeal Cert.ReferenceIdeal.Gen Cert.ReferenceIdeal.Read
open Idealize.ShloMosaic Idealize.ShloMosaic.TcCoe Idealize.SL.Sem Idealize.ShloMosaic.StableHlo

variable (x0 : (⟨S100000x387, .f32⟩ : BufTy).Contents (Elt Ideal))
  (x1 : (⟨S2x600000, .i32⟩ : BufTy).Contents (Elt Ideal))
  (x2 : (⟨S600000x7, .f32⟩ : BufTy).Contents (Elt Ideal))
  (x3 : (⟨S7x387, .f32⟩ : BufTy).Contents (Elt Ideal))
  (x4 : (⟨S387, .f32⟩ : BufTy).Contents (Elt Ideal))
  (x5 : (⟨S387x128, .f32⟩ : BufTy).Contents (Elt Ideal))
  (x6 : (⟨S128, .f32⟩ : BufTy).Contents (Elt Ideal))
  (x7 : (⟨S128x128, .f32⟩ : BufTy).Contents (Elt Ideal))
  (x8 : (⟨S128, .f32⟩ : BufTy).Contents (Elt Ideal))
  (x9 : (⟨S7x128, .f32⟩ : BufTy).Contents (Elt Ideal))
  (x10 : (⟨S128, .f32⟩ : BufTy).Contents (Elt Ideal))
  (x11 : (⟨S128x128, .f32⟩ : BufTy).Contents (Elt Ideal))
  (x12 : (⟨S128, .f32⟩ : BufTy).Contents (Elt Ideal))
  (x13 : (⟨S128x128, .f32⟩ : BufTy).Contents (Elt Ideal))
  (x14 : (⟨S128, .f32⟩ : BufTy).Contents (Elt Ideal))
  (x15 : (⟨S263x128, .f32⟩ : BufTy).Contents (Elt Ideal))
  (x16 : (⟨S128, .f32⟩ : BufTy).Contents (Elt Ideal))
  (x17 : (⟨S128x2, .f32⟩ : BufTy).Contents (Elt Ideal))
  (x18 : (⟨S2, .f32⟩ : BufTy).Contents (Elt Ideal))

/-! ## A sum over 263 terms as three consecutive stretches -/

/-- A sum over `Fin 263` is the sum of its first 128 terms, its next 128 terms and its last 7 terms, associated to the
    left: the index set is split at 256 and the lower part again at 128; only associativity of `+` is used. -/
private theorem sum_fin263_split {M : Type} [AddCommMonoid M] (f : Fin 263 → M) :
    ∑ k : Fin 263, f k
      = ((∑ k : Fin 128, f ⟨k.val, by omega⟩) + ∑ k : Fin 128, f ⟨128 + k.val, by omega⟩)
        + ∑ k : Fin 7, f ⟨256 + k.val, by omega⟩ := by
  show ∑ k : Fin (128 + 128 + 7), f k = _
  rw [Fin.sum_univ_add, Fin.sum_univ_add]
  rfl

/-! ## The joined row read at a column -/

/-- A column below 128 of the joined row is the same column of the first gathered row. -/
private theorem cat_lo (e : Fin 600000) (k : Fin 128) :
    val_main_v76 (F := Ideal) x0 x1 x2 x3 x4 x5 x6 x7 x8 x9 x10 x11 x12 x13 x14 (ValueIdx.ix2 e ⟨k.val, by omega⟩)
      = val_main_v68 (F := Ideal) x0 x1 x2 x3 x4 x5 x6 x7 x8 x9 x10 x11 x12 x13 x14 (ValueIdx.ix2 e k) := by
  unfold val_main_v76
  generalize val_main_v68 (F := Ideal) x0 x1 x2 x3 x4 x5 x6 x7 x8 x9 x10 x11 x12 x13 x14 = a
  generalize val_main_v75 (F := Ideal) x0 x1 x2 x3 x4 x5 x6 x7 x8 x9 x10 x11 x12 x13 x14 = b
  refine concatenate_apply_piece (1 : Fin S600000x263.rank) _ _ _ 0 (by simp) S600000x128 a rfl rfl 0 rfl
    (ValueIdx.ix2 e k) (fun d hd => ?_) ?_
  · match d with
    | ⟨0, _⟩ => rfl
    | ⟨1, _⟩ => exact absurd rfl hd
  · show 0 + k.val = k.val
    omega

/-- A column `128 + k` of the joined row, `k < 128`, is column `k` of the second gathered row. -/
private theorem cat_mid (e : Fin 600000) (k : Fin 128) :
    val_main_v76 (F := Ideal) x0 x1 x2 x3 x4 x5 x6 x7 x8 x9 x10 x11 x12 x13 x14 (ValueIdx.ix2 e ⟨128 + k.val, by omega⟩)
      = val_main_v75 (F := Ideal) x0 x1 x2 x3 x4 x5 x6 x7 x8 x9 x10 x11 x12 x13 x14 (ValueIdx.ix2 e k) := by
  unfold val_main_v76
  generalize val_main_v68 (F := Ideal) x0 x1 x2 x3 x4 x5 x6 x7 x8 x9 x10 x11 x12 x13 x14 = a
  generalize val_main_v75 (F := Ideal) x0 x1 x2 x3 x4 x5 x6 x7 x8 x9 x10 x11 x12 x13 x14 = b
  refine concatenate_apply_piece (1 : Fin S600000x263.rank) _ _ _ 1 (by simp) S600000x128 b rfl rfl 128 rfl
    (ValueIdx.ix2 e k) (fun d hd => ?_) ?_
  · match d with
    | ⟨0, _⟩ => rfl
    | ⟨1, _⟩ => exact absurd rfl hd
  · show 128 + k.val = 128 + k.val
    rfl

/-- A column `256 + k` of the joined row, `k < 7`, is column `k` of the edge's own features. -/
private theorem cat_hi (e : Fin 600000) (k : Fin 7) :
    val_main_v76 (F := Ideal) x0 x1 x2 x3 x4 x5 x6 x7 x8 x9 x10 x11 x12 x13 x14 (ValueIdx.ix2 e ⟨256 + k.val, by omega⟩)
      = x2 (ValueIdx.ix2 e k) := by
  unfold val_main_v76
  generalize val_main_v68 (F := Ideal) x0 x1 x2 x3 x4 x5 x6 x7 x8 x9 x10 x11 x12 x13 x14 = a
  generalize val_main_v75 (F := Ideal) x0 x1 x2 x3 x4 x5 x6 x7 x8 x9 x10 x11 x12 x13 x14 = b
  refine concatenate_apply_piece (1 : Fin S600000x263.rank) _ _ _ 2 (by simp) S600000x7 x2 rfl rfl 256 rfl
    (ValueIdx.ix2 e k) (fun d hd => ?_) ?_
  · match d with
    | ⟨0, _⟩ => rfl
    | ⟨1, _⟩ => exact absurd rfl hd
  · show 256 + k.val = 256 + k.val
    rfl

/-! ## The reference's index maps at an entry, and the specification's row blocks -/

/-- The left operand of the first product at `(e, j)`, term `k`, is read at row `e`, column `k`. -/
private theorem lidx77 (e : Fin 600000) (j : Fin 128) (k : Fin 263) :
    lidx_main_v77 (ValueIdx.ix2 e j) k = ValueIdx.ix2 e k :=
  funext fun a => Fin.ext (by match a with | ⟨0, _⟩ => rfl | ⟨1, _⟩ => rfl)

/-- The right operand of the first product at `(e, j)`, term `k`, is read at row `k`, column `j`. -/
private theorem ridx77 (e : Fin 600000) (j : Fin 128) (k : Fin 263) :
    ridx_main_v77 (ValueIdx.ix2 e j) k = ValueIdx.ix2 k j :=
  funext fun a => Fin.ext (by match a with | ⟨0, _⟩ => rfl | ⟨1, _⟩ => rfl)

/-- The first bias, broadcast along the edges, is read at row 0 of its one-row layout. -/
private theorem idx79 (e : Fin 600000) (j : Fin 128) :
    idx_main_v79 (ValueIdx.ix2 e j) = ValueIdx.ix2 (0 : Fin 1) j :=
  funext fun a => Fin.ext (by match a with | ⟨0, _⟩ => rfl | ⟨1, _⟩ => rfl)

/-- The left operand of the second product at `(e, o)`, term `k`, is read at row `e`, column `k`. -/
private theorem lidx82 (e : Fin 600000) (o : Fin 2) (k : Fin 128) :
    lidx_main_v82 (ValueIdx.ix2 e o) k = ValueIdx.ix2 e k :=
  funext fun a => Fin.ext (by match a with | ⟨0, _⟩ => rfl | ⟨1, _⟩ => rfl)

/-- The right operand of the second product at `(e, o)`, term `k`, is read at row `k`, column `o`. -/
private theorem ridx82 (e : Fin 600000) (o : Fin 2) (k : Fin 128) :
    ridx_main_v82 (ValueIdx.ix2 e o) k = ValueIdx.ix2 k o :=
  funext fun a => Fin.ext (by match a with | ⟨0, _⟩ => rfl | ⟨1, _⟩ => rfl)

/-- The second bias, broadcast along the edges, is read at row 0 of its one-row layout. -/
private theorem idx84 (e : Fin 600000) (o : Fin 2) :
    idx_main_v84 (ValueIdx.ix2 e o) = ValueIdx.ix2 (0 : Fin 1) o :=
  funext fun a => Fin.ext (by match a with | ⟨0, _⟩ => rfl | ⟨1, _⟩ => rfl)

/-- Row `k` of the block of rows starting at row `off` is row `off + k` of the matrix. -/
private theorem rowsFrom_apply {r c : Nat} (off n : Nat) (h : off + n ≤ r) (w : Cert.Spec.Mat r c) (k : Fin n) (j : Fin c) :
    Cert.Spec.rowsFrom off n h w (ValueIdx.ix2 k j) = w (ValueIdx.ix2 ⟨off + k.val, by have := k.isLt; omega⟩ j) := rfl

/-! ## The hidden layer -/

/-- The hidden layer at edge `e`, unit `j`: the product of the joined row with the 263-row matrix, split at columns
    128 and 256, is the sum of the products of the two gathered rows and the edge's features with the matrix's three
    row blocks; then the bias and the rectifier, as the specification has them. -/
private theorem hid (e : Fin 600000) (j : Fin 128) :
    val_main_v81 (F := Ideal) x0 x1 x2 x3 x4 x5 x6 x7 x8 x9 x10 x11 x12 x13 x14 x15 x16 (ValueIdx.ix2 e j)
      = Cert.Spec.mlpHid (val_main_v68 (F := Ideal) x0 x1 x2 x3 x4 x5 x6 x7 x8 x9 x10 x11 x12 x13 x14) (val_main_v75 (F := Ideal) x0 x1 x2 x3 x4 x5 x6 x7 x8 x9 x10 x11 x12 x13 x14) x2
          (Cert.Spec.rowsFrom 0 128 (by decide) x15) (Cert.Spec.rowsFrom 128 128 (by decide) x15) (Cert.Spec.rowsFrom 256 7 (by decide) x15)
          (Cert.Spec.row x16) e j := by
  rw [val_main_v81_apply, val_main_v80_apply, val_main_v77_apply, val_main_v79_apply, row_v78,
    val_main_call6_v0_apply, val_main_call6_cst_apply]
  simp only [lidx77, ridx77, idx79, Ideal.addf_def, Ideal.mulf_def, Ideal.maximumf_def, Ideal.ofBits_def,
    Ideal.ofBits_zero_f32]
  rw [sum_fin263_split]
  simp only [cat_lo, cat_mid, cat_hi]
  unfold Cert.Spec.mlpHid
  simp only [Cert.Spec.at2, rowsFrom_apply, Nat.zero_add]

/-- The edge classifier: the product of the joined row `[h[src], h[dst], edge features]` with the 263-row weight matrix is
    the sum of the three products with its row blocks 0–127, 128–255 and 256–262. -/
theorem mlp : val_main_v85 (F := Ideal) x0 x1 x2 x3 x4 x5 x6 x7 x8 x9 x10 x11 x12 x13 x14 x15 x16 x17 x18
    = Cert.Spec.edgeMlp (val_main_v68 (F := Ideal) x0 x1 x2 x3 x4 x5 x6 x7 x8 x9 x10 x11 x12 x13 x14) (val_main_v75 (F := Ideal) x0 x1 x2 x3 x4 x5 x6 x7 x8 x9 x10 x11 x12 x13 x14) x2
        (Cert.Spec.rowsFrom 0 128 (by decide) x15) (Cert.Spec.rowsFrom 128 128 (by decide) x15) (Cert.Spec.rowsFrom 256 7 (by decide) x15)
        (Cert.Spec.row x16) x17 (Cert.Spec.row x18) := by
  funext i
  obtain ⟨e, o, rfl⟩ : ∃ (e : Fin 600000) (o : Fin 2), i = ValueIdx.ix2 e o := ⟨i 0, i 1, ValueIdx.eq_ix2 i⟩
  rw [val_main_v85_apply, val_main_v82_apply, val_main_v84_apply, row_v83]
  simp only [lidx82, ridx82, idx84, hid, Ideal.addf_def, Ideal.mulf_def]
  rfl

end Cert.ReferenceIdeal.Stages

end
-- ==== Proof.ChainA.lean ====
/- The kernel program's buffer contents, boundary by boundary, through its first two regions: what each host stretch
   and each region leaves in the buffers that are read later, named by the reference's own stages of the launch
   arguments. -/
import proofs.«132114_j23519240913054_1_alg».proof.Proof.FrameKernelIdeal
import proofs.«132114_j23519240913054_1_alg».proof.Proof.Spec
import proofs.«132114_j23519240913054_1_alg».proof.Proof.Region0
import proofs.«132114_j23519240913054_1_alg».proof.Proof.Region1
import proofs.«132114_j23519240913054_1_alg».proof.Proof.Region2
import proofs.«132114_j23519240913054_1_alg».proof.Proof.Region3
import proofs.«132114_j23519240913054_1_alg».proof.Proof.Region4
import proofs.«132114_j23519240913054_1_alg».proof.Proof.RefStages
import proofs.«132114_j23519240913054_1_alg».proof.Proof.RefMlp
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Chain

open Cert.KernelIdeal Cert.KernelIdeal.Gen Cert.KernelIdeal.GenP
open Cert.ReferenceIdeal.Read
open Idealize.ShloMosaic Idealize.ShloMosaic.TcCoe Idealize.SL.Sem

variable (m : (ℓ : Loc nD τ sig) → Buf (Elt Ideal) ℓ) (ρ : Dev nD → PrngReg) (c : Dev nD)

/-- The launch arguments on core `c`. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)
abbrev a8 := m ((c : Thread nD τ).loc main_arg8)
abbrev a9 := m ((c : Thread nD τ).loc main_arg9)
abbrev a10 := m ((c : Thread nD τ).loc main_arg10)
abbrev a11 := m ((c : Thread nD τ).loc main_arg11)
abbrev a12 := m ((c : Thread nD τ).loc main_arg12)
abbrev a13 := m ((c : Thread nD τ).loc main_arg13)
abbrev a14 := m ((c : Thread nD τ).loc main_arg14)
abbrev a15 := m ((c : Thread nD τ).loc main_arg15)
abbrev a16 := m ((c : Thread nD τ).loc main_arg16)
abbrev a17 := m ((c : Thread nD τ).loc main_arg17)
abbrev a18 := m ((c : Thread nD τ).loc main_arg18)

/-! ## A bias vector laid out as one row -/

/-- A vector of length `n` recast as a matrix of one row reads, at row 0 and column `q`, the vector's entry `q`:
    both sit at position `q` of the row-major order. -/
theorem cast_row {n : Nat} (x : Cert.Spec.Vc n) (h : (⟨1, ![n]⟩ : Shape).ShapeCasts ⟨2, ![1, n]⟩) :
    shapeCast (⟨2, ![1, n]⟩ : Shape) x h = Cert.Spec.row x := by
  funext i
  have h1 : (i 0).val < 1 := (i 0).isLt
  have h0 : (i 0).val = 0 := by omega
  refine shapeCast_apply x h i (ValueIdx.ix1 (i 1)) ?_
  rw [Shape.rowMajor_val_two, Shape.rowMajor_val_one, h0, Nat.zero_mul, Nat.zero_add]
  rfl

/-! ## What the host stretches write, and what they leave alone -/

/-- The references the host operations before region 0 write. -/
abbrev wr0 : List (Ref sig .tc) :=
  [main_v0, main_v1, main_v2, main_v3, main_c, main_v4, main_v5, main_c_0, main_v6, main_v7, main_v8, main_v9, main_v10, main_v11]

theorem wr0_covers : (hostOps0 (F := Ideal)).Forall fun op => op.writes ⊆ (wr0.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- A buffer none of the host operations before region 0 writes holds afterwards what it held before. -/
theorem keep0 (V : Valuation τ sig (Elt Ideal)) (b : Ref sig .tc) (hb : b ∉ wr0) :
    StableHlo.after (hostOps0 (F := Ideal)) V (Proc.devRef .tc b) = V (Proc.devRef .tc b) :=
  StableHlo.after_of_writes_sub _ V wr0_covers hb

/-- The references the host operations between regions 0 and 1 write. -/
abbrev wr1 : List (Ref sig .tc) := [main_cst, main_v13, main_v14, main_v15, main_v16, main_v17]

theorem wr1_covers : (hostOps1 (F := Ideal)).Forall fun op => op.writes ⊆ (wr1.map (Proc.devRef (τ := τ) .tc)).toFinset := by
  simp only [List.Forall, StableHlo.nullary_writes, StableHlo.unary_writes, StableHlo.ternary_writes,
    StableHlo.reshape_writes, Finset.singleton_subset_iff, List.mem_toFinset]
  repeat' apply And.intro
  all_goals exact List.mem_map_of_mem (by decide)

/-- A buffer none of the host operations between regions 0 and 1 writes holds afterwards what it held before. -/
theorem keep1 (V : Valuation τ sig (Elt Ideal)) (b : Ref sig .tc) (hb : b ∉ wr1) :
    StableHlo.after (hostOps1 (F := Ideal)) V (Proc.devRef .tc b) = V (Proc.devRef .tc b) :=
  StableHlo.after_of_writes_sub _ V wr1_covers hb

/-! ## Buffers that nothing touches up to a boundary hold their launch contents there -/

theorem launch_at_W1 (b : Ref sig .tc) (h0 : b ∉ wr0) :
    W1 m ρ c (Proc.devRef .tc b) = m ((c : Thread nD τ).loc b) := keep0 _ b h0

theorem launch_at_W2 (b : Ref sig .tc) (h0 : b ∉ wr0) (hr0 : ∀ w, Pipeline.arrRef spec0 w ≠ b) :
    W2 m ρ c (Proc.devRef .tc b) = m ((c : Thread nD τ).loc b) :=
  (W2_of_ne m ρ c b hr0).trans (launch_at_W1 m ρ c b h0)

theorem launch_at_W3 (b : Ref sig .tc) (h0 : b ∉ wr0) (hr0 : ∀ w, Pipeline.arrRef spec0 w ≠ b) (h1 : b ∉ wr1) :
    W3 m ρ c (Proc.devRef .tc b) = m ((c : Thread nD τ).loc b) :=
  (keep1 _ b h1).trans (launch_at_W2 m ρ c b h0 hr0)

theorem launch_at_W4 (b : Ref sig .tc) (h0 : b ∉ wr0) (hr0 : ∀ w, Pipeline.arrRef spec0 w ≠ b) (h1 : b ∉ wr1)
    (hr1 : ∀ w, Pipeline.arrRef spec1 w ≠ b) :
    W4 m ρ c (Proc.devRef .tc b) = m ((c : Thread nD τ).loc b) :=
  (W4_of_ne m ρ c b hr1).trans (launch_at_W3 m ρ c b h0 hr0 h1)

/-! ## Region 0's entry (after the first host stretch) -/

/-- The edge sources: the first row of the edge-index argument, as a vector. -/
theorem src_at_W1 : W1 m ρ c (Proc.devRef .tc main_v1) = val_main_v1 (F := Ideal) (a1 m c) := by
  show StableHlo.after (hostOps0 (F := Ideal)) (W0 m ρ c) (Proc.devRef .tc main_v1) = _
  after_results
  unfold val_main_v1 val_main_v0
  rfl

/-- The edge destinations: the second row of the edge-index argument, as a vector. -/
theorem dst_at_W1 : W1 m ρ c (Proc.devRef .tc main_v3) = val_main_v3 (F := Ideal) (a1 m c) := by
  show StableHlo.after (hostOps0 (F := Ideal)) (W0 m ρ c) (Proc.devRef .tc main_v3) = _
  after_results
  unfold val_main_v3 val_main_v2
  rfl

/-- The node rows gathered at the edge sources: the program wraps a negative source by the node count and gathers the
    node features' rows there, operation for operation as the reference does. -/
theorem gathered_at_W1 : W1 m ρ c (Proc.devRef .tc main_v10) = val_main_v10 (F := Ideal) (a0 m c) (a1 m c) := by
  show StableHlo.after (hostOps0 (F := Ideal)) (W0 m ρ c) (Proc.devRef .tc main_v10) = _
  after_results
  unfold val_main_v10 val_main_v9 val_main_v8 val_main_v7 val_main_v6 val_main_v5 val_main_v4 val_main_v1 val_main_v0
    val_main_c val_main_c_0
  rfl

/-- The edge layer's bias as one row. -/
theorem bias_at_W1 : W1 m ρ c (Proc.devRef .tc main_v11) = Cert.Spec.row (a4 m c) := by
  show StableHlo.after (hostOps0 (F := Ideal)) (W0 m ρ c) (Proc.devRef .tc main_v11) = _
  after_results
  exact cast_row (n := 387) (a4 m c) shapeCasts_S387_S1x387

/-! ## Region 0's exit -/

/-- Region 0 leaves the reference's first message stage in its output array. -/
theorem msg_at_W2 : W2 m ρ c (Proc.devRef .tc main_v12)
    = val_main_v16 (F := Ideal) (a0 m c) (a1 m c) (a2 m c) (a3 m c) (a4 m c) := by
  refine (W2_arr m ρ c 4).trans ((Cert.KernelIdeal.Region0.final (V1 m ρ) c).trans ?_)
  show Cert.Spec.edgeMsg (W1 m ρ c (Proc.devRef .tc main_v10)) (W1 m ρ c (Proc.devRef .tc main_arg2))
    (W1 m ρ c (Proc.devRef .tc main_arg3)) (W1 m ρ c (Proc.devRef .tc main_v11)) = _
  rw [gathered_at_W1, launch_at_W1 m ρ c main_arg2 (by decide), launch_at_W1 m ρ c main_arg3 (by decide), bias_at_W1]
  exact (Cert.ReferenceIdeal.Stages.msg1 _ _ _ _ _).symm

/-- The edge features are an input window of region 0: it hands them back as it found them. -/
theorem arg2_at_W2 : W2 m ρ c (Proc.devRef .tc main_arg2) = a2 m c :=
  (W2_arr m ρ c 1).trans ((((dat0 (V1 m ρ) c).arrAt_in 1 rfl _).trans (A_eq0 (V1 m ρ) c 1)).trans
    (launch_at_W1 m ρ c main_arg2 (by decide)))

theorem src_at_W2 : W2 m ρ c (Proc.devRef .tc main_v1) = val_main_v1 (F := Ideal) (a1 m c) :=
  (W2_of_ne m ρ c main_v1 (by decide)).trans (src_at_W1 m ρ c)

theorem dst_at_W2 : W2 m ρ c (Proc.devRef .tc main_v3) = val_main_v3 (F := Ideal) (a1 m c) :=
  (W2_of_ne m ρ c main_v3 (by decide)).trans (dst_at_W1 m ρ c)

/-! ## Region 1's entry (after the second host stretch) -/

/-- The messages summed into their destination nodes: a scatter-add of region 0's output into zeros at the edge
    destinations, operation for operation as the reference does. -/
theorem aggr_at_W3 : W3 m ρ c (Proc.devRef .tc main_v15)
    = val_main_v19 (F := Ideal) (a0 m c) (a1 m c) (a2 m c) (a3 m c) (a4 m c) := by
  show StableHlo.after (hostOps1 (F := Ideal)) (W2 m ρ c) (Proc.devRef .tc main_v15) = _
  after_results
  rw [dst_at_W2, msg_at_W2]
  unfold val_main_v19 val_main_v18 val_main_v17 val_main_cst
  rfl

/-- The node update's first bias as one row. -/
theorem bias1_at_W3 : W3 m ρ c (Proc.devRef .tc main_v16) = Cert.Spec.row (a6 m c) := by
  show StableHlo.after (hostOps1 (F := Ideal)) (W2 m ρ c) (Proc.devRef .tc main_v16) = _
  after_results
  rw [launch_at_W2 m ρ c main_arg6 (by decide) (by decide)]
  exact cast_row (n := 128) (a6 m c) shapeCasts_S128_S1x128

/-- The node update's second bias as one row. -/
theorem bias2_at_W3 : W3 m ρ c (Proc.devRef .tc main_v17) = Cert.Spec.row (a8 m c) := by
  show StableHlo.after (hostOps1 (F := Ideal)) (W2 m ρ c) (Proc.devRef .tc main_v17) = _
  after_results
  rw [launch_at_W2 m ρ c main_arg8 (by decide) (by decide)]
  exact cast_row (n := 128) (a8 m c) shapeCasts_S128_S1x128

theorem arg2_at_W3 : W3 m ρ c (Proc.devRef .tc main_arg2) = a2 m c :=
  (keep1 _ main_arg2 (by decide)).trans (arg2_at_W2 m ρ c)

theorem src_at_W3 : W3 m ρ c (Proc.devRef .tc main_v1) = val_main_v1 (F := Ideal) (a1 m c) :=
  (keep1 _ main_v1 (by decide)).trans (src_at_W2 m ρ c)

theorem dst_at_W3 : W3 m ρ c (Proc.devRef .tc main_v3) = val_main_v3 (F := Ideal) (a1 m c) :=
  (keep1 _ main_v3 (by decide)).trans (dst_at_W2 m ρ c)

/-! ## Region 1's exit -/

/-- After the first node update (region 1's exit) its output array holds the reference's first rectified node update
    of the launch arguments. -/
theorem upd1_at_W4 : W4 m ρ c (Proc.devRef .tc main_v18) = val_main_v32 (F := Ideal) (a0 m c) (a1 m c) (a2 m c) (a3 m c) (a4 m c) (a5 m c) (a6 m c) (a7 m c) (a8 m c) := by
  refine (W4_arr m ρ c 6).trans ((Cert.KernelIdeal.Region1.final (V3 m ρ) c).trans ?_)
  show Cert.Spec.nodeUpd (W3 m ρ c (Proc.devRef .tc main_arg0)) (W3 m ρ c (Proc.devRef .tc main_v15))
    (W3 m ρ c (Proc.devRef .tc main_arg5)) (W3 m ρ c (Proc.devRef .tc main_v16))
    (W3 m ρ c (Proc.devRef .tc main_arg7)) (W3 m ρ c (Proc.devRef .tc main_v17)) = _
  rw [launch_at_W3 m ρ c main_arg0 (by decide) (by decide) (by decide), aggr_at_W3,
    launch_at_W3 m ρ c main_arg5 (by decide) (by decide) (by decide), bias1_at_W3,
    launch_at_W3 m ρ c main_arg7 (by decide) (by decide) (by decide), bias2_at_W3]
  exact (Cert.ReferenceIdeal.Stages.upd1 _ _ _ _ _ _ _ _ _).symm

/-- The edge sources and destinations computed before region 0 are still in place at region 1's exit. -/
theorem src_at_W4 : W4 m ρ c (Proc.devRef .tc main_v1) = val_main_v1 (F := Ideal) (a1 m c) :=
  (W4_of_ne m ρ c main_v1 (by decide)).trans (src_at_W3 m ρ c)
theorem dst_at_W4 : W4 m ρ c (Proc.devRef .tc main_v3) = val_main_v3 (F := Ideal) (a1 m c) :=
  (W4_of_ne m ρ c main_v3 (by decide)).trans (dst_at_W3 m ρ c)

/-- The launch arguments read after region 1 are still in place at its exit. -/
theorem arg2_at_W4 : W4 m ρ c (Proc.devRef .tc main_arg2) = a2 m c :=
  (W4_of_ne m ρ c main_arg2 (by decide)).trans (arg2_at_W3 m ρ c)
theorem arg9_at_W4 : W4 m ρ c (Proc.devRef .tc main_arg9) = a9 m c :=
  launch_at_W4 m ρ c main_arg9 (by decide) (by decide) (by decide) (by decide)
theorem arg10_at_W4 : W4 m ρ c (Proc.devRef .tc main_arg10) = a10 m c :=
  launch_at_W4 m ρ c main_arg10 (by decide) (by decide) (by decide) (by decide)
theorem arg11_at_W4 : W4 m ρ c (Proc.devRef .tc main_arg11) = a11 m c :=
  launch_at_W4 m ρ c main_arg11 (by decide) (by decide) (by decide) (by decide)
theorem arg12_at_W4 : W4 m ρ c (Proc.devRef .tc main_arg12) = a12 m c :=
  launch_at_W4 m ρ c main_arg12 (by decide) (by decide) (by decide) (by decide)
theorem arg13_at_W4 : W4 m ρ c (Proc.devRef .tc main_arg13) = a13 m c :=
  launch_at_W4 m ρ c main_arg13 (by decide) (by decide) (by decide) (by decide)
theorem arg14_at_W4 : W4 m ρ c (Proc.devRef .tc main_arg14) = a14 m c :=
  launch_at_W4 m ρ c main_arg14 (by decide) (by decide) (by decide) (by decide)
theorem arg15_at_W4 : W4 m ρ c (Proc.devRef .tc main_arg15) = a15 m c :=
  launch_at_W4 m ρ c main_arg15 (by decide) (by decide) (by decide) (by decide)
theorem arg16_at_W4 : W4 m ρ c (Proc.devRef .tc main_arg16) = a16 m c :=
  launch_at_W4 m ρ c main_arg16 (by decide) (by decide) (by decide) (by decide)
theorem arg17_at_W4 : W4 m ρ c (Proc.devRef .tc main_arg17) = a17 m c :=
  launch_at_W4 m ρ c main_arg17 (by decide) (by decide) (by decide) (by decide)
theorem arg18_at_W4 : W4 m ρ c (Proc.devRef .tc main_arg18) = a18 m c :=
  launch_at_W4 m ρ c main_arg18 (by decide) (by decide) (by decide) (by decide)

end Cert.KernelIdeal.Chain

end
-- ==== Proof.ChainB.lean ====
/- The kernel program's buffer contents from the first node update's exit to the return: the second message layer,
   the second node update, the two gathers and the edge classifier, each named by the reference's own stage of the
   launch arguments; the result array is the reference's result. -/
import proofs.«132114_j23519240913054_1_alg».proof.Proof.FrameKernelIdeal
import proofs.«132114_j23519240913054_1_alg».proof.Proof.Spec
import proofs.«132114_j23519240913054_1_alg».proof.Proof.Region0
import proofs.«132114_j23519240913054_1_alg».proof.Proof.Region1
import proofs.«132114_j23519240913054_1_alg».proof.Proof.Region2
import proofs.«132114_j23519240913054_1_alg».proof.Proof.Region3
import proofs.«132114_j23519240913054_1_alg».proof.Proof.Region4
import proofs.«132114_j23519240913054_1_alg».proof.Proof.RefStages
import proofs.«132114_j23519240913054_1_alg».proof.Proof.RefMlp
import Idealize.ShloMosaic.Lib.Pipeline.Value
import Idealize.ShloMosaic.Lib.ValueIdx
import Idealize.ShloMosaic.Lib.ValueLayout
import Idealize.ShloMosaic.Lib.StableHlo.Run
import proofs.«132114_j23519240913054_1_alg».proof.Proof.ChainA

set_option maxRecDepth 16384

noncomputable section

namespace Cert.KernelIdeal.Chain

open Cert.KernelIdeal Cert.KernelIdeal.Gen Cert.KernelIdeal.GenP
open Cert.ReferenceIdeal.Read
open Idealize.ShloMosaic Idealize.ShloMosaic.TcCoe Idealize.SL.Sem

variable (m : (ℓ : Loc nD τ sig) → Buf (Elt Ideal) ℓ) (ρ : Dev nD → PrngReg) (c : Dev nD)

/-! ## The host operations the two programs share

The kernel program and the reference apply the same index arithmetic, the same gather and the same scatter-add to
their node arrays; each is named here once, as a function of its operands, and the reference's stages are read as
these functions of its earlier stages. -/

section Shared

variable {F : FTy → Type} [FloatOps F]

/-- An index vector with every negative entry wrapped around by the node count, laid out as a column. -/
private def wrapCol (s : (⟨S600000, .i32⟩ : BufTy).Contents (Elt F)) : (⟨S600000x1, .i32⟩ : BufTy).Contents (Elt F) :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 100000#32))) s)

/-- The rows of a node matrix at the wrapped entries of an index vector: one row per edge. -/
private def rowsAt (h : (⟨S100000x128, .f32⟩ : BufTy).Contents (Elt F)) (s : (⟨S600000, .i32⟩ : BufTy).Contents (Elt F)) :
    (⟨S600000x128, .f32⟩ : BufTy).Contents (Elt F) :=
  Host.gather gather_S100000x128_S600000x1_S600000x128_1_0_n_n_0_1_1128 h (wrapCol s)

/-- Edge rows added, from zero, into the node rows an index vector names: the aggregated messages. -/
private def sumInto (d : (⟨S600000, .i32⟩ : BufTy).Contents (Elt F)) (u : (⟨S600000x128, .f32⟩ : BufTy).Contents (Elt F)) :
    (⟨S100000x128, .f32⟩ : BufTy).Contents (Elt F) :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 d) u

/-- The reference gathers the first node update's rows at the wrapped edge sources. -/
private theorem ref_gather1 (x0 : (⟨S100000x387, .f32⟩ : BufTy).Contents (Elt F)) (x1 : (⟨S2x600000, .i32⟩ : BufTy).Contents (Elt F)) (x2 : (⟨S600000x7, .f32⟩ : BufTy).Contents (Elt F)) (x3 : (⟨S7x387, .f32⟩ : BufTy).Contents (Elt F)) (x4 : (⟨S387, .f32⟩ : BufTy).Contents (Elt F)) (x5 : (⟨S387x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) :
    val_main_v39 (F := F) x0 x1 x2 x3 x4 x5 x6 x7 x8 = rowsAt (val_main_v32 (F := F) x0 x1 x2 x3 x4 x5 x6 x7 x8) (val_main_v1 (F := F) x1) := by
  unfold val_main_v39 val_main_v38 val_main_v37 val_main_v36 val_main_v35 val_main_c_3 val_main_v34 val_main_v33 val_main_c_2
  rfl

/-- The reference adds the second layer's messages into the rows their edge destinations name. -/
private theorem ref_aggr2 (x0 : (⟨S100000x387, .f32⟩ : BufTy).Contents (Elt F)) (x1 : (⟨S2x600000, .i32⟩ : BufTy).Contents (Elt F)) (x2 : (⟨S600000x7, .f32⟩ : BufTy).Contents (Elt F)) (x3 : (⟨S7x387, .f32⟩ : BufTy).Contents (Elt F)) (x4 : (⟨S387, .f32⟩ : BufTy).Contents (Elt F)) (x5 : (⟨S387x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S7x128, .f32⟩ : BufTy).Contents (Elt F)) (x10 : (⟨S128, .f32⟩ : BufTy).Contents (Elt F)) :
    val_main_v48 (F := F) x0 x1 x2 x3 x4 x5 x6 x7 x8 x9 x10 = sumInto (val_main_v3 (F := F) x1) (val_main_v45 (F := F) x0 x1 x2 x3 x4 x5 x6 x7 x8 x9 x10) := by
  unfold val_main_v48 val_main_v47 val_main_v46 val_main_cst_4
  rfl

/-- The reference gathers the second node update's rows at the wrapped edge sources. -/
private theorem ref_gatherSrc (x0 : (⟨S100000x387, .f32⟩ : BufTy).Contents (Elt F)) (x1 : (⟨S2x600000, .i32⟩ : BufTy).Contents (Elt F)) (x2 : (⟨S600000x7, .f32⟩ : BufTy).Contents (Elt F)) (x3 : (⟨S7x387, .f32⟩ : BufTy).Contents (Elt F)) (x4 : (⟨S387, .f32⟩ : BufTy).Contents (Elt F)) (x5 : (⟨S387x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S7x128, .f32⟩ : BufTy).Contents (Elt F)) (x10 : (⟨S128, .f32⟩ : BufTy).Contents (Elt F)) (x11 : (⟨S128x128, .f32⟩ : BufTy).Contents (Elt F)) (x12 : (⟨S128, .f32⟩ : BufTy).Contents (Elt F)) (x13 : (⟨S128x128, .f32⟩ : BufTy).Contents (Elt F)) (x14 : (⟨S128, .f32⟩ : BufTy).Contents (Elt F)) :
    val_main_v68 (F := F) x0 x1 x2 x3 x4 x5 x6 x7 x8 x9 x10 x11 x12 x13 x14 = rowsAt (val_main_v61 (F := F) x0 x1 x2 x3 x4 x5 x6 x7 x8 x9 x10 x11 x12 x13 x14) (val_main_v1 (F := F) x1) := by
  unfold val_main_v68 val_main_v67 val_main_v66 val_main_v65 val_main_v64 val_main_c_7 val_main_v63 val_main_v62 val_main_c_6
  rfl

/-- The reference gathers the second node update's rows at the wrapped edge destinations. -/
private theorem ref_gatherDst (x0 : (⟨S100000x387, .f32⟩ : BufTy).Contents (Elt F)) (x1 : (⟨S2x600000, .i32⟩ : BufTy).Contents (Elt F)) (x2 : (⟨S600000x7, .f32⟩ : BufTy).Contents (Elt F)) (x3 : (⟨S7x387, .f32⟩ : BufTy).Contents (Elt F)) (x4 : (⟨S387, .f32⟩ : BufTy).Contents (Elt F)) (x5 : (⟨S387x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S7x128, .f32⟩ : BufTy).Contents (Elt F)) (x10 : (⟨S128, .f32⟩ : BufTy).Contents (Elt F)) (x11 : (⟨S128x128, .f32⟩ : BufTy).Contents (Elt F)) (x12 : (⟨S128, .f32⟩ : BufTy).Contents (Elt F)) (x13 : (⟨S128x128, .f32⟩ : BufTy).Contents (Elt F)) (x14 : (⟨S128, .f32⟩ : BufTy).Contents (Elt F)) :
    val_main_v75 (F := F) x0 x1 x2 x3 x4 x5 x6 x7 x8 x9 x10 x11 x12 x13 x14 = rowsAt (val_main_v61 (F := F) x0 x1 x2 x3 x4 x5 x6 x7 x8 x9 x10 x11 x12 x13 x14) (val_main_v3 (F := F) x1) := by
  unfold val_main_v75 val_main_v74 val_main_v73 val_main_v72 val_main_v71 val_main_c_9 val_main_v70 val_main_v69 val_main_c_8
  rfl

end Shared

/-! ## Layout operations of the host stretches: a bias vector as one row, a block of a weight matrix's rows -/

/-- A vector reshaped to a one-row matrix is that row. -/
private theorem reshape_row {n : Nat} (b : Cert.Spec.Vc n) (h : (⟨1, ![n]⟩ : Shape).ShapeCasts ⟨2, ![1, n]⟩) :
    shapeCast ⟨2, ![1, n]⟩ b h = Cert.Spec.row b := by
  funext i
  rw [shapeCast_addUnit_apply ![n] b h i]
  unfold Cert.Spec.row
  exact congrArg b (funext fun a => match a with | ⟨0, _⟩ => rfl)

/-- The slice of the classifier's first weight matrix at rows 0 to 127: the block that multiplies the source rows. -/
private theorem slice_src (w : (⟨S263x128, .f32⟩ : BufTy).Contents (Elt Ideal)) :
    extractStridedSlice S128x128 ![0, 0] w slices_S263x128_S128x128_0_0 = Cert.Spec.rowsFrom 0 128 (by decide) w := by
  funext i
  unfold Cert.Spec.rowsFrom
  exact extractStridedSlice_apply ![0, 0] w slices_S263x128_S128x128_0_0 i _ (fun a => match a with
    | ⟨0, _⟩ => rfl
    | ⟨1, _⟩ => by show (i 1).val = 0 + (i 1).val; omega)

/-- The slice at rows 128 to 255: the block that multiplies the destination rows. -/
private theorem slice_dst (w : (⟨S263x128, .f32⟩ : BufTy).Contents (Elt Ideal)) :
    extractStridedSlice S128x128 ![128, 0] w slices_S263x128_S128x128_128_0 = Cert.Spec.rowsFrom 128 128 (by decide) w := by
  funext i
  unfold Cert.Spec.rowsFrom
  exact extractStridedSlice_apply ![128, 0] w slices_S263x128_S128x128_128_0 i _ (fun a => match a with
    | ⟨0, _⟩ => rfl
    | ⟨1, _⟩ => by show (i 1).val = 0 + (i 1).val; omega)

/-- The slice at rows 256 to 262: the block that multiplies the edge's own features. -/
private theorem slice_edge (w : (⟨S263x128, .f32⟩ : BufTy).Contents (Elt Ideal)) :
    extractStridedSlice S7x128 ![256, 0] w slices_S263x128_S7x128_256_0 = Cert.Spec.rowsFrom 256 7 (by decide) w := by
  funext i
  unfold Cert.Spec.rowsFrom
  exact extractStridedSlice_apply ![256, 0] w slices_S263x128_S7x128_256_0 i _ (fun a => match a with
    | ⟨0, _⟩ => rfl
    | ⟨1, _⟩ => by show (i 1).val = 0 + (i 1).val; omega)

/-! ## What a host stretch leaves alone

A stretch's operations write a known list of references; any other reference keeps its contents across it. -/

/-- The references written between the first node update and the second message layer. -/
private abbrev wr2 : List (Ref sig .tc) :=
  [main_c_1, main_v19, main_v20, main_c_2, main_v21, main_v22, main_v23, main_v24, main_v25, main_v26]
/-- The references written between the second message layer and the second node update. -/
private abbrev wr3 : List (Ref sig .tc) := [main_cst_3, main_v28, main_v29, main_v30, main_v31, main_v32]
/-- The references written between the second node update and the edge classifier. -/
private abbrev wr4 : List (Ref sig .tc) :=
  [main_c_4, main_v34, main_v35, main_c_5, main_v36, main_v37, main_v38, main_v39, main_v40, main_c_6, main_v41, main_v42,
    main_c_7, main_v43, main_v44, main_v45, main_v46, main_v47, main_v48, main_v49, main_v50, main_v51, main_v52]

private theorem wr2_covers : (hostOps2 : List (HloOp τ sig (Elt Ideal))).Forall fun op =>
    op.writes ⊆ (wr2.map (Proc.devRef (τ := τ) .tc)).toFinset := by
  simp only [hostOps2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
private theorem wr3_covers : (hostOps3 : List (HloOp τ sig (Elt Ideal))).Forall fun op =>
    op.writes ⊆ (wr3.map (Proc.devRef (τ := τ) .tc)).toFinset := by
  simp only [hostOps3, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
private theorem wr4_covers : (hostOps4 : List (HloOp τ sig (Elt Ideal))).Forall fun op =>
    op.writes ⊆ (wr4.map (Proc.devRef (τ := τ) .tc)).toFinset := by
  simp only [hostOps4, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

private theorem kept5 (b : Ref sig .tc) (hb : b ∉ wr2) : W5 m ρ c (Proc.devRef .tc b) = W4 m ρ c (Proc.devRef .tc b) :=
  StableHlo.after_of_writes_sub hostOps2 _ wr2_covers hb
private theorem kept7 (b : Ref sig .tc) (hb : b ∉ wr3) : W7 m ρ c (Proc.devRef .tc b) = W6 m ρ c (Proc.devRef .tc b) :=
  StableHlo.after_of_writes_sub hostOps3 _ wr3_covers hb
private theorem kept9 (b : Ref sig .tc) (hb : b ∉ wr4) : W9 m ρ c (Proc.devRef .tc b) = W8 m ρ c (Proc.devRef .tc b) :=
  StableHlo.after_of_writes_sub hostOps4 _ wr4_covers hb

/-- A reference that is neither written before the second message layer nor one of that layer's arrays holds at the
    layer's exit what it held at the first node update's exit. -/
private theorem carried6 (b : Ref sig .tc) (h2 : b ∉ wr2) (a2 : ∀ w, Pipeline.arrRef spec2 w ≠ b) :
    W6 m ρ c (Proc.devRef .tc b) = W4 m ρ c (Proc.devRef .tc b) :=
  (W6_of_ne m ρ c b a2).trans (kept5 m ρ c b h2)
/-- … and, untouched by the next stretch too, still holds it when the second node update is entered. -/
private theorem carried7 (b : Ref sig .tc) (h2 : b ∉ wr2) (a2 : ∀ w, Pipeline.arrRef spec2 w ≠ b) (h3 : b ∉ wr3) :
    W7 m ρ c (Proc.devRef .tc b) = W4 m ρ c (Proc.devRef .tc b) :=
  (kept7 m ρ c b h3).trans (carried6 m ρ c b h2 a2)
/-- … and, not an array of the second node update either, still holds it at that update's exit. -/
private theorem carried8 (b : Ref sig .tc) (h2 : b ∉ wr2) (a2 : ∀ w, Pipeline.arrRef spec2 w ≠ b) (h3 : b ∉ wr3)
    (a3 : ∀ w, Pipeline.arrRef spec3 w ≠ b) : W8 m ρ c (Proc.devRef .tc b) = W4 m ρ c (Proc.devRef .tc b) :=
  (W8_of_ne m ρ c b a3).trans (carried7 m ρ c b h2 a2 h3)

/-! ## Entering the second message layer (after the third host stretch) -/

/-- The rows the second message layer reads are the reference's gather of its first node update at the sources. -/
private theorem gathered_at_W5 : W5 m ρ c (Proc.devRef .tc main_v25) = val_main_v39 (F := Ideal) (a0 m c) (a1 m c) (a2 m c) (a3 m c) (a4 m c) (a5 m c) (a6 m c) (a7 m c) (a8 m c) := by
  have e : W5 m ρ c (Proc.devRef .tc main_v25)
      = rowsAt (F := Ideal) (W4 m ρ c (Proc.devRef .tc main_v18)) (W4 m ρ c (Proc.devRef .tc main_v1)) := by
    show StableHlo.after hostOps2 (W4 m ρ c) (Proc.devRef .tc main_v25) = _
    after_results
    rfl
  rw [e, upd1_at_W4, src_at_W4, ref_gather1]

/-- The second message layer's bias, as one row. -/
private theorem bias_at_W5 : W5 m ρ c (Proc.devRef .tc main_v26) = Cert.Spec.row (a10 m c) := by
  have e : W5 m ρ c (Proc.devRef .tc main_v26)
      = shapeCast S1x128 (W4 m ρ c (Proc.devRef .tc main_arg10)) shapeCasts_S128_S1x128 := by
    show StableHlo.after hostOps2 (W4 m ρ c) (Proc.devRef .tc main_v26) = _
    after_results
    rfl
  rw [e, arg10_at_W4]
  exact reshape_row _ _

private theorem arg2_at_W5 : W5 m ρ c (Proc.devRef .tc main_arg2) = a2 m c :=
  (kept5 m ρ c main_arg2 (by decide)).trans (arg2_at_W4 m ρ c)
private theorem arg9_at_W5 : W5 m ρ c (Proc.devRef .tc main_arg9) = a9 m c :=
  (kept5 m ρ c main_arg9 (by decide)).trans (arg9_at_W4 m ρ c)

/-! ## The second message layer's exit -/

/-- The layer's output array holds the reference's second rectified message stage. -/
private theorem msg_at_W6 : W6 m ρ c (Proc.devRef .tc main_v27) = val_main_v45 (F := Ideal) (a0 m c) (a1 m c) (a2 m c) (a3 m c) (a4 m c) (a5 m c) (a6 m c) (a7 m c) (a8 m c) (a9 m c) (a10 m c) := by
  rw [Cert.ReferenceIdeal.Stages.msg2]
  refine (W6_arr m ρ c 4).trans ((Cert.KernelIdeal.Region2.final (V5 m ρ) c).trans ?_)
  show Cert.Spec.edgeMsg (W5 m ρ c (Proc.devRef .tc main_v25)) (W5 m ρ c (Proc.devRef .tc main_arg2))
    (W5 m ρ c (Proc.devRef .tc main_arg9)) (W5 m ρ c (Proc.devRef .tc main_v26)) = _
  rw [gathered_at_W5, arg2_at_W5, arg9_at_W5, bias_at_W5]

/-- The edge features are an input window of the layer: unchanged by it. -/
private theorem arg2_at_W6 : W6 m ρ c (Proc.devRef .tc main_arg2) = a2 m c :=
  ((W6_arr m ρ c 1).trans (((dat2 (V5 m ρ) c).arrAt_in 1 rfl _).trans (A_eq2 (V5 m ρ) c 1))).trans (arg2_at_W5 m ρ c)
private theorem dst_at_W6 : W6 m ρ c (Proc.devRef .tc main_v3) = val_main_v3 (F := Ideal) (a1 m c) :=
  (carried6 m ρ c main_v3 (by decide) (by decide)).trans (dst_at_W4 m ρ c)
private theorem arg12_at_W6 : W6 m ρ c (Proc.devRef .tc main_arg12) = a12 m c :=
  (carried6 m ρ c main_arg12 (by decide) (by decide)).trans (arg12_at_W4 m ρ c)
private theorem arg14_at_W6 : W6 m ρ c (Proc.devRef .tc main_arg14) = a14 m c :=
  (carried6 m ρ c main_arg14 (by decide) (by decide)).trans (arg14_at_W4 m ρ c)

/-! ## Entering the second node update (after the fourth host stretch) -/

/-- The aggregated second-layer messages are the reference's scatter-add stage. -/
private theorem aggr_at_W7 : W7 m ρ c (Proc.devRef .tc main_v30) = val_main_v48 (F := Ideal) (a0 m c) (a1 m c) (a2 m c) (a3 m c) (a4 m c) (a5 m c) (a6 m c) (a7 m c) (a8 m c) (a9 m c) (a10 m c) := by
  have e : W7 m ρ c (Proc.devRef .tc main_v30)
      = sumInto (F := Ideal) (W6 m ρ c (Proc.devRef .tc main_v3)) (W6 m ρ c (Proc.devRef .tc main_v27)) := by
    show StableHlo.after hostOps3 (W6 m ρ c) (Proc.devRef .tc main_v30) = _
    after_results
    rfl
  rw [e, dst_at_W6, msg_at_W6, ref_aggr2]

/-- The update's two biases, each as one row. -/
private theorem bias1_at_W7 : W7 m ρ c (Proc.devRef .tc main_v31) = Cert.Spec.row (a12 m c) := by
  have e : W7 m ρ c (Proc.devRef .tc main_v31)
      = shapeCast S1x128 (W6 m ρ c (Proc.devRef .tc main_arg12)) shapeCasts_S128_S1x128 := by
    show StableHlo.after hostOps3 (W6 m ρ c) (Proc.devRef .tc main_v31) = _
    after_results
    rfl
  rw [e, arg12_at_W6]
  exact reshape_row _ _
private theorem bias2_at_W7 : W7 m ρ c (Proc.devRef .tc main_v32) = Cert.Spec.row (a14 m c) := by
  have e : W7 m ρ c (Proc.devRef .tc main_v32)
      = shapeCast S1x128 (W6 m ρ c (Proc.devRef .tc main_arg14)) shapeCasts_S128_S1x128 := by
    show StableHlo.after hostOps3 (W6 m ρ c) (Proc.devRef .tc main_v32) = _
    after_results
    rfl
  rw [e, arg14_at_W6]
  exact reshape_row _ _

private theorem upd1_at_W7 : W7 m ρ c (Proc.devRef .tc main_v18) = val_main_v32 (F := Ideal) (a0 m c) (a1 m c) (a2 m c) (a3 m c) (a4 m c) (a5 m c) (a6 m c) (a7 m c) (a8 m c) :=
  (carried7 m ρ c main_v18 (by decide) (by decide) (by decide)).trans (upd1_at_W4 m ρ c)
private theorem arg11_at_W7 : W7 m ρ c (Proc.devRef .tc main_arg11) = a11 m c :=
  (carried7 m ρ c main_arg11 (by decide) (by decide) (by decide)).trans (arg11_at_W4 m ρ c)
private theorem arg13_at_W7 : W7 m ρ c (Proc.devRef .tc main_arg13) = a13 m c :=
  (carried7 m ρ c main_arg13 (by decide) (by decide) (by decide)).trans (arg13_at_W4 m ρ c)

/-! ## The second node update's exit -/

/-- The update's output array holds the reference's second rectified node update. -/
private theorem upd2_at_W8 : W8 m ρ c (Proc.devRef .tc main_v33) = val_main_v61 (F := Ideal) (a0 m c) (a1 m c) (a2 m c) (a3 m c) (a4 m c) (a5 m c) (a6 m c) (a7 m c) (a8 m c) (a9 m c) (a10 m c) (a11 m c) (a12 m c) (a13 m c) (a14 m c) := by
  rw [Cert.ReferenceIdeal.Stages.upd2]
  refine (W8_arr m ρ c 6).trans ((Cert.KernelIdeal.Region3.final (V7 m ρ) c).trans ?_)
  show Cert.Spec.nodeUpd (W7 m ρ c (Proc.devRef .tc main_v18)) (W7 m ρ c (Proc.devRef .tc main_v30))
    (W7 m ρ c (Proc.devRef .tc main_arg11)) (W7 m ρ c (Proc.devRef .tc main_v31))
    (W7 m ρ c (Proc.devRef .tc main_arg13)) (W7 m ρ c (Proc.devRef .tc main_v32)) = _
  rw [upd1_at_W7, aggr_at_W7, arg11_at_W7, bias1_at_W7, arg13_at_W7, bias2_at_W7]

private theorem src_at_W8 : W8 m ρ c (Proc.devRef .tc main_v1) = val_main_v1 (F := Ideal) (a1 m c) :=
  (carried8 m ρ c main_v1 (by decide) (by decide) (by decide) (by decide)).trans (src_at_W4 m ρ c)
private theorem dst_at_W8 : W8 m ρ c (Proc.devRef .tc main_v3) = val_main_v3 (F := Ideal) (a1 m c) :=
  (carried8 m ρ c main_v3 (by decide) (by decide) (by decide) (by decide)).trans (dst_at_W4 m ρ c)
private theorem arg2_at_W8 : W8 m ρ c (Proc.devRef .tc main_arg2) = a2 m c :=
  (W8_of_ne m ρ c main_arg2 (by decide)).trans ((kept7 m ρ c main_arg2 (by decide)).trans (arg2_at_W6 m ρ c))
private theorem arg15_at_W8 : W8 m ρ c (Proc.devRef .tc main_arg15) = a15 m c :=
  (carried8 m ρ c main_arg15 (by decide) (by decide) (by decide) (by decide)).trans (arg15_at_W4 m ρ c)
private theorem arg16_at_W8 : W8 m ρ c (Proc.devRef .tc main_arg16) = a16 m c :=
  (carried8 m ρ c main_arg16 (by decide) (by decide) (by decide) (by decide)).trans (arg16_at_W4 m ρ c)
private theorem arg17_at_W8 : W8 m ρ c (Proc.devRef .tc main_arg17) = a17 m c :=
  (carried8 m ρ c main_arg17 (by decide) (by decide) (by decide) (by decide)).trans (arg17_at_W4 m ρ c)
private theorem arg18_at_W8 : W8 m ρ c (Proc.devRef .tc main_arg18) = a18 m c :=
  (carried8 m ρ c main_arg18 (by decide) (by decide) (by decide) (by decide)).trans (arg18_at_W4 m ρ c)

/-! ## Entering the edge classifier (after the fifth host stretch) -/

/-- The source rows are the reference's gather of its second node update at the wrapped sources. -/
private theorem srcRows_at_W9 : W9 m ρ c (Proc.devRef .tc main_v40) = val_main_v68 (F := Ideal) (a0 m c) (a1 m c) (a2 m c) (a3 m c) (a4 m c) (a5 m c) (a6 m c) (a7 m c) (a8 m c) (a9 m c) (a10 m c) (a11 m c) (a12 m c) (a13 m c) (a14 m c) := by
  have e : W9 m ρ c (Proc.devRef .tc main_v40)
      = rowsAt (F := Ideal) (W8 m ρ c (Proc.devRef .tc main_v33)) (W8 m ρ c (Proc.devRef .tc main_v1)) := by
    show StableHlo.after hostOps4 (W8 m ρ c) (Proc.devRef .tc main_v40) = _
    after_results
    rfl
  rw [e, upd2_at_W8, src_at_W8, ref_gatherSrc]

/-- The destination rows are the reference's gather at the wrapped destinations. -/
private theorem dstRows_at_W9 : W9 m ρ c (Proc.devRef .tc main_v47) = val_main_v75 (F := Ideal) (a0 m c) (a1 m c) (a2 m c) (a3 m c) (a4 m c) (a5 m c) (a6 m c) (a7 m c) (a8 m c) (a9 m c) (a10 m c) (a11 m c) (a12 m c) (a13 m c) (a14 m c) := by
  have e : W9 m ρ c (Proc.devRef .tc main_v47)
      = rowsAt (F := Ideal) (W8 m ρ c (Proc.devRef .tc main_v33)) (W8 m ρ c (Proc.devRef .tc main_v3)) := by
    show StableHlo.after hostOps4 (W8 m ρ c) (Proc.devRef .tc main_v47) = _
    after_results
    rfl
  rw [e, upd2_at_W8, dst_at_W8, ref_gatherDst]

/-- The three blocks of the classifier's first weight matrix. -/
private theorem wSrc_at_W9 : W9 m ρ c (Proc.devRef .tc main_v48) = Cert.Spec.rowsFrom 0 128 (by decide) (a15 m c) := by
  have e : W9 m ρ c (Proc.devRef .tc main_v48)
      = extractStridedSlice S128x128 ![0, 0] (W8 m ρ c (Proc.devRef .tc main_arg15)) slices_S263x128_S128x128_0_0 := by
    show StableHlo.after hostOps4 (W8 m ρ c) (Proc.devRef .tc main_v48) = _
    after_results
  rw [e, arg15_at_W8]
  exact slice_src _
private theorem wDst_at_W9 : W9 m ρ c (Proc.devRef .tc main_v49) = Cert.Spec.rowsFrom 128 128 (by decide) (a15 m c) := by
  have e : W9 m ρ c (Proc.devRef .tc main_v49)
      = extractStridedSlice S128x128 ![128, 0] (W8 m ρ c (Proc.devRef .tc main_arg15)) slices_S263x128_S128x128_128_0 := by
    show StableHlo.after hostOps4 (W8 m ρ c) (Proc.devRef .tc main_v49) = _
    after_results
  rw [e, arg15_at_W8]
  exact slice_dst _
private theorem wEdge_at_W9 : W9 m ρ c (Proc.devRef .tc main_v50) = Cert.Spec.rowsFrom 256 7 (by decide) (a15 m c) := by
  have e : W9 m ρ c (Proc.devRef .tc main_v50)
      = extractStridedSlice S7x128 ![256, 0] (W8 m ρ c (Proc.devRef .tc main_arg15)) slices_S263x128_S7x128_256_0 := by
    show StableHlo.after hostOps4 (W8 m ρ c) (Proc.devRef .tc main_v50) = _
    after_results
  rw [e, arg15_at_W8]
  exact slice_edge _

/-- The classifier's two biases, each as one row. -/
private theorem bias1_at_W9 : W9 m ρ c (Proc.devRef .tc main_v51) = Cert.Spec.row (a16 m c) := by
  have e : W9 m ρ c (Proc.devRef .tc main_v51)
      = shapeCast S1x128 (W8 m ρ c (Proc.devRef .tc main_arg16)) shapeCasts_S128_S1x128 := by
    show StableHlo.after hostOps4 (W8 m ρ c) (Proc.devRef .tc main_v51) = _
    after_results
    rfl
  rw [e, arg16_at_W8]
  exact reshape_row _ _
private theorem bias2_at_W9 : W9 m ρ c (Proc.devRef .tc main_v52) = Cert.Spec.row (a18 m c) := by
  have e : W9 m ρ c (Proc.devRef .tc main_v52)
      = shapeCast S1x2 (W8 m ρ c (Proc.devRef .tc main_arg18)) shapeCasts_S2_S1x2 := by
    show StableHlo.after hostOps4 (W8 m ρ c) (Proc.devRef .tc main_v52) = _
    after_results
    rfl
  rw [e, arg18_at_W8]
  exact reshape_row _ _

private theorem arg2_at_W9 : W9 m ρ c (Proc.devRef .tc main_arg2) = a2 m c :=
  (kept9 m ρ c main_arg2 (by decide)).trans (arg2_at_W8 m ρ c)
private theorem arg17_at_W9 : W9 m ρ c (Proc.devRef .tc main_arg17) = a17 m c :=
  (kept9 m ρ c main_arg17 (by decide)).trans (arg17_at_W8 m ρ c)

/-- THE RESULT: at the last boundary the result array holds the reference's result stage of the launch arguments. -/
theorem result : W10 m ρ c (Proc.devRef .tc main_v53) = val_main_v85 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) := by
  rw [Cert.ReferenceIdeal.Stages.mlp]
  refine (W10_arr m ρ c 9).trans ((Cert.KernelIdeal.Region4.final (V9 m ρ) c).trans ?_)
  show Cert.Spec.edgeMlp (W9 m ρ c (Proc.devRef .tc main_v40)) (W9 m ρ c (Proc.devRef .tc main_v47))
    (W9 m ρ c (Proc.devRef .tc main_arg2)) (W9 m ρ c (Proc.devRef .tc main_v48)) (W9 m ρ c (Proc.devRef .tc main_v49))
    (W9 m ρ c (Proc.devRef .tc main_v50)) (W9 m ρ c (Proc.devRef .tc main_v51)) (W9 m ρ c (Proc.devRef .tc main_arg17))
    (W9 m ρ c (Proc.devRef .tc main_v52)) = _
  rw [srcRows_at_W9, dstRows_at_W9, arg2_at_W9, wSrc_at_W9, wDst_at_W9, wEdge_at_W9, bias1_at_W9, arg17_at_W9,
    bias2_at_W9]

end Cert.KernelIdeal.Chain

end
-- ==== Proof.lean ====
/- Equivalence over the extended reals of a two-layer edge-conditioned graph convolution followed by an edge
   classifier, computed by five row-tiled kernels among host gathers and scatter-adds, against its dense reference.
   The kernel program's result array is read, boundary by boundary, as the reference's own result stage of the launch
   arguments; each kernel region is one layer of the specification (a sum over the contracted axis for every product
   with a weight matrix), and so is each dense stretch of the reference. No law beyond associativity and commutativity
   of the extended reals' addition and `1 · x = x` is used, so the finiteness of the inputs is never opened. -/
import proofs.«132114_j23519240913054_1_alg».proof.Defs
import proofs.«132114_j23519240913054_1_alg».proof.Proof.Gen.Kernel
import proofs.«132114_j23519240913054_1_alg».proof.Proof.Gen.KernelIdeal
import proofs.«132114_j23519240913054_1_alg».proof.Proof.Gen.ReferenceIdeal
import proofs.«132114_j23519240913054_1_alg».proof.Proof.Gen.Pre_finite_inputs
import proofs.«132114_j23519240913054_1_alg».proof.Proof.FrameKernel
import proofs.«132114_j23519240913054_1_alg».proof.Proof.FrameKernelIdeal
import proofs.«132114_j23519240913054_1_alg».proof.Proof.KRun
import proofs.«132114_j23519240913054_1_alg».proof.Proof.ChainB
import proofs.«132114_j23519240913054_1_alg».proof.Proof.Gen.ReferenceIdeal.Run
import proofs.«132114_j23519240913054_1_alg».proof.Proof.Gen.ReferenceIdeal.Read
import Idealize.ShloMosaic.Adequacy
import Idealize.ShloMosaic.Init

noncomputable section

namespace Cert.Proof

open Idealize.ShloMosaic Idealize.ShloMosaic.TcCoe Idealize.SL.Sem

/-- The word-level kernel program runs, faults nowhere and leaves its arguments as launched. -/
theorem frame_k : Cert.frame_Kernel := fun m ρ _ => Cert.Kernel.GenP.frame m ρ

/-- So does the idealized kernel program. -/
theorem frame_ki : Cert.frame_KernelIdeal := fun m ρ _ => Cert.KernelIdeal.GenP.frame m ρ

/-- The reference is a host program: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the reference's result stage of the (agreeing) launch arguments in their result arrays. -/
theorem algebraic : Cert.algebraic_KernelIdeal_ReferenceIdeal := by
  intro m ρ m' ρ' _ hagree
  refine ⟨fun c => Cert.KernelIdeal.GenP.W10 m ρ c (Proc.devRef .tc Cert.KernelIdeal.main_v53),
    Cert.KernelIdeal.GenP.run_named m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18⟩ := hagree c
  rw [Cert.ReferenceIdeal.Read.val_main_v85_eq, h0, h1, h2, h3, h4, h5, h6, h7, h8, h9, h10, h11, h12, h13, h14, h15, h16, h17, h18]
  exact (Cert.KernelIdeal.Chain.result m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
